-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S240000x3 : Shape := ⟨2, ![240000, 3]⟩
abbrev S240000x64 : Shape := ⟨2, ![240000, 64]⟩
abbrev S67x128 : Shape := ⟨2, ![67, 128]⟩
abbrev S128 : Shape := ⟨1, ![128]⟩
abbrev S60000 : Shape := ⟨1, ![60000]⟩
abbrev S60000x16 : Shape := ⟨2, ![60000, 16]⟩
abbrev S_ : Shape := ⟨0, ![]⟩

class Facts : Prop where
  bcast_S_S240000x3 : S_.BroadcastsInDim S240000x3 (![] : Fin 0 → Fin S240000x3.rank)
  reducesTo_S240000x3_S_d0_1 : S240000x3.ReducesTo [0, 1] S_
  h_S_ : 0 < S_.numel
  bcast_S_S240000x64 : S_.BroadcastsInDim S240000x64 (![] : Fin 0 → Fin S240000x64.rank)
  reducesTo_S240000x64_S_d0_1 : S240000x64.ReducesTo [0, 1] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S60000 : S_.BroadcastsInDim S60000 (![] : Fin 0 → Fin S60000.rank)
  reducesTo_S60000_S_d0 : S60000.ReducesTo [0] S_
  bcast_S_S60000x16 : S_.BroadcastsInDim S60000x16 (![] : Fin 0 → Fin S60000x16.rank)
  reducesTo_S60000x16_S_d0_1 : S60000x16.ReducesTo [0, 1] S_

variable [Facts]

def fn_part2 {F : FTy → Type} [FloatOps F] (main_arg6 : IVec S60000x16 32) (main_v30 : IVec S_ 1) (main_v32 : IVec S60000x16 1) (main_c_12 : IVec S_ 32) : IVec S_ 1 :=
  let main_v33 : IVec S60000x16 32 := broadcastInDim S60000x16 ![] bcast_S_S60000x16 main_c_12
  let main_v34 : IVec S60000x16 1 := cmpi .slt main_arg6 main_v33
  let main_v35 : IVec S60000x16 1 := andi main_v32 main_v34
  let main_c_13 : IVec S_ 1 := constantI S_ 1 1#1
  let main_v36 : IVec S_ 1 := (fun x v => Host.reduce IntOp.andi x v reducesTo_S60000x16_S_d0_1 h_S_) main_v35 main_c_13
  let main_v37 : IVec S_ 1 := andi main_v30 main_v36
  main_v37

def fn_part1 {F : FTy → Type} [FloatOps F] (main_arg4 : FVec F S128 .f32) (main_arg5 : IVec S60000 32) (main_arg6 : IVec S60000x16 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294727296#32
  let main_v24 : IVec S60000 32 := broadcastInDim S60000 ![] bcast_S_S60000 main_c_8
  let main_v25 : IVec S60000 1 := cmpi .sge main_arg5 main_v24
  let main_c_9 : IVec S_ 32 := constantI S_ 32 240000#32
  let main_v26 : IVec S60000 32 := broadcastInDim S60000 ![] bcast_S_S60000 main_c_9
  let main_v27 : IVec S60000 1 := cmpi .slt main_arg5 main_v26
  let main_v28 : IVec S60000 1 := andi main_v25 main_v27
  let main_c_10 : IVec S_ 1 := constantI S_ 1 1#1
  let main_v29 : IVec S_ 1 := (fun x v => Host.reduce IntOp.andi x v reducesTo_S60000_S_d0 h_S_) main_v28 main_c_10
  let main_v30 : IVec S_ 1 := andi main_v23 main_v29
  let main_c_11 : IVec S_ 32 := constantI S_ 32 4294727296#32
  let main_v31 : IVec S60000x16 32 := broadcastInDim S60000x16 ![] bcast_S_S60000x16 main_c_11
  let main_v32 : IVec S60000x16 1 := cmpi .sge main_arg6 main_v31
  let main_c_12 : IVec S_ 32 := constantI S_ 32 240000#32
  fn_part2 (F := F) main_arg6 main_v30 main_v32 main_c_12

def fn {F : FTy → Type} [FloatOps F] (main_arg0 : FVec F S240000x3 .f32) (main_arg1 : FVec F S240000x64 .f32) (main_arg2 : FVec F S67x128 .f32) (main_arg3 : FVec F S128 .f32) (main_arg4 : FVec F S128 .f32) (main_arg5 : IVec S60000 32) (main_arg6 : IVec S60000x16 32) : IVec S_ 1 :=
  let main_v0 : FVec F S240000x3 .f32 := Host.absf main_arg0
  let main_cst : FVec F S_ .f32 := constant S_ .f32 0x7F800000#32
  let main_v1 : FVec F S240000x3 .f32 := broadcastInDim S240000x3 ![] bcast_S_S240000x3 main_cst
  let main_v2 : IVec S240000x3 1 := cmpf .olt main_v0 main_v1
  let main_c : IVec S_ 1 := constantI S_ 1 1#1
  let main_v3 : IVec S_ 1 := (fun x v => Host.reduce IntOp.andi x v reducesTo_S240000x3_S_d0_1 h_S_) main_v2 main_c
  let main_v4 : FVec F S240000x64 .f32 := Host.absf main_arg1
  let main_cst_0 : FVec F S_ .f32 := constant S_ .f32 0x7F800000#32
  let main_v5 : FVec F S240000x64 .f32 := broadcastInDim S240000x64 ![] bcast_S_S240000x64 main_cst_0
  let main_v6 : IVec S240000x64 1 := cmpf .olt main_v4 main_v5
  let main_c_1 : IVec S_ 1 := constantI S_ 1 1#1
  let main_v7 : IVec S_ 1 := (fun x v => Host.reduce IntOp.andi x v reducesTo_S240000x64_S_d0_1 h_S_) main_v6 main_c_1
  let main_v8 : IVec S_ 1 := andi main_v3 main_v7
  let main_v9 : FVec F S67x128 .f32 := Host.absf main_arg2
  let main_cst_2 : FVec F S_ .f32 := constant S_ .f32 0x7F800000#32
  let main_v10 : FVec F S67x128 .f32 := broadcastInDim S67x128 ![] bcast_S_S67x128 main_cst_2
  let main_v11 : IVec S67x128 1 := cmpf .olt main_v9 main_v10
  let main_c_3 : IVec S_ 1 := constantI S_ 1 1#1
  let main_v12 : IVec S_ 1 := (fun x v => Host.reduce IntOp.andi x v reducesTo_S67x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S240000x3 : Shape := ⟨2, ![240000, 3]⟩
abbrev S240000x64 : Shape := ⟨2, ![240000, 64]⟩
abbrev S67x128 : Shape := ⟨2, ![67, 128]⟩
abbrev S128 : Shape := ⟨1, ![128]⟩
abbrev S60000 : Shape := ⟨1, ![60000]⟩
abbrev S60000x16 : Shape := ⟨2, ![60000, 16]⟩
abbrev S_ : Shape := ⟨0, ![]⟩
abbrev S60000x1 : Shape := ⟨2, ![60000, 1]⟩
abbrev S1 : Shape := ⟨1, ![1]⟩
abbrev S1x1 : Shape := ⟨2, ![1, 1]⟩
abbrev S60000x3 : Shape := ⟨2, ![60000, 3]⟩
abbrev S60000x16x1 : Shape := ⟨3, ![60000, 16, 1]⟩
abbrev S1x1x1 : Shape := ⟨3, ![1, 1, 1]⟩
abbrev S60000x16x3 : Shape := ⟨3, ![60000, 16, 3]⟩
abbrev S60000x1x3 : Shape := ⟨3, ![60000, 1, 3]⟩
abbrev S60000x16x64 : Shape := ⟨3, ![60000, 16, 64]⟩
abbrev S60000x16x67 : Shape := ⟨3, ![60000, 16, 67]⟩
abbrev S1x128 : Shape := ⟨2, ![1, 128]⟩
abbrev S1000x16x67 : Shape := ⟨3, ![1000, 16, 67]⟩
abbrev S16000x67 : Shape := ⟨2, ![16000, 67]⟩
abbrev S16000x128 : Shape := ⟨2, ![16000, 128]⟩
abbrev S60000x128 : Shape := ⟨2, ![60000, 128]⟩
abbrev S1000x128 : Shape := ⟨2, ![1000, 128]⟩
abbrev S1000x16x128 : Shape := ⟨3, ![1000, 16, 128]⟩
abbrev S1x1x128 : Shape := ⟨3, ![1, 1, 128]⟩

abbrev nBuf : Space → Nat
  | .hbm => 106
  | .vmem => 12
  | .smem => 0
  | _ => 0

abbrev bufTy : (tb : Table) → Fin (tcTables nBuf tb) → BufTy
  | .hbm, ⟨0, _⟩ => ⟨S240000x3, .f32⟩
  | .hbm, ⟨1, _⟩ => ⟨S240000x64, .f32⟩
  | .hbm, ⟨2, _⟩ => ⟨S67x128, .f32⟩
  | .hbm, ⟨3, _⟩ => ⟨S128, .f32⟩
  | .hbm, ⟨4, _⟩ => ⟨S128, .f32⟩
  | .hbm, ⟨5, _⟩ => ⟨S60000, .i32⟩
  | .hbm, ⟨6, _⟩ => ⟨S60000x16, .i32⟩
  | .hbm, ⟨7, _⟩ => ⟨S_, .i32⟩
  | .hbm, ⟨8, _⟩ => ⟨S60000, .i32⟩
  | .hbm, ⟨9, _⟩ => ⟨S60000, .i1⟩
  | .hbm, ⟨10, _⟩ => ⟨S_, .i32⟩
  | .hbm, ⟨11, _⟩ => ⟨S60000, .i32⟩
  | .hbm, ⟨12, _⟩ => ⟨S60000, .i32⟩
  | .hbm, ⟨13, _⟩ => ⟨S60000, .i32⟩
  | .hbm, ⟨14, _⟩ => ⟨S60000x1, .i32⟩
  | .hbm, ⟨15, _⟩ => ⟨S1, .i32⟩
  | .hbm, ⟨16, _⟩ => ⟨S_, .i32⟩
  | .hbm, ⟨17, _⟩ => ⟨S60000x1, .i32⟩
  | .hbm, ⟨18, _⟩ => ⟨S60000x1, .i1⟩
  | .hbm, ⟨19, _⟩ => ⟨S1x1, .i32⟩
  | .hbm, ⟨20, _⟩ => ⟨S60000x1, .i32⟩
  | .hbm, ⟨21, _⟩ => ⟨S60000x1, .i1⟩
  | .hbm, ⟨22, _⟩ => ⟨S60000x1, .i1⟩
  | .hbm, ⟨23, _⟩ => ⟨S_, .i1⟩
  | .hbm, ⟨24, _⟩ => ⟨S60000, .i1⟩
  | .hbm, ⟨25, _⟩ => ⟨S60000x3, .f32⟩
  | .hbm, ⟨26, _⟩ => ⟨S60000x3, .i1⟩
  | .hbm, ⟨27, _⟩ => ⟨S_, .f32⟩
  | .hbm, ⟨28, _⟩ => ⟨S60000x3, .f32⟩
  | .hbm, ⟨29, _⟩ => ⟨S60000x3, .f32⟩
  | .hbm, ⟨30, _⟩ => ⟨S_, .i32⟩
  | .hbm, ⟨31, _⟩ => ⟨S60000x16, .i32⟩
  | .hbm, ⟨32, _⟩ => ⟨S60000x16, .i1⟩
  | .hbm, ⟨33, _⟩ => ⟨S_, .i32⟩
  | .hbm, ⟨34, _⟩ => ⟨S60000x16, .i32⟩
  | .hbm, ⟨35, _⟩ => ⟨S60000x16, .i32⟩
  | .hbm, ⟨36, _⟩ => ⟨S60000x16, .i32⟩
  | .hbm, ⟨37, _⟩ => ⟨S60000x16x1, .i32⟩
  | .hbm, ⟨38, _⟩ => ⟨S1, .i32⟩
  | .hbm, ⟨39, _⟩ => ⟨S_, .i32⟩
  | .hbm, ⟨40, _⟩ => ⟨S60000x16x1, .i32⟩
  | .hbm, ⟨41, _⟩ => ⟨S60000x16x1, .i1⟩
  | .hbm, ⟨42, _⟩ => ⟨S1x1x1, .i32⟩
  | .hbm, ⟨43, _⟩ => ⟨S60000x16x1, .i32⟩
  | .hbm, ⟨44, _⟩ => ⟨S60000x16x1, .i1⟩
  | .hbm, ⟨45, _⟩ => ⟨S60000x16x1, .i1⟩
  | .hbm, ⟨46, _⟩ => ⟨S_, .i1⟩
  | .hbm, ⟨47, _⟩ => ⟨S60000x16, .i1⟩
  | .hbm, ⟨48, _⟩ => ⟨S60000x16x3, .f32⟩
  | .hbm, ⟨49, _⟩ => ⟨S60000x16x3, .i1⟩
  | .hbm, ⟨50, _⟩ => ⟨S_, .f32⟩
  | .hbm, ⟨51, _⟩ => ⟨S60000x16x3, .f32⟩
  | .hbm, ⟨52, _⟩ => ⟨S60000x16x3, .f32⟩
  | .hbm, ⟨53, _⟩ => ⟨S60000x1x3, .f32⟩
  | .hbm, ⟨54, _⟩ => ⟨S60000x16x3, .f32⟩
  | .hbm, ⟨55, _⟩ => ⟨S60000x16x3, .f32⟩
  | .hbm, ⟨56, _⟩ => ⟨S_, .i32⟩
  | .hbm, ⟨57, _⟩ => ⟨S60000x16, .i32⟩
  | .hbm, ⟨58, _⟩ => ⟨S60000x16, .i1⟩
  | .hbm, ⟨59, _⟩ => ⟨S_, .i32⟩
  | .hbm, ⟨60, _⟩ => ⟨S60000x16, .i32⟩
  | .hbm, ⟨61, _⟩ => ⟨S60000x16, .i32⟩
  | .hbm, ⟨62, _⟩ => ⟨S60000x16, .i32⟩
  | .hbm, ⟨63, _⟩ => ⟨S60000x16x1, .i32⟩
  | .hbm, ⟨64, _⟩ => ⟨S1, .i32⟩
  | .hbm, ⟨65, _⟩ => ⟨S_, .i32⟩
  | .hbm, ⟨66, _⟩ => ⟨S60000x16x1, .i32⟩
  | .hbm, ⟨67, _⟩ => ⟨S60000x16x1, .i1⟩
  | .hbm, ⟨68, _⟩ => ⟨S1x1x1, .i32⟩
  | .hbm, ⟨69, _⟩ => ⟨S60000x16x1, .i32⟩
  | .hbm, ⟨70, _⟩ => ⟨S60000x16x1, .i1⟩
  | .hbm, ⟨71, _⟩ => ⟨S60000x16x1, .i1⟩
  | .hbm, ⟨72, _⟩ => ⟨S_, .i1⟩
  | .hbm, ⟨73, _⟩ => ⟨S60000x16, .i1⟩
  | .hbm, ⟨74, _⟩ => ⟨S60000x16x64, .f32⟩
  | .hbm, ⟨75, _⟩ => ⟨S60000x16x64, .i1⟩
  | .hbm, ⟨76, _⟩ => ⟨S_, .f32⟩
  | .hbm, ⟨77, _⟩ => ⟨S60000x16x64, .f32⟩
  | .hbm, ⟨78, _⟩ => ⟨S60000x16x64, .f32⟩
  | .hbm, ⟨79, _⟩ => ⟨S60000x16x67, .f32⟩
  | .hbm, ⟨80, _⟩ => ⟨S1x128, .f32⟩
  | .hbm, ⟨81, _⟩ => ⟨S1x128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S60000x128, .f32⟩
  | .local _ .vmem, ⟨0, _⟩ => ⟨S1000x16x67, .f32⟩
  | .local _ .vmem, ⟨1, _⟩ => ⟨S1000x16x67, .f32⟩
  | .local _ .vmem, ⟨2, _⟩ => ⟨S67x128, .f32⟩
  | .local _ .vmem, ⟨3, _⟩ => ⟨S1x128, .f32⟩
  | .local _ .vmem, ⟨4, _⟩ => ⟨S1x128, .f32⟩
  | .local _ .vmem, ⟨5, _⟩ => ⟨S1000x16x67, .f32⟩
  | .local _ .vmem, ⟨6, _⟩ => ⟨S1000x16x67, .f32⟩
  | .local _ .vmem, ⟨7, _⟩ => ⟨S67x128, .f32⟩
  | .local _ .vmem, ⟨8, _⟩ => ⟨S1x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | _, _ => ⟨S240000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_v7_0 : Ref sig .tc := ⟨.hbm, 80, rfl⟩
abbrev main_v7_1 : Ref sig .tc := ⟨.hbm, 81, rfl⟩
abbrev main_v8 : Ref sig .tc := ⟨.hbm, 82, rfl⟩
abbrev main_cst : Ref sig .tc := ⟨.hbm, 83, rfl⟩
abbrev main_v9 : Ref sig .tc := ⟨.hbm, 84, rfl⟩
abbrev main_v10 : Ref sig .tc := ⟨.hbm, 85, rfl⟩
abbrev main_v11 : Ref sig .tc := ⟨.hbm, 86, rfl⟩
abbrev main_cst_0 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_cst_1 : Ref sig .tc := ⟨.hbm, 92, rfl⟩
abbrev main_v16 : Ref sig .tc := ⟨.hbm, 93, rfl⟩
abbrev main_v17 : Ref sig .tc := ⟨.hbm, 94, rfl⟩
abbrev main_cst_2 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x16x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![60], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x16x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S67x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S1_S1x1_1 : S1.BroadcastsInDim S1x1 (![1] : Fin 1 → Fin S1x1.rank)
  bcast_S1x1_S60000x1_0_1 : S1x1.BroadcastsInDim S60000x1 (![0, 1] : Fin 2 → Fin S60000x1.rank)
  reducesTo_S60000x1_S60000_d1 : S60000x1.ReducesTo [1] S60000
  h_S_ : 0 < S_.numel
  bcast_S60000_S60000x3_0 : S60000.BroadcastsInDim S60000x3 (![0] : Fin 1 → Fin S60000x3.rank)
  bcast_S_S60000x3 : S_.BroadcastsInDim S60000x3 (![] : Fin 0 → Fin S60000x3.rank)
  bcast_S_S60000x16 : S_.BroadcastsInDim S60000x16 (![] : Fin 0 → Fin S60000x16.rank)
  bcast_S60000x16_S60000x16x1_0_1 : S60000x16.BroadcastsInDim S60000x16x1 (![0, 1] : Fin 2 → Fin S60000x16x1.rank)
  bcast_S_S60000x16x1 : S_.BroadcastsInDim S60000x16x1 (![] : Fin 0 → Fin S60000x16x1.rank)
  bcast_S1_S1x1x1_2 : S1.BroadcastsInDim S1x1x1 (![2] : Fin 1 → Fin S1x1x1.rank)
  bcast_S1x1x1_S60000x16x1_0_1_2 : S1x1x1.BroadcastsInDim S60000x16x1 (![0, 1, 2] : Fin 3 → Fin S60000x16x1.rank)
  reducesTo_S60000x16x1_S60000x16_d2 : S60000x16x1.ReducesTo [2] S60000x16
  bcast_S60000x16_S60000x16x3_0_1 : S60000x16.BroadcastsInDim S60000x16x3 (![0, 1] : Fin 2 → Fin S60000x16x3.rank)
  bcast_S_S60000x16x3 : S_.BroadcastsInDim S60000x16x3 (![] : Fin 0 → Fin S60000x16x3.rank)
  bcast_S60000x3_S60000x1x3_0_2 : S60000x3.BroadcastsInDim S60000x1x3 (![0, 2] : Fin 2 → Fin S60000x1x3.rank)
  bcast_S60000x1x3_S60000x16x3_0_1_2 : S60000x1x3.BroadcastsInDim S60000x16x3 (![0, 1, 2] : Fin 3 → Fin S60000x16x3.rank)
  bcast_S60000x16_S60000x16x64_0_1 : S60000x16.BroadcastsInDim S60000x16x64 (![0, 1] : Fin 2 → Fin S60000x16x64.rank)
  bcast_S_S60000x16x64 : S_.BroadcastsInDim S60000x16x64 (![] : Fin 0 → Fin S60000x16x64.rank)
  concatenates_S60000x16x3_S60000x16x64_S60000x16x67_d2 : Shape.Concatenates [S60000x16x3, S60000x16x64] S60000x16x67 2
  inb_S1x128_S1x128_0_0 : ∀ a, (![0, 0] : Fin 2 → Nat) a + S1x128.size a ≤ S1x128.size a
  h_S1x128 : 0 < S1x128.numel
  inb_S1000x16x67_S1000x16x67_0_0_0 : ∀ a, (![0, 0, 0] : Fin 3 → Nat) a + S1000x16x67.size a ≤ S1000x16x67.size a
  h_S1000x16x67 : 0 < S1000x16x67.numel
  shapeCasts_S1000x16x67_S1000x16x67 : S1000x16x67.ShapeCasts S1000x16x67
  shapeCasts_S1000x16x67_S16000x67 : S1000x16x67.ShapeCasts S16000x67
  bitsLt_bf16_f32 : FTy.bits .bf16 < FTy.bits .f32
  inb_S67x128_S67x128_0_0 : ∀ a, (![0, 0] : Fin 2 → Nat) a + S67x128.size a ≤ S67x128.size a
  h_S67x128 : 0 < S67x128.numel
  shapeCasts_S1x128_S1x128 : S1x128.ShapeCasts S1x128
  reduces_S16000x128_S128 : S16000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  shapeCasts_S16000x128_S1000x16x128 : S16000x128.ShapeCasts S1000x16x128
  shapeCasts_S1x128_S1x1x128 : S1x128.ShapeCasts S1x1x128
  broadcasts_S1x1x128_S1000x16x128 : S1x1x128.Broadcasts S1000x16x128
  reduces_S1000x16x128_S1000x128 : S1000x16x128.Reduces [1] S1000x128
  inb_S1000x128_S1000x128_0_0 : ∀ a, (![0, 0] : Fin 2 → Nat) a + S1000x128.size a ≤ S1000x128.size a
  h_S1000x128 : 0 < S1000x128.numel
  gather_S240000x3_S60000x1_S60000x3_1_0_n_n_0_1_13_wf : GatherDims.WF S240000x3 S60000x1 S60000x3 [1] [0] [] [0] [] 1 ![1, 3]
  gather_S240000x3_S60000x16x1_S60000x16x3_2_0_n_n_0_2_13_wf : GatherDims.WF S240000x3 S60000x16x1 S60000x16x3 [2] [0] [] [0] [] 2 ![1, 3]
  gather_S240000x64_S60000x16x1_S60000x16x64_2_0_n_n_0_2_164_wf : GatherDims.WF S240000x64 S60000x16x1 S60000x16x64 [2] [0] [] [0] [] 2 ![1, 64]
  dot_S16000x67_S67x128_S16000x128_1_0_0_1_n_n_wf : DotDims.WF S16000x67 S67x128 S16000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x67.size a ≤ S60000x16x67.size a
  hwx0_0 : ∀ i : grid0.Coords, EltTy.bits .f32 = 32 ∨ (Rect.block (s := S60000x16x67) S1000x16x67.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x128.size a ≤ S67x128.size a
  hwx0_1 : ∀ i : grid0.Coords, EltTy.bits .f32 = 32 ∨ (Rect.block (s := S67x128) S67x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x16x67.size a ≤ S60000x16x67.size a
  hwx1_0 : ∀ i : grid1.Coords, EltTy.bits .f32 = 32 ∨ (Rect.block (s := S60000x16x67) S1000x16x67.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S67x128.size a ≤ S67x128.size a
  hwx1_1 : ∀ i : grid1.Coords, EltTy.bits .f32 = 32 ∨ (Rect.block (s := S67x128) S67x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S60000x128.size a
  hwx1_4 : ∀ i : grid1.Coords, EltTy.bits .f32 = 32 ∨ (Rect.block (s := S60000x128) S1000x128.size (cc1_transform_4 i) (hinb1_4 i)).WholeWords (EltTy.packing .f32)

variable [Facts₀]

def gather_S240000x3_S60000x1_S60000x3_1_0_n_n_0_1_13 : GatherDims S240000x3 S60000x1 S60000x3 where
  offsetDims := [1]
  collapsedSliceDims := [0]
  operandBatchingDims := []
  startIndicesBatchingDims := []
  startIndexMap := [0]
  indexVectorDim := 1
  sliceSizes := ![1, 3]
  wf := gather_S240000x3_S60000x1_S60000x3_1_0_n_n_0_1_13_wf
def gather_S240000x3_S60000x16x1_S60000x16x3_2_0_n_n_0_2_13 : GatherDims S240000x3 S60000x16x1 S60000x16x3 where
  offsetDims := [2]
  collapsedSliceDims := [0]
  operandBatchingDims := []
  startIndicesBatchingDims := []
  startIndexMap := [0]
  indexVectorDim := 2
  sliceSizes := ![1, 3]
  wf := gather_S240000x3_S60000x16x1_S60000x16x3_2_0_n_n_0_2_13_wf
def gather_S240000x64_S60000x16x1_S60000x16x64_2_0_n_n_0_2_164 : GatherDims S240000x64 S60000x16x1 S60000x16x64 where
  offsetDims := [2]
  collapsedSliceDims := [0]
  operandBatchingDims := []
  startIndicesBatchingDims := []
  startIndexMap := [0]
  indexVectorDim := 2
  sliceSizes := ![1, 64]
  wf := gather_S240000x64_S60000x16x1_S60000x16x64_2_0_n_n_0_2_164_wf
def dot_S16000x67_S67x128_S16000x128_1_0_0_1_n_n : DotDims S16000x67 S67x128 S16000x128 where
  lhsContracting := [1]
  rhsContracting := [0]
  lhsNonContracting := [0]
  rhsNonContracting := [1]
  lhsBatch := []
  rhsBatch := []
  wf := dot_S16000x67_S67x128_S16000x128_1_0_0_1_n_n_wf

abbrev win0_0 : Pipeline.Window sig grid0 :=
  Pipeline.Window.ofSpec (Memref.whole main_v6) S1000x16x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S67x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1000x16x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S67x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S240000x3 : Shape := ⟨2, ![240000, 3]⟩
abbrev S240000x64 : Shape := ⟨2, ![240000, 64]⟩
abbrev S67x128 : Shape := ⟨2, ![67, 128]⟩
abbrev S128 : Shape := ⟨1, ![128]⟩
abbrev S60000 : Shape := ⟨1, ![60000]⟩
abbrev S60000x16 : Shape := ⟨2, ![60000, 16]⟩
abbrev S_ : Shape := ⟨0, ![]⟩
abbrev S60000x1 : Shape := ⟨2, ![60000, 1]⟩
abbrev S1 : Shape := ⟨1, ![1]⟩
abbrev S1x1 : Shape := ⟨2, ![1, 1]⟩
abbrev S60000x3 : Shape := ⟨2, ![60000, 3]⟩
abbrev S60000x16x1 : Shape := ⟨3, ![60000, 16, 1]⟩
abbrev S1x1x1 : Shape := ⟨3, ![1, 1, 1]⟩
abbrev S60000x16x3 : Shape := ⟨3, ![60000, 16, 3]⟩
abbrev S60000x1x3 : Shape := ⟨3, ![60000, 1, 3]⟩
abbrev S60000x16x64 : Shape := ⟨3, ![60000, 16, 64]⟩
abbrev S60000x16x67 : Shape := ⟨3, ![60000, 16, 67]⟩
abbrev S60000x16x128 : Shape := ⟨3, ![60000, 16, 128]⟩
abbrev S1x1x128 : Shape := ⟨3, ![1, 1, 128]⟩
abbrev S60000x128 : Shape := ⟨2, ![60000, 128]⟩

abbrev nBuf : Space → Nat
  | .hbm => 130
  | .vmem => 0
  | .smem => 0
  | _ => 0

abbrev hbmTy0_0 (i : Nat) : BufTy := match i % 128 with
  | 0 => ⟨S240000x3, .f32⟩
  | 1 => ⟨S240000x64, .f32⟩
  | 2 => ⟨S67x128, .f32⟩
  | 3 => ⟨S128, .f32⟩
  | 4 => ⟨S128, .f32⟩
  | 5 => ⟨S60000, .i32⟩
  | 6 => ⟨S60000x16, .i32⟩
  | 7 => ⟨S_, .i32⟩
  | 8 => ⟨S60000, .i32⟩
  | 9 => ⟨S60000, .i1⟩
  | 10 => ⟨S_, .i32⟩
  | 11 => ⟨S60000, .i32⟩
  | 12 => ⟨S60000, .i32⟩
  | 13 => ⟨S60000, .i32⟩
  | 14 => ⟨S60000x1, .i32⟩
  | 15 => ⟨S1, .i32⟩
  | 16 => ⟨S_, .i32⟩
  | 17 => ⟨S60000x1, .i32⟩
  | 18 => ⟨S60000x1, .i1⟩
  | 19 => ⟨S1x1, .i32⟩
  | 20 => ⟨S60000x1, .i32⟩
  | 21 => ⟨S60000x1, .i1⟩
  | 22 => ⟨S60000x1, .i1⟩
  | 23 => ⟨S_, .i1⟩
  | 24 => ⟨S60000, .i1⟩
  | 25 => ⟨S60000x3, .f32⟩
  | 26 => ⟨S60000x3, .i1⟩
  | 27 => ⟨S_, .f32⟩
  | 28 => ⟨S60000x3, .f32⟩
  | 29 => ⟨S60000x3, .f32⟩
  | 30 => ⟨S_, .i32⟩
  | 31 => ⟨S60000x16, .i32⟩
  | 32 => ⟨S60000x16, .i1⟩
  | 33 => ⟨S_, .i32⟩
  | 34 => ⟨S60000x16, .i32⟩
  | 35 => ⟨S60000x16, .i32⟩
  | 36 => ⟨S60000x16, .i32⟩
  | 37 => ⟨S60000x16x1, .i32⟩
  | 38 => ⟨S1, .i32⟩
  | 39 => ⟨S_, .i32⟩
  | 40 => ⟨S60000x16x1, .i32⟩
  | 41 => ⟨S60000x16x1, .i1⟩
  | 42 => ⟨S1x1x1, .i32⟩
  | 43 => ⟨S60000x16x1, .i32⟩
  | 44 => ⟨S60000x16x1, .i1⟩
  | 45 => ⟨S60000x16x1, .i1⟩
  | 46 => ⟨S_, .i1⟩
  | 47 => ⟨S60000x16, .i1⟩
  | 48 => ⟨S60000x16x3, .f32⟩
  | 49 => ⟨S60000x16x3, .i1⟩
  | 50 => ⟨S_, .f32⟩
  | 51 => ⟨S60000x16x3, .f32⟩
  | 52 => ⟨S60000x16x3, .f32⟩
  | 53 => ⟨S60000x1x3, .f32⟩
  | 54 => ⟨S60000x16x3, .f32⟩
  | 55 => ⟨S60000x16x3, .f32⟩
  | 56 => ⟨S_, .i32⟩
  | 57 => ⟨S60000x16, .i32⟩
  | 58 => ⟨S60000x16, .i1⟩
  | 59 => ⟨S_, .i32⟩
  | 60 => ⟨S60000x16, .i32⟩
  | 61 => ⟨S60000x16, .i32⟩
  | 62 => ⟨S60000x16, .i32⟩
  | 63 => ⟨S60000x16x1, .i32⟩
  | 64 => ⟨S1, .i32⟩
  | 65 => ⟨S_, .i32⟩
  | 66 => ⟨S60000x16x1, .i32⟩
  | 67 => ⟨S60000x16x1, .i1⟩
  | 68 => ⟨S1x1x1, .i32⟩
  | 69 => ⟨S60000x16x1, .i32⟩
  | 70 => ⟨S60000x16x1, .i1⟩
  | 71 => ⟨S60000x16x1, .i1⟩
  | 72 => ⟨S_, .i1⟩
  | 73 => ⟨S60000x16, .i1⟩
  | 74 => ⟨S60000x16x64, .f32⟩
  | 75 => ⟨S60000x16x64, .i1⟩
  | 76 => ⟨S_, .f32⟩
  | 77 => ⟨S60000x16x64, .f32⟩
  | 78 => ⟨S60000x16x64, .f32⟩
  | 79 => ⟨S60000x16x67, .f32⟩
  | 80 => ⟨S60000x16x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x1x128, .f32⟩
  | 90 => ⟨S_, .f32⟩
  | 91 => ⟨S1x1x128, .f32⟩
  | 92 => ⟨S1x1x128, .f32⟩
  | 93 => ⟨S60000x16x128, .f32⟩
  | 94 => ⟨S60000x16x128, .f32⟩
  | 95 => ⟨S60000x16x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x1x128, .f32⟩
  | 110 => ⟨S60000x16x128, .f32⟩
  | 111 => ⟨S60000x16x128, .f32⟩
  | 112 => ⟨S_, .f32⟩
  | 113 => ⟨S128, .f32⟩
  | 114 => ⟨S128, .f32⟩
  | 115 => ⟨S128, .f32⟩
  | 116 => ⟨S1x1x128, .f32⟩
  | 117 => ⟨S60000x16x128, .f32⟩
  | 118 => ⟨S60000x16x128, .f32⟩
  | 119 => ⟨S1x1x128, .f32⟩
  | 120 => ⟨S60000x16x128, .f32⟩
  | 121 => ⟨S60000x16x128, .f32⟩
  | 122 => ⟨S1x1x128, .f32⟩
  | 123 => ⟨S60000x16x128, .f32⟩
  | 124 => ⟨S60000x16x128, .f32⟩
  | 125 => ⟨S_, .f32⟩
  | 126 => ⟨S60000x16x128, .f32⟩
  | 127 => ⟨S60000x16x128, .f32⟩
  | _ => ⟨S240000x3, .f32⟩

abbrev hbmTy0_1 (i : Nat) : BufTy := match i % 128 with
  | 0 => ⟨S_, .f32⟩
  | 1 => ⟨S60000x128, .f32⟩
  | _ => ⟨S240000x3, .f32⟩

abbrev hbmTy (i : Nat) : BufTy := match i / 128 with
  | 0 => hbmTy0_0 i
  | 1 => hbmTy0_1 i
  | _ => ⟨S240000x3, .f32⟩

abbrev bufTy : (tb : Table) → Fin (tcTables nBuf tb) → BufTy
  | .hbm, ⟨i, _⟩ => hbmTy i
  | _, _ => ⟨S240000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_cst_0 : Ref sig .tc := ⟨.hbm, 83, rfl⟩
abbrev main_v9 : Ref sig .tc := ⟨.hbm, 84, rfl⟩
abbrev main_v10 : Ref sig .tc := ⟨.hbm, 85, rfl⟩
abbrev main_c : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_cst_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_cst_1 : Ref sig .tc := ⟨.hbm, 97, rfl⟩
abbrev main_call3_v8 : Ref sig .tc := ⟨.hbm, 98, rfl⟩
abbrev main_call3_cst_2 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_cst_3 : Ref sig .tc := ⟨.hbm, 103, rfl⟩
abbrev main_call3_v12 : Ref sig .tc := ⟨.hbm, 104, rfl⟩
abbrev main_call3_cst_4 : Ref sig .tc := ⟨.hbm, 105, rfl⟩
abbrev main_call3_call0_v0 : Ref sig .tc := ⟨.hbm, 106, rfl⟩
abbrev main_call3_call0_v1 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_cst_1 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_call4_cst : Ref sig .tc := ⟨.hbm, 125, rfl⟩
abbrev main_call4_v0 : Ref sig .tc := ⟨.hbm, 126, rfl⟩
abbrev main_v27 : Ref sig .tc := ⟨.hbm, 127, rfl⟩
abbrev main_cst_2 : Ref sig .tc := ⟨.hbm, 128, rfl⟩
abbrev main_v28 : Ref sig .tc := ⟨.hbm, 129, rfl⟩

abbrev nD : Nat := 1
abbrev τ : Topo := Topo.v7x

variable {F : FTy → Type} [FloatOps F]

class Facts₀ : Prop where
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S1_S1x1_1 : S1.BroadcastsInDim S1x1 (![1] : Fin 1 → Fin S1x1.rank)
  bcast_S1x1_S60000x1_0_1 : S1x1.BroadcastsInDim S60000x1 (![0, 1] : Fin 2 → Fin S60000x1.rank)
  reducesTo_S60000x1_S60000_d1 : S60000x1.ReducesTo [1] S60000
  h_S_ : 0 < S_.numel
  bcast_S60000_S60000x3_0 : S60000.BroadcastsInDim S60000x3 (![0] : Fin 1 → Fin S60000x3.rank)
  bcast_S_S60000x3 : S_.BroadcastsInDim S60000x3 (![] : Fin 0 → Fin S60000x3.rank)
  bcast_S_S60000x16 : S_.BroadcastsInDim S60000x16 (![] : Fin 0 → Fin S60000x16.rank)
  bcast_S60000x16_S60000x16x1_0_1 : S60000x16.BroadcastsInDim S60000x16x1 (![0, 1] : Fin 2 → Fin S60000x16x1.rank)
  bcast_S_S60000x16x1 : S_.BroadcastsInDim S60000x16x1 (![] : Fin 0 → Fin S60000x16x1.rank)
  bcast_S1_S1x1x1_2 : S1.BroadcastsInDim S1x1x1 (![2] : Fin 1 → Fin S1x1x1.rank)
  bcast_S1x1x1_S60000x16x1_0_1_2 : S1x1x1.BroadcastsInDim S60000x16x1 (![0, 1, 2] : Fin 3 → Fin S60000x16x1.rank)
  reducesTo_S60000x16x1_S60000x16_d2 : S60000x16x1.ReducesTo [2] S60000x16
  bcast_S60000x16_S60000x16x3_0_1 : S60000x16.BroadcastsInDim S60000x16x3 (![0, 1] : Fin 2 → Fin S60000x16x3.rank)
  bcast_S_S60000x16x3 : S_.BroadcastsInDim S60000x16x3 (![] : Fin 0 → Fin S60000x16x3.rank)
  bcast_S60000x3_S60000x1x3_0_2 : S60000x3.BroadcastsInDim S60000x1x3 (![0, 2] : Fin 2 → Fin S60000x1x3.rank)
  bcast_S60000x1x3_S60000x16x3_0_1_2 : S60000x1x3.BroadcastsInDim S60000x16x3 (![0, 1, 2] : Fin 3 → Fin S60000x16x3.rank)
  bcast_S60000x16_S60000x16x64_0_1 : S60000x16.BroadcastsInDim S60000x16x64 (![0, 1] : Fin 2 → Fin S60000x16x64.rank)
  bcast_S_S60000x16x64 : S_.BroadcastsInDim S60000x16x64 (![] : Fin 0 → Fin S60000x16x64.rank)
  concatenates_S60000x16x3_S60000x16x64_S60000x16x67_d2 : Shape.Concatenates [S60000x16x3, S60000x16x64] S60000x16x67 2
  reducesTo_S60000x16x128_S128_d0_1 : S60000x16x128.ReducesTo [0, 1] S128
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S60000x16x128_0_1_2 : S1x1x128.BroadcastsInDim S60000x16x128 (![0, 1, 2] : Fin 3 → Fin S60000x16x128.rank)
  bcast_S_S60000x16x128 : S_.BroadcastsInDim S60000x16x128 (![] : Fin 0 → Fin S60000x16x128.rank)
  reducesTo_S60000x16x128_S60000x128_d1 : S60000x16x128.ReducesTo [1] S60000x128
  gather_S240000x3_S60000x1_S60000x3_1_0_n_n_0_1_13_wf : GatherDims.WF S240000x3 S60000x1 S60000x3 [1] [0] [] [0] [] 1 ![1, 3]
  gather_S240000x3_S60000x16x1_S60000x16x3_2_0_n_n_0_2_13_wf : GatherDims.WF S240000x3 S60000x16x1 S60000x16x3 [2] [0] [] [0] [] 2 ![1, 3]
  gather_S240000x64_S60000x16x1_S60000x16x64_2_0_n_n_0_2_164_wf : GatherDims.WF S240000x64 S60000x16x1 S60000x16x64 [2] [0] [] [0] [] 2 ![1, 64]
  dot_S60000x16x67_S67x128_S60000x16x128_2_0_01_1_n_n_wf : DotDims.WF S60000x16x67 S67x128 S60000x16x128 [2] [0] [0, 1] [1] [] []

variable [Facts₀]

def gather_S240000x3_S60000x1_S60000x3_1_0_n_n_0_1_13 : GatherDims S240000x3 S60000x1 S60000x3 where
  offsetDims := [1]
  collapsedSliceDims := [0]
  operandBatchingDims := []
  startIndicesBatchingDims := []
  startIndexMap := [0]
  indexVectorDim := 1
  sliceSizes := ![1, 3]
  wf := gather_S240000x3_S60000x1_S60000x3_1_0_n_n_0_1_13_wf
def gather_S240000x3_S60000x16x1_S60000x16x3_2_0_n_n_0_2_13 : GatherDims S240000x3 S60000x16x1 S60000x16x3 where
  offsetDims := [2]
  collapsedSliceDims := [0]
  operandBatchingDims := []
  startIndicesBatchingDims := []
  startIndexMap := [0]
  indexVectorDim := 2
  sliceSizes := ![1, 3]
  wf := gather_S240000x3_S60000x16x1_S60000x16x3_2_0_n_n_0_2_13_wf
def gather_S240000x64_S60000x16x1_S60000x16x64_2_0_n_n_0_2_164 : GatherDims S240000x64 S60000x16x1 S60000x16x64 where
  offsetDims := [2]
  collapsedSliceDims := [0]
  operandBatchingDims := []
  startIndicesBatchingDims := []
  startIndexMap := [0]
  indexVectorDim := 2
  sliceSizes := ![1, 64]
  wf := gather_S240000x64_S60000x16x1_S60000x16x64_2_0_n_n_0_2_164_wf
def dot_S60000x16x67_S67x128_S60000x16x128_2_0_01_1_n_n : DotDims S60000x16x67 S67x128 S60000x16x128 where
  lhsContracting := [2]
  rhsContracting := [0]
  lhsNonContracting := [0, 1]
  rhsNonContracting := [1]
  lhsBatch := []
  rhsBatch := []
  wf := dot_S60000x16x67_S67x128_S60000x16x128_2_0_01_1_n_n_wf

class Facts : Prop extends Facts₀ where

variable [Facts]
-- ==== Proof.PreambleDefs.lean ====
/-
  What both programs compute before the dense layer, as one function of the argument arrays.

  A row lookup "take" reads row idx of a 240000-row table; a negative idx counts from the back (idx + 240000), and a
  row number outside 0 … 239999 after that yields the fill value in every column. The sampled points are
  point[sample_idx]; a neighbour's 67 numbers are its coordinates minus its sampled point's, followed by its 64
  features.
-/
import proofs.«137218_j74440373174612_1_alg».proof.ReferenceIdeal

noncomputable section

namespace Cert.ReferenceIdeal.TD

open Idealize.ShloMosaic Cert.ReferenceIdeal

variable {F : FTy → Type} [FloatOps F] [Facts]
open Facts₀ Facts

/-- A row number counted from the front: negative ones wrap once. -/
def wrap1 (sidx : IVec S60000 32) : IVec S60000 32 :=
  select (cmpi .slt sidx (broadcastInDim S60000 ![] bcast_S_S60000 (constantI S_ 32 0#32)))
    (addi sidx (broadcastInDim S60000 ![] bcast_S_S60000 (constantI S_ 32 240000#32))) sidx

/-- The sampled points: point[sample_idx], the fill value where the row number is out of range. -/
def newPoint (point : FVec F S240000x3 .f32) (sidx : IVec S60000 32) : FVec F S60000x3 .f32 :=
  let v5 : IVec S60000x1 32 := broadcastInDim S60000x1 ![0] bcast_S60000_S60000x1_0 (wrap1 sidx)
  let v7 : IVec S60000x1 1 := cmpi .sge v5 (broadcastInDim S60000x1 ![] bcast_S_S60000x1 (constantI S_ 32 0#32))
  let v10 : IVec S60000x1 1 := cmpi .sle v5 (broadcastInDim S60000x1 ![0, 1] bcast_S1x1_S60000x1_0_1
    (broadcastInDim S1x1 ![1] bcast_S1_S1x1_1 (constantI S1 32 239999#32)))
  let v12 : IVec S60000 1 := Host.reduce IntOp.andi (andi v7 v10) (constantI S_ 1 1#1) reducesTo_S60000x1_S60000_d1 h_S_
  select (broadcastInDim S60000x3 ![0] bcast_S60000_S60000x3_0 v12)
    (Host.gather gather_S240000x3_S60000x1_S60000x3_1_0_n_n_0_1_13 point v5)
    (broadcastInDim S60000x3 ![] bcast_S_S60000x3 (constant S_ .f32 0x7FC00000#32))

/-- A neighbour table's row numbers counted from the front. -/
def wrap2 (kidx : IVec S60000x16 32) : IVec S60000x16 32 :=
  select (cmpi .slt kidx (broadcastInDim S60000x16 ![] bcast_S_S60000x16 (constantI S_ 32 0#32)))
    (addi kidx (broadcastInDim S60000x16 ![] bcast_S_S60000x16 (constantI S_ 32 240000#32))) kidx

/-- The in-range test of a neighbour table's wrapped row numbers. -/
def okMask (v5 : IVec S60000x16x1 32) : IVec S60000x16 1 :=
  let v7 : IVec S60000x16x1 1 := cmpi .sge v5 (broadcastInDim S60000x16x1 ![] bcast_S_S60000x16x1 (constantI S_ 32 0#32))
  let v10 : IVec S60000x16x1 1 := cmpi .sle v5 (broadcastInDim S60000x16x1 ![0, 1, 2] bcast_S1x1x1_S60000x16x1_0_1_2
    (broadcastInDim S1x1x1 ![2] bcast_S1_S1x1x1_2 (constantI S1 32 239999#32)))
  Host.reduce IntOp.andi (andi v7 v10) (constantI S_ 1 1#1) reducesTo_S60000x16x1_S60000x16_d2 h_S_

/-- The neighbours' coordinates: point[knn_idx]. -/
def takeXyz (point : FVec F S240000x3 .f32) (kidx : IVec S60000x16 32) : FVec F S60000x16x3 .f32 :=
  let v5 : IVec S60000x16x1 32 := broadcastInDim S60000x16x1 ![0, 1] bcast_S60000x16_S60000x16x1_0_1 (wrap2 kidx)
  select (broadcastInDim S60000x16x3 ![0, 1] bcast_S60000x16_S60000x16x3_0_1 (okMask v5))
    (Host.gather gather_S240000x3_S60000x16x1_S60000x16x3_2_0_n_n_0_2_13 point v5)
    (broadcastInDim S60000x16x3 ![] bcast_S_S60000x16x3 (constant S_ .f32 0x7FC00000#32))

/-- The neighbours' features: feat[knn_idx]. -/
def takeFeat (feat : FVec F S240000x64 .f32) (kidx : IVec S60000x16 32) : FVec F S60000x16x64 .f32 :=
  let v5 : IVec S60000x16x1 32 := broadcastInDim S60000x16x1 ![0, 1] bcast_S60000x16_S60000x16x1_0_1 (wrap2 kidx)
  select (broadcastInDim S60000x16x64 ![0, 1] bcast_S60000x16_S60000x16x64_0_1 (okMask v5))
    (Host.gather gather_S240000x64_S60000x16x1_S60000x16x64_2_0_n_n_0_2_164 feat v5)
    (broadcastInDim S60000x16x64 ![] bcast_S_S60000x16x64 (constant S_ .f32 0x7FC00000#32))

/-- The grouped input: per neighbour, its coordinates relative to its sampled point, then its features. -/
def grouped (point : FVec F S240000x3 .f32) (feat : FVec F S240000x64 .f32) (sidx : IVec S60000 32)
    (kidx : IVec S60000x16 32) : FVec F S60000x16x67 .f32 :=
  concatenate S60000x16x67 2
    [⟨S60000x16x3, subf (takeXyz point kidx)
        (broadcastInDim S60000x16x3 ![0, 1, 2] bcast_S60000x1x3_S60000x16x3_0_1_2
          (broadcastInDim S60000x1x3 ![0, 2] bcast_S60000x3_S60000x1x3_0_2 (newPoint point sidx)))⟩,
     ⟨S60000x16x64, takeFeat feat kidx⟩]
    concatenates_S60000x16x3_S60000x16x64_S60000x16x67_d2

end Cert.ReferenceIdeal.TD

end
-- ==== Proof.Spec.lean ====
/-
  The mathematics both programs are compared through, index by index, on the extended reals.

  A point's 16 neighbours each carry 67 numbers (3 relative coordinates, 64 features); the dense layer sends neighbour
  (m, k) to y[m,k,d] = Σ_c x[m,k,c] · W[c,d]. Batch normalisation takes, per channel d, the mean and the variance of
  y[·,·,d] over all 60000 · 16 = 960000 neighbours, normalises, scales by γ, shifts by β, clips at 0, and the result
  is the maximum over a point's 16 neighbours.

  The two programs arrange this differently. One accumulates Σ y and Σ y², forms the variance as
  E[y²] − E[y]² clipped at 0, and folds the normalisation into one scale and one shift per channel:
  y · (γ·s) + (β − (μ·γ)·s). The other centres first, ((y − μ)·s)·γ + β, with the variance Σ (y − μ)² / n.
  Both are written here over the same dense values, so that the only thing left to prove between them is algebra
  on real numbers.
-/
import Idealize.ShloMosaic.PureOps.Ideal
import Idealize.ShloMosaic.Lib.ValueIdx

noncomputable section

namespace Cert.TD

open Idealize.ShloMosaic Idealize.ShloMosaic.ValueIdx

/-- The grouped input: 60000 points, 16 neighbours, 67 numbers each. -/
abbrev SX : Shape := ⟨3, ![60000, 16, 67]⟩
/-- The dense layer's weights. -/
abbrev SW : Shape := ⟨2, ![67, 128]⟩
/-- A per-channel vector. -/
abbrev SV : Shape := ⟨1, ![128]⟩
/-- A per-channel row, as the kernels keep it. -/
abbrev SR : Shape := ⟨2, ![1, 128]⟩
/-- The pooled output. -/
abbrev SO : Shape := ⟨2, ![60000, 128]⟩

/-- The dense layer at neighbour k of point m, channel d. -/
def Y (x : SX.Idx → EReal) (W : SW.Idx → EReal) (m : Fin 60000) (k : Fin 16) (d : Fin 128) : EReal :=
  ∑ c : Fin 67, x (ix3 m k c) * W (ix2 c d)

/-- Σ y over every neighbour of every point, per channel. -/
def S1 (x : SX.Idx → EReal) (W : SW.Idx → EReal) (d : Fin 128) : EReal :=
  ∑ m : Fin 60000, ∑ k : Fin 16, Y x W m k d

/-- Σ y² over every neighbour of every point, per channel. -/
def S2 (x : SX.Idx → EReal) (W : SW.Idx → EReal) (d : Fin 128) : EReal :=
  ∑ m : Fin 60000, ∑ k : Fin 16, Y x W m k d * Y x W m k d

/-- The number of neighbours in all, 960000, as both programs write it. -/
def nE : EReal := Ideal.ofBits .f32 0x496A6000#32
/-- The variance's guard ε, as both programs write it. -/
def epsE : EReal := Ideal.ofBits .f32 0x3727C5AC#32
/-- The clip level 0, as both programs write it. -/
def zeroE : EReal := Ideal.ofBits .f32 0x00000000#32
/-- The maximum's starting value −∞, as both programs write it. -/
def negInfE : EReal := Ideal.ofBits .f32 0xFF800000#32

/-- The mean per channel (the same quotient in both programs). -/
def mean (x : SX.Idx → EReal) (W : SW.Idx → EReal) (d : Fin 128) : EReal := Ideal.div (S1 x W d) nE

/-! ## The accumulate-then-fold arrangement -/

/-- E[y²] − E[y]², clipped at 0. -/
def varK (x : SX.Idx → EReal) (W : SW.Idx → EReal) (d : Fin 128) : EReal :=
  max (Ideal.div (S2 x W d) nE - mean x W d * mean x W d) zeroE

/-- γ · (var + ε)^(−1/2). -/
def scaleK (x : SX.Idx → EReal) (W : SW.Idx → EReal) (γ : SV.Idx → EReal) (d : Fin 128) : EReal :=
  γ (ix1 d) * Ideal.rsqrt (varK x W d + epsE)

/-- β − (μ · γ) · (var + ε)^(−1/2). -/
def shiftK (x : SX.Idx → EReal) (W : SW.Idx → EReal) (γ β : SV.Idx → EReal) (d : Fin 128) : EReal :=
  β (ix1 d) - (mean x W d * γ (ix1 d)) * Ideal.rsqrt (varK x W d + epsE)

/-- One neighbour's clipped value given a channel's scale and shift. -/
def cellK (y sc sh : EReal) : EReal := max (y * sc + sh) zeroE

/-- The pooled value at point m, channel d: the maximum over the 16 neighbours, from −∞. -/
def outK (x : SX.Idx → EReal) (W : SW.Idx → EReal) (γ β : SV.Idx → EReal) (m : Fin 60000) (d : Fin 128) : EReal :=
  (Finset.univ : Finset (Fin 16)).fold max negInfE
    (fun k => cellK (Y x W m k d) (scaleK x W γ d) (shiftK x W γ β d))

/-! ## The centre-then-scale arrangement -/

/-- Σ (y − μ)² / n. -/
def varR (x : SX.Idx → EReal) (W : SW.Idx → EReal) (d : Fin 128) : EReal :=
  Ideal.div (∑ m : Fin 60000, ∑ k : Fin 16, (Y x W m k d - mean x W d) * (Y x W m k d - mean x W d)) nE

/-- One neighbour's clipped value, centred first. -/
def cellR (y μ s g b : EReal) : EReal := max (((y - μ) * s) * g + b) zeroE

/-- The pooled value at point m, channel d. -/
def outR (x : SX.Idx → EReal) (W : SW.Idx → EReal) (γ β : SV.Idx → EReal) (m : Fin 60000) (d : Fin 128) : EReal :=
  (Finset.univ : Finset (Fin 16)).fold max negInfE
    (fun k => cellR (Y x W m k d) (mean x W d) (Ideal.rsqrt (varR x W d + epsE)) (γ (ix1 d)) (β (ix1 d)))

/-! ## The two facts the inputs are used through -/

/-- Every entry is a real number (neither infinity). -/
def AllReal {s : Shape} (v : s.Idx → EReal) : Prop := ∀ i, ∃ r : ℝ, v i = (r : EReal)

/-- Every entry is a row number of a 240000-row table, counted from the front (0 … 239999) or from the back
    (−240000 … −1). -/
def IdxOk {s : Shape} (v : IVec s 32) : Prop := ∀ i, -240000 ≤ (v i).toInt ∧ (v i).toInt < 240000

end Cert.TD

end
-- ==== Proof.KernelHost.lean ====
/-
  The kernel program's host stretches read through the run's boundary contents.

  Before the first pass the program builds the grouped input and the sampled points exactly as the reference does;
  between the passes it turns the two accumulated rows Σ y and Σ y² into one scale and one shift per channel:
  mean = Σy / n, var = max(Σy² / n − mean², 0), s = rsqrt(var + ε), scale = γ · s, shift = β − (mean · γ) · s.
-/
import proofs.«137218_j74440373174612_1_alg».proof.Proof.Gen.KernelIdeal.Frame
import proofs.«137218_j74440373174612_1_alg».proof.Proof.Gen.ReferenceIdeal
import proofs.«137218_j74440373174612_1_alg».proof.Proof.PreambleDefs
import proofs.«137218_j74440373174612_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-! ## The stretch between the passes, as terms of the two accumulated rows -/

/-- Σy / n per channel. -/
def meanT (s : FVec F S1x128 .f32) : FVec F S128 .f32 :=
  Host.divf (shapeCast S128 s shapeCasts_S1x128_S128) (broadcastInDim S128 ![] bcast_S_S128 (constant S_ .f32 0x496A6000#32))

/-- rsqrt(max(Σy²/n − mean², 0) + ε) per channel. -/
def invT (s q : FVec F S1x128 .f32) : FVec F S128 .f32 :=
  Host.rsqrt (addf
    (maximumf
      (subf (Host.divf (shapeCast S128 q shapeCasts_S1x128_S128) (broadcastInDim S128 ![] bcast_S_S128 (constant S_ .f32 0x496A6000#32)))
        (mulf (meanT s) (meanT s)))
      (broadcastInDim S128 ![] bcast_S_S128 (constant S_ .f32 0x00000000#32)))
    (broadcastInDim S128 ![] bcast_S_S128 (constant S_ .f32 0x3727C5AC#32)))

/-- The scale row γ · s. -/
def scaleT (s q : FVec F S1x128 .f32) (γ : FVec F S128 .f32) : FVec F S1x128 .f32 :=
  shapeCast S1x128 (mulf γ (invT s q)) shapeCasts_S128_S1x128

/-- The shift row β − (mean · γ) · s. -/
def shiftT (s q : FVec F S1x128 .f32) (γ β : FVec F S128 .f32) : FVec F S1x128 .f32 :=
  shapeCast S1x128 (subf β (mulf (mulf (meanT s) γ) (invT s q))) shapeCasts_S128_S1x128

variable (m : (ℓ : Loc nD τ sig) → Buf (Elt F) ℓ) (ρ : Dev nD → PrngReg)

/-! ## Reading the stretches off an arbitrary valuation -/

section Folds
variable (X : Valuation τ sig (Elt F))

/-- The stretch between the passes leaves the scale row at its term of the two accumulated rows and γ. -/
theorem scale_of_after :
    (StableHlo.after hostOps1 X (Proc.devRef .tc main_v22) : FVec F S1x128 .f32)
      = scaleT (X (Proc.devRef .tc main_v7_0)) (X (Proc.devRef .tc main_v7_1)) (X (Proc.devRef .tc main_arg3)) := by
  after_results_simp
  rfl

/-- … and the shift row at its term of the two accumulated rows, γ and β. -/
theorem shift_of_after :
    (StableHlo.after hostOps1 X (Proc.devRef .tc main_v26) : FVec F S1x128 .f32)
      = shiftT (X (Proc.devRef .tc main_v7_0)) (X (Proc.devRef .tc main_v7_1)) (X (Proc.devRef .tc main_arg3))
          (X (Proc.devRef .tc main_arg4)) := by
  after_results_simp
  rfl

/-- It writes neither the grouped input, the weights, nor the sampled points. -/
theorem x_of_after1 : StableHlo.after hostOps1 X (Proc.devRef .tc main_v6) = X (Proc.devRef .tc main_v6) := by
  after_results_simp
theorem w_of_after1 : StableHlo.after hostOps1 X (Proc.devRef .tc main_arg2) = X (Proc.devRef .tc main_arg2) := by
  after_results_simp
theorem np_of_after1 : StableHlo.after hostOps1 X (Proc.devRef .tc main_v0) = X (Proc.devRef .tc main_v0) := by
  after_results_simp

/-! ### The five stretches before the first pass, one at a time -/

attribute [local irreducible] Host.reduce Host.gather concatenate broadcastInDim

/-- Contents carried to a buffer's own type and back are unchanged. -/
theorem ofBuf_toBuf {T : BufTy} (x : StableHlo.TRef sig T) (v : T.Contents (Elt F)) : x.ofBuf (x.toBuf v) = v := by
  obtain ⟨r, h, h1, h2⟩ := x
  subst h
  rfl

/-- The first lookup: the sampled points. -/
theorem s0_np : (StableHlo.after hostOps0 X (Proc.devRef .tc main_v0) : FVec F S60000x3 .f32)
    = Cert.ReferenceIdeal.TD.newPoint (X (Proc.devRef .tc main_arg0)) (X (Proc.devRef .tc main_arg5)) := by
  after_results_simp
  simp only [ofBuf_toBuf]
  rfl
theorem s0_a0 : StableHlo.after hostOps0 X (Proc.devRef .tc main_arg0) = X (Proc.devRef .tc main_arg0) := by after_results_simp
theorem s0_a1 : StableHlo.after hostOps0 X (Proc.devRef .tc main_arg1) = X (Proc.devRef .tc main_arg1) := by after_results_simp
theorem s0_a2 : StableHlo.after hostOps0 X (Proc.devRef .tc main_arg2) = X (Proc.devRef .tc main_arg2) := by after_results_simp
theorem s0_a3 : StableHlo.after hostOps0 X (Proc.devRef .tc main_arg3) = X (Proc.devRef .tc main_arg3) := by after_results_simp
theorem s0_a4 : StableHlo.after hostOps0 X (Proc.devRef .tc main_arg4) = X (Proc.devRef .tc main_arg4) := by after_results_simp
theorem s0_a6 : StableHlo.after hostOps0 X (Proc.devRef .tc main_arg6) = X (Proc.devRef .tc main_arg6) := by after_results_simp

/-- The second lookup: the neighbours' coordinates. -/
theorem s1_xyz : (StableHlo.after hostOps0_1 X (Proc.devRef .tc main_v1) : FVec F S60000x16x3 .f32)
    = Cert.ReferenceIdeal.TD.takeXyz (X (Proc.devRef .tc main_arg0)) (X (Proc.devRef .tc main_arg6)) := by
  after_results_simp
  simp only [ofBuf_toBuf]
  rfl
theorem s1_np : StableHlo.after hostOps0_1 X (Proc.devRef .tc main_v0) = X (Proc.devRef .tc main_v0) := by after_results_simp
theorem s1_a1 : StableHlo.after hostOps0_1 X (Proc.devRef .tc main_arg1) = X (Proc.devRef .tc main_arg1) := by after_results_simp
theorem s1_a2 : StableHlo.after hostOps0_1 X (Proc.devRef .tc main_arg2) = X (Proc.devRef .tc main_arg2) := by after_results_simp
theorem s1_a3 : StableHlo.after hostOps0_1 X (Proc.devRef .tc main_arg3) = X (Proc.devRef .tc main_arg3) := by after_results_simp
theorem s1_a4 : StableHlo.after hostOps0_1 X (Proc.devRef .tc main_arg4) = X (Proc.devRef .tc main_arg4) := by after_results_simp
theorem s1_a6 : StableHlo.after hostOps0_1 X (Proc.devRef .tc main_arg6) = X (Proc.devRef .tc main_arg6) := by after_results_simp

/-- The subtraction of the sampled point from each of its neighbours. -/
theorem s2_rel : (StableHlo.after hostOps0_2 X (Proc.devRef .tc main_v4) : FVec F S60000x16x3 .f32)
    = subf (X (Proc.devRef .tc main_v1) : FVec F S60000x16x3 .f32)
        (broadcastInDim S60000x16x3 ![0, 1, 2] bcast_S60000x1x3_S60000x16x3_0_1_2
          (broadcastInDim S60000x1x3 ![0, 2] bcast_S60000x3_S60000x1x3_0_2 (X (Proc.devRef .tc main_v0) : FVec F S60000x3 .f32))) := by
  after_results_simp
theorem s2_np : StableHlo.after hostOps0_2 X (Proc.devRef .tc main_v0) = X (Proc.devRef .tc main_v0) := by after_results_simp
theorem s2_a1 : StableHlo.after hostOps0_2 X (Proc.devRef .tc main_arg1) = X (Proc.devRef .tc main_arg1) := by after_results_simp
theorem s2_a2 : StableHlo.after hostOps0_2 X (Proc.devRef .tc main_arg2) = X (Proc.devRef .tc main_arg2) := by after_results_simp
theorem s2_a3 : StableHlo.after hostOps0_2 X (Proc.devRef .tc main_arg3) = X (Proc.devRef .tc main_arg3) := by after_results_simp
theorem s2_a4 : StableHlo.after hostOps0_2 X (Proc.devRef .tc main_arg4) = X (Proc.devRef .tc main_arg4) := by after_results_simp
theorem s2_a6 : StableHlo.after hostOps0_2 X (Proc.devRef .tc main_arg6) = X (Proc.devRef .tc main_arg6) := by after_results_simp

/-- The third lookup: the neighbours' features. -/
theorem s3_feat : (StableHlo.after hostOps0_3 X (Proc.devRef .tc main_v5) : FVec F S60000x16x64 .f32)
    = Cert.ReferenceIdeal.TD.takeFeat (X (Proc.devRef .tc main_arg1)) (X (Proc.devRef .tc main_arg6)) := by
  after_results_simp
  simp only [ofBuf_toBuf]
  rfl
theorem s3_np : StableHlo.after hostOps0_3 X (Proc.devRef .tc main_v0) = X (Proc.devRef .tc main_v0) := by after_results_simp
theorem s3_rel : StableHlo.after hostOps0_3 X (Proc.devRef .tc main_v4) = X (Proc.devRef .tc main_v4) := by after_results_simp
theorem s3_a2 : StableHlo.after hostOps0_3 X (Proc.devRef .tc main_arg2) = X (Proc.devRef .tc main_arg2) := by after_results_simp
theorem s3_a3 : StableHlo.after hostOps0_3 X (Proc.devRef .tc main_arg3) = X (Proc.devRef .tc main_arg3) := by after_results_simp
theorem s3_a4 : StableHlo.after hostOps0_3 X (Proc.devRef .tc main_arg4) = X (Proc.devRef .tc main_arg4) := by after_results_simp

/-- The concatenation of the relative coordinates and the features. -/
theorem s4_x : (StableHlo.after hostOps0_4 X (Proc.devRef .tc main_v6) : FVec F S60000x16x67 .f32)
    = concatenate S60000x16x67 2 [⟨S60000x16x3, (X (Proc.devRef .tc main_v4) : FVec F S60000x16x3 .f32)⟩,
        ⟨S60000x16x64, (X (Proc.devRef .tc main_v5) : FVec F S60000x16x64 .f32)⟩]
        concatenates_S60000x16x3_S60000x16x64_S60000x16x67_d2 := by
  after_results_simp
theorem s4_np : StableHlo.after hostOps0_4 X (Proc.devRef .tc main_v0) = X (Proc.devRef .tc main_v0) := by after_results_simp
theorem s4_a2 : StableHlo.after hostOps0_4 X (Proc.devRef .tc main_arg2) = X (Proc.devRef .tc main_arg2) := by after_results_simp
theorem s4_a3 : StableHlo.after hostOps0_4 X (Proc.devRef .tc main_arg3) = X (Proc.devRef .tc main_arg3) := by after_results_simp
theorem s4_a4 : StableHlo.after hostOps0_4 X (Proc.devRef .tc main_arg4) = X (Proc.devRef .tc main_arg4) := by after_results_simp

end Folds

/-! ## The mean, the reciprocal deviation, the scale and the shift at a channel -/

section AtIndex
open Cert.TD

theorem row_to_vec (s : FVec Ideal S1x128 .f32) (d : Fin 128) :
    shapeCast S128 s shapeCasts_S1x128_S128 (ix1 d) = s (ix2 (0 : Fin 1) d) :=
  shapeCast_apply s _ (ix1 d) (ix2 (0 : Fin 1) d) (by
    rw [Shape.rowMajor_val_two, Shape.rowMajor_val_one]; show 0 * 128 + d.val = d.val; omega)

theorem vec_to_row (v : FVec Ideal S128 .f32) (d : Fin 128) :
    shapeCast S1x128 v shapeCasts_S128_S1x128 (ix2 (0 : Fin 1) d) = v (ix1 d) :=
  shapeCast_apply v _ (ix2 (0 : Fin 1) d) (ix1 d) (by
    rw [Shape.rowMajor_val_two, Shape.rowMajor_val_one]; show d.val = 0 * 128 + d.val; omega)

theorem meanT_apply (s : FVec Ideal S1x128 .f32) (d : Fin 128) :
    meanT s (ix1 d) = Ideal.div (s (ix2 (0 : Fin 1) d)) nE := by
  show Ideal.div (shapeCast S128 s shapeCasts_S1x128_S128 (ix1 d)) _ = _
  rw [row_to_vec]; rfl

theorem invT_apply (s q : FVec Ideal S1x128 .f32) (d : Fin 128) :
    invT s q (ix1 d)
      = Ideal.rsqrt (max (Ideal.div (q (ix2 (0 : Fin 1) d)) nE - meanT s (ix1 d) * meanT s (ix1 d)) zeroE + epsE) := by
  show Ideal.rsqrt (max (Ideal.div (shapeCast S128 q shapeCasts_S1x128_S128 (ix1 d)) _ - meanT s (ix1 d) * meanT s (ix1 d)) _ + _) = _
  rw [row_to_vec]; rfl

theorem scaleT_apply (s q : FVec Ideal S1x128 .f32) (γ : FVec Ideal S128 .f32) (d : Fin 128) :
    scaleT s q γ (ix2 (0 : Fin 1) d) = γ (ix1 d) * invT s q (ix1 d) := by
  unfold scaleT
  rw [vec_to_row]; rfl

theorem shiftT_apply (s q : FVec Ideal S1x128 .f32) (γ β : FVec Ideal S128 .f32) (d : Fin 128) :
    shiftT s q γ β (ix2 (0 : Fin 1) d) = β (ix1 d) - (meanT s (ix1 d) * γ (ix1 d)) * invT s q (ix1 d) := by
  unfold shiftT
  rw [vec_to_row]; rfl

/-- With the two rows holding Σ y and Σ y², the scale row is the specification's scale. -/
theorem scaleT_eq (x : SX.Idx → EReal) (W : SW.Idx → EReal) (s q : FVec Ideal S1x128 .f32) (γ : FVec Ideal S128 .f32) (d : Fin 128)
    (hs : s (ix2 (0 : Fin 1) d) = Cert.TD.S1 x W d) (hq : q (ix2 (0 : Fin 1) d) = Cert.TD.S2 x W d) :
    scaleT s q γ (ix2 (0 : Fin 1) d) = scaleK x W γ d := by
  rw [scaleT_apply, invT_apply, meanT_apply, hs, hq]; rfl

/-- … and the shift row the specification's shift. -/
theorem shiftT_eq (x : SX.Idx → EReal) (W : SW.Idx → EReal) (s q : FVec Ideal S1x128 .f32) (γ β : FVec Ideal S128 .f32) (d : Fin 128)
    (hs : s (ix2 (0 : Fin 1) d) = Cert.TD.S1 x W d) (hq : q (ix2 (0 : Fin 1) d) = Cert.TD.S2 x W d) :
    shiftT s q γ β (ix2 (0 : Fin 1) d) = shiftK x W γ β d := by
  rw [shiftT_apply, invT_apply, meanT_apply, hs, hq]; rfl

end AtIndex

end Cert.KernelIdeal.Host

end
-- ==== Proof.Region0.lean ====
/-
  What the statistics pass leaves in its two per-channel rows: Σ y and Σ y² over every neighbour of every point.

  The pass visits sixty grid points. Point t reads block t of the grouped input (points 1000·t … 1000·t + 999, their
  sixteen neighbours, sixty-seven numbers each) and the whole weight matrix, multiplies the block, flattened to
  16000 rows (row 16·r + k is neighbour k of the block's point r), by the weights, and adds the column sums of the
  product, and of its square, to the two rows; the first point clears the rows before it adds. Both rows are written
  back once, after the last point, and a row's block is its whole array.

  The argument: (1) in either control case each row ends holding "what it held (zero at the first point) plus the
  block's column sums"; (2) read at a channel d over the extended reals, the column sum of the product is
  Σ_{r < 1000} Σ_{k < 16} y(1000·t + r, k, d), with y the dense layer of the specification — the matrix product at
  a row is the sum over the 67 input numbers, and the 16000 rows split as 1000 × 16; (3) by induction on the point,
  after point n the rows hold the sums over the points of blocks 0 … n; (4) blocks 0 … 59 are all 60000 points;
  (5) the one write-back puts what the last point left into the result arrays. Sums of extended reals re-associate
  freely and 0 + s = s, so no finiteness is used anywhere.
-/
import proofs.«137218_j74440373174612_1_alg».proof.Proof.Gen.KernelIdeal.Frame
import proofs.«137218_j74440373174612_1_alg».proof.Proof.Spec
import Idealize.ShloMosaic.Lib.Pipeline.Value
import Idealize.ShloMosaic.Lib.Tactic
import Idealize.ShloMosaic.Lib.ValueIdx
import Idealize.ShloMosaic.PureOps.Ideal.Laws

noncomputable section

namespace Cert.KernelIdeal.R0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## What each control case leaves in the two rows

At any float instance: the body's last store into a row covers it, so the row ends holding that store's value, computed
from the input block, the weights and what the row held before — the zeros just stored, in the first point's case. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves in the first row: what it held, plus the column sums of the block's product. -/
theorem out_B_2 (c : Dev nD) (i : grid0.Coords) (a1 : Memref sig .tc .vmem S1000x16x67 .f32) (h1 : a1.IsWhole)
    (a2 : Memref sig .tc .vmem S67x128 .f32) (h2 : a2.IsWhole) (a3 : Memref sig .tc .vmem S1x128 .f32) (h3 : a3.IsWhole)
    (a4 : Memref sig .tc .vmem S1x128 .f32) (h4 : a4.IsWhole) (hc : ¬cond0_0 i)
    (x0 : Vec F S1000x16x67 .f32) (x1 : Vec F S67x128 .f32) (xo2 xo3 : Vec F S1x128 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread,
    View.ld_unit_zero (S := S1000x16x67) hz3, View.ld_unit_zero (S := S67x128) hz2, View.ld_unit_zero (S := S1x128) hz2]

/-- A later point leaves in the second row: what it held, plus the column sums of the squared product. -/
theorem out_B_3 (c : Dev nD) (i : grid0.Coords) (a1 : Memref sig .tc .vmem S1000x16x67 .f32) (h1 : a1.IsWhole)
    (a2 : Memref sig .tc .vmem S67x128 .f32) (h2 : a2.IsWhole) (a3 : Memref sig .tc .vmem S1x128 .f32) (h3 : a3.IsWhole)
    (a4 : Memref sig .tc .vmem S1x128 .f32) (h4 : a4.IsWhole) (hc : ¬cond0_0 i)
    (x0 : Vec F S1000x16x67 .f32) (x1 : Vec F S67x128 .f32) (xo2 xo3 : Vec F S1x128 .f32) :
    out0_B_3 c i a1 h1 a2 h2 a3 h3 a4 h4 hc x0 x1 xo2 xo3 = k0_pay5 x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h4.read_unread,
    View.ld_unit_zero (S := S1000x16x67) hz3, View.ld_unit_zero (S := S67x128) hz2, View.ld_unit_zero (S := S1x128) hz2]

/-- The first point leaves in the first row: the zeros it stored, plus the column sums of the block's product. -/
theorem out_A_2 (c : Dev nD) (i : grid0.Coords) (a1 : Memref sig .tc .vmem S1000x16x67 .f32) (h1 : a1.IsWhole)
    (a2 : Memref sig .tc .vmem S67x128 .f32) (h2 : a2.IsWhole) (a3 : Memref sig .tc .vmem S1x128 .f32) (h3 : a3.IsWhole)
    (a4 : Memref sig .tc .vmem S1x128 .f32) (h4 : a4.IsWhole) (hc : cond0_0 i)
    (x0 : Vec F S1000x16x67 .f32) (x1 : Vec F S67x128 .f32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x128) hz2, View.readCov_unit_zero (S := S1x128) _ hz2]
  simp only [View.readAt_eq_ld, h1.read_unread, h2.read_unread,
    View.ld_unit_zero (S := S1000x16x67) hz3, View.ld_unit_zero (S := S67x128) hz2]

/-- The first point leaves in the second row: the zeros it stored, plus the column sums of the squared product. -/
theorem out_A_3 (c : Dev nD) (i : grid0.Coords) (a1 : Memref sig .tc .vmem S1000x16x67 .f32) (h1 : a1.IsWhole)
    (a2 : Memref sig .tc .vmem S67x128 .f32) (h2 : a2.IsWhole) (a3 : Memref sig .tc .vmem S1x128 .f32) (h3 : a3.IsWhole)
    (a4 : Memref sig .tc .vmem S1x128 .f32) (h4 : a4.IsWhole) (hc : cond0_0 i)
    (x0 : Vec F S1000x16x67 .f32) (x1 : Vec F S67x128 .f32) :
    out0_A_3 c i a1 h1 a2 h2 a3 h3 a4 h4 hc x0 x1 = k0_pay5 x0 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x128) hz2, View.readCov_unit_zero (S := S1x128) _ hz2]
  simp only [View.readAt_eq_ld, h1.read_unread, h2.read_unread,
    View.ld_unit_zero (S := S1000x16x67) hz3, View.ld_unit_zero (S := S67x128) hz2]

end Pieces

/-! ## The two stores' values at a channel, over the extended reals -/

section Payload

/-- The dense layer inside one block: neighbour k of the block's point r against column d of the weights. -/
def yB (x : S1000x16x67.Idx → EReal) (W : S67x128.Idx → EReal) (r : Fin 1000) (k : Fin 16) (d : Fin 128) : EReal :=
  ∑ cc : Fin 67, x (ix3 r k cc) * W (ix2 cc d)

/-- The product's dimension numbers: rows × the contracted axis, against the contracted axis × columns. -/
abbrev DD : DotDims S16000x67 S67x128 S16000x128 := dot_S16000x67_S67x128_S16000x128_1_0_0_1_n_n

/-- At output entry (j, d) and contraction coordinate cc the left operand is read at (j, cc), -/
theorem DD_lhs (j : Fin 16000) (d : Fin 128) (cc : Fin 67) :
    DD.lhsIdx (ix2 j d) ((contrEquiv1 DD 67 rfl rfl).symm cc) = ix2 j cc := by
  have c2 := contrEquiv1_symm_val DD 67 rfl rfl cc
  funext ax; apply Fin.ext
  match ax with
  | ⟨0, _⟩ => simp [DotDims.lhsIdx, dot_S16000x67_S67x128_S16000x128_1_0_0_1_n_n]; rfl
  | ⟨1, _⟩ => simp [DotDims.lhsIdx, dot_S16000x67_S67x128_S16000x128_1_0_0_1_n_n]; exact c2

/-- and the right operand at (cc, d). -/
theorem DD_rhs (j : Fin 16000) (d : Fin 128) (cc : Fin 67) :
    DD.rhsIdx (ix2 j d) ((contrEquiv1 DD 67 rfl rfl).symm cc) = ix2 cc d := by
  have c2 := contrEquiv1_symm_val DD 67 rfl rfl cc
  funext ax; apply Fin.ext
  match ax with
  | ⟨0, _⟩ => simp [DotDims.rhsIdx, dot_S16000x67_S67x128_S16000x128_1_0_0_1_n_n]; exact c2
  | ⟨1, _⟩ => simp [DotDims.rhsIdx, dot_S16000x67_S67x128_S16000x128_1_0_0_1_n_n]; rfl

/-- The product of the flattened block with the weights, at row j = 16·r + k and column d, is the dense layer at
    neighbour k of the block's point r: the narrowing of the operands changes no extended real, the accumulator is
    zero, and row j of the flattened block is (r, k) of the block (the same row-major position). -/
theorem pay3_apply (x : S1000x16x67.Idx → EReal) (W : S67x128.Idx → EReal) (r : Fin 1000) (k : Fin 16) (d : Fin 128)
    (j : Fin 16000) (hj : j.val = 16 * r.val + k.val) :
    k0_pay3 (F := Ideal) x W (ix2 j d) = yB x W r k d := by
  unfold k0_pay3
  refine (Ideal.matmul_constant_zero_apply DD none _ _ (ix2 j d)).trans ?_
  refine (Equiv.sum_comp (contrEquiv1 DD 67 rfl rfl).symm _).symm.trans ?_
  refine Finset.sum_congr rfl fun cc _ => ?_
  rw [DD_lhs, DD_rhs]
  show shapeCast S16000x67 (shapeCast S1000x16x67 x shapeCasts_S1000x16x67_S1000x16x67) shapeCasts_S1000x16x67_S16000x67 (ix2 j cc) * W (ix2 cc d) = _
  rw [shapeCast_self]
  refine congrArg (· * W (ix2 cc d)) ?_
  refine shapeCast_apply x shapeCasts_S1000x16x67_S16000x67 (ix2 j cc) (ix3 r k cc) ?_
  rw [Shape.rowMajor_val_three, Shape.rowMajor_val_two]
  show (r.val * 16 + k.val) * 67 + cc.val = j.val * 67 + cc.val
  rw [hj]; ring

/-- A sum over a·b consecutive numbers is the double sum over a groups of b consecutive numbers. -/
theorem sum_split {M : Type*} [AddCommMonoid M] (a b n : ℕ) (h : a * b = n) (g : Fin n → M) :
    ∑ m, g m = ∑ s : Fin a, ∑ r : Fin b, g ⟨b * s.val + r.val, by
      have := s.isLt; have := r.isLt
      calc b * s.val + r.val < b * s.val + b := by omega
        _ = b * (s.val + 1) := by ring
        _ ≤ b * a := Nat.mul_le_mul_left b (by omega)
        _ = n := by rw [Nat.mul_comm]; exact h⟩ := by
  subst h
  rw [← Equiv.sum_comp finProdFinEquiv g, Fintype.sum_prod_type]
  refine Finset.sum_congr rfl fun s _ => Finset.sum_congr rfl fun r _ => ?_
  refine congrArg g (Fin.ext ?_)
  show r.val + b * s.val = b * s.val + r.val
  omega

/-- Summing the product's rows away at column d visits the entries (j, d). -/
theorem lift_row (d : Fin 128) (j : Fin 16000) :
    reduces_S16000x128_S128.lift (ix1 d) j = ix2 j d := by
  funext ax; apply Fin.ext
  match ax with
  | ⟨0, _⟩ => rfl
  | ⟨1, _⟩ => rfl

/-- The first row's store at channel d: what the row held there, plus the dense layer summed over the block's
    thousand points and their sixteen neighbours. -/
theorem pay4_apply (x : S1000x16x67.Idx → EReal) (W : S67x128.Idx → EReal) (acc : S1x128.Idx → EReal) (d : Fin 128) :
    k0_pay4 (F := Ideal) x W acc (ix2 (0 : Fin 1) d) = acc (ix2 (0 : Fin 1) d) + ∑ r : Fin 1000, ∑ k : Fin 16, yB x W r k d := by
  unfold k0_pay4
  show shapeCast S1x128 acc shapeCasts_S1x128_S1x128 (ix2 (0 : Fin 1) d)
      + shapeCast S1x128 (multiReduction .add [0] S128 (k0_pay3 (F := Ideal) x W) 0x00000000#32 reduces_S16000x128_S128 (.inl rfl) rfl) shapeCasts_S128_S1x128 (ix2 (0 : Fin 1) d) = _
  rw [shapeCast_self]
  refine congrArg (acc (ix2 (0 : Fin 1) d) + ·) ?_
  refine (shapeCast_apply _ shapeCasts_S128_S1x128 (ix2 (0 : Fin 1) d) (ix1 d) (by
    rw [Shape.rowMajor_val_one, Shape.rowMajor_val_two]; show d.val = 0 * 128 + d.val; omega)).trans ?_
  refine (Ideal.multiReduction_add_single (k0_pay3 (F := Ideal) x W) 0x00000000#32 reduces_S16000x128_S128 (.inl rfl) rfl (ix1 d)).trans ?_
  refine (sum_split 1000 16 16000 rfl _).trans ?_
  refine Finset.sum_congr rfl fun r _ => Finset.sum_congr rfl fun k _ => ?_
  rw [lift_row]
  exact pay3_apply x W r k d _ rfl

/-- The second row's store at channel d: what the row held there, plus the squared dense layer summed likewise. -/
theorem pay5_apply (x : S1000x16x67.Idx → EReal) (W : S67x128.Idx → EReal) (acc : S1x128.Idx → EReal) (d : Fin 128) :
    k0_pay5 (F := Ideal) x W acc (ix2 (0 : Fin 1) d)
      = acc (ix2 (0 : Fin 1) d) + ∑ r : Fin 1000, ∑ k : Fin 16, yB x W r k d * yB x W r k d := by
  unfold k0_pay5
  show shapeCast S1x128 acc shapeCasts_S1x128_S1x128 (ix2 (0 : Fin 1) d)
      + shapeCast S1x128 (multiReduction .add [0] S128 (mulf (k0_pay3 (F := Ideal) x W) (k0_pay3 (F := Ideal) x W)) 0x00000000#32 reduces_S16000x128_S128 (.inl rfl) rfl) shapeCasts_S128_S1x128 (ix2 (0 : Fin 1) d) = _
  rw [shapeCast_self]
  refine congrArg (acc (ix2 (0 : Fin 1) d) + ·) ?_
  refine (shapeCast_apply _ shapeCasts_S128_S1x128 (ix2 (0 : Fin 1) d) (ix1 d) (by
    rw [Shape.rowMajor_val_one, Shape.rowMajor_val_two]; show d.val = 0 * 128 + d.val; omega)).trans ?_
  refine (Ideal.multiReduction_add_single (mulf (k0_pay3 (F := Ideal) x W) (k0_pay3 (F := Ideal) x W)) 0x00000000#32 reduces_S16000x128_S128 (.inl rfl) rfl (ix1 d)).trans ?_
  refine (sum_split 1000 16 16000 rfl _).trans ?_
  refine Finset.sum_congr rfl fun r _ => Finset.sum_congr rfl fun k _ => ?_
  rw [lift_row, mulf_apply]
  rw [pay3_apply x W r k d _ rfl]

end Payload

/-! ## The blocks a point reads -/

section Blocks

theorem hN60 : cfg0.N = 60 := N_0

/-- Where the four windows' blocks sit: the input's block index is the point number on the points' axis and zero on
    the others; the weights' and the two rows' block indices are zero throughout. -/
theorem idx_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)

/-- Row r of the block at point t is point 1000·t + r of the input. -/
def pt (t : Fin cfg0.N) (r : Fin 1000) : Fin 60000 :=
  ⟨1000 * t.val + r.val, by have := lt_of_lt_of_eq t.isLt hN60; have := r.isLt; omega⟩

/-- The input block at point t, read at (r, k, cc), is the input at (1000·t + r, k, cc). -/
theorem xblk_apply (c : Dev nD) (t : Fin cfg0.N) (r : Fin 1000) (k : Fin 16) (cc : Fin 67) :
    (iblk0 V c 0 t : S1000x16x67.Idx → EReal) (ix3 r k cc) = (V c main_v6 : S60000x16x67.Idx → EReal) (ix3 (pt t r) k cc) := by
  unfold iblk0
  rw [View.read_apply]
  show V c main_v6 _ = V c main_v6 _
  refine congrArg (V c main_v6) (funext fun a => Fin.ext ?_)
  obtain ⟨i0, i1, i2⟩ := idx_0 t
  match a with
  | ⟨0, _⟩ => show win0_0.index t 0 * 1000 + 1 * r.val = 1000 * t.val + r.val; rw [i0]; omega
  | ⟨1, _⟩ => show win0_0.index t 1 * 16 + 1 * k.val = k.val; rw [i1]; omega
  | ⟨2, _⟩ => show win0_0.index t 2 * 67 + 1 * cc.val = cc.val; rw [i2]; omega

/-- The weights' block at any point is the weight matrix. -/
theorem wblk_apply (c : Dev nD) (t : Fin cfg0.N) (cc : Fin 67) (d : Fin 128) :
    (iblk0 V c 1 t : S67x128.Idx → EReal) (ix2 cc d) = (V c main_arg2 : S67x128.Idx → EReal) (ix2 cc d) := by
  unfold iblk0
  rw [View.read_apply]
  show V c main_arg2 _ = V c main_arg2 _
  refine congrArg (V c main_arg2) (funext fun a => Fin.ext ?_)
  obtain ⟨i0, i1⟩ := idx_1 t
  match a with
  | ⟨0, _⟩ => show win0_1.index t 0 * 67 + 1 * cc.val = cc.val; rw [i0]; omega
  | ⟨1, _⟩ => show win0_1.index t 1 * 128 + 1 * d.val = d.val; rw [i1]; omega

/-- So the dense layer inside block t is the specification's dense layer at the block's points. -/
theorem yB_eq (c : Dev nD) (t : Fin cfg0.N) (r : Fin 1000) (k : Fin 16) (d : Fin 128) :
    yB (iblk0 V c 0 t) (iblk0 V c 1 t) r k d = Cert.TD.Y (V c main_v6) (V c main_arg2) (pt t r) k d := by
  unfold yB Cert.TD.Y
  refine Finset.sum_congr rfl fun cc _ => ?_
  rw [xblk_apply V c t r k cc, wblk_apply V c t cc d]

end Blocks

/-! ## The rows after each point -/

section Accumulation

/-- The sum of f over the thousand points of block s (nothing from a block past the sixtieth). -/
def blockSum (f : Fin 60000 → EReal) (s : ℕ) : EReal :=
  if h : s < 60 then ∑ r : Fin 1000, f ⟨1000 * s + r.val, by have := r.isLt; omega⟩ else 0

/-- The sum of f over the points of blocks 0 … n. -/
def accum (f : Fin 60000 → EReal) (n : ℕ) : EReal := ∑ s ∈ Finset.range (n + 1), blockSum f s

theorem accum_zero (f : Fin 60000 → EReal) : accum f 0 = blockSum f 0 := by
  unfold accum; rw [Finset.sum_range_one]

theorem accum_succ (f : Fin 60000 → EReal) (n : ℕ) : accum f (n + 1) = accum f n + blockSum f (n + 1) :=
  Finset.sum_range_succ _ _

/-- All sixty blocks together are every point. -/
theorem accum_last (f : Fin 60000 → EReal) : accum f 59 = ∑ m, f m := by
  unfold accum
  rw [sum_split 60 1000 60000 rfl f, ← Fin.sum_univ_eq_sum_range (fun s => blockSum f s) 60]
  refine Finset.sum_congr rfl fun s _ => ?_
  unfold blockSum; rw [dif_pos s.isLt]

/-- One point's share of Σ y: the sum over its sixteen neighbours. -/
def g1 (x : Cert.TD.SX.Idx → EReal) (W : Cert.TD.SW.Idx → EReal) (d : Fin 128) (m : Fin 60000) : EReal :=
  ∑ k : Fin 16, Cert.TD.Y x W m k d
/-- One point's share of Σ y². -/
def g2 (x : Cert.TD.SX.Idx → EReal) (W : Cert.TD.SW.Idx → EReal) (d : Fin 128) (m : Fin 60000) : EReal :=
  ∑ k : Fin 16, Cert.TD.Y x W m k d * Cert.TD.Y x W m k d

end Accumulation

section Invariant

/-- The input block at point t, and the weights as point t finds them. -/
abbrev xb (c : Dev nD) (t : Fin cfg0.N) : S1000x16x67.Idx → EReal := iblk0 V c 0 t
abbrev wb (c : Dev nD) (t : Fin cfg0.N) : S67x128.Idx → EReal := iblk0 V c 1 t

/-- What point t adds to the first row at channel d is block t's share of Σ y, -/
theorem block1 (c : Dev nD) (t : Fin cfg0.N) (d : Fin 128) :
    ∑ r : Fin 1000, ∑ k : Fin 16, yB (xb V c t) (wb V c t) r k d
      = blockSum (g1 (V c main_v6) (V c main_arg2) d) t.val := by
  have ht := lt_of_lt_of_eq t.isLt hN60
  unfold blockSum; rw [dif_pos ht]
  refine Finset.sum_congr rfl fun r _ => ?_
  show _ = ∑ k : Fin 16, Cert.TD.Y (V c main_v6) (V c main_arg2) (pt t r) k d
  refine Finset.sum_congr rfl fun k _ => ?_
  exact yB_eq V c t r k d

/-- and to the second row block t's share of Σ y². -/
theorem block2 (c : Dev nD) (t : Fin cfg0.N) (d : Fin 128) :
    ∑ r : Fin 1000, ∑ k : Fin 16, yB (xb V c t) (wb V c t) r k d * yB (xb V c t) (wb V c t) r k d
      = blockSum (g2 (V c main_v6) (V c main_arg2) d) t.val := by
  have ht := lt_of_lt_of_eq t.isLt hN60
  unfold blockSum; rw [dif_pos ht]
  refine Finset.sum_congr rfl fun r _ => ?_
  show _ = ∑ k : Fin 16, Cert.TD.Y (V c main_v6) (V c main_arg2) (pt t r) k d * Cert.TD.Y (V c main_v6) (V c main_arg2) (pt t r) k d
  refine Finset.sum_congr rfl fun k _ => ?_
  rw [yB_eq V c t r k d]

/-- The first point stores zeros and then adds its block. -/
theorem outs_zero (c : Dev nD) (hn : 0 < cfg0.N) :
    outsAt0 V c 0 hn = (k0_pay4 (F := Ideal) (xb V c ⟨0, hn⟩) (wb V c ⟨0, hn⟩) (k0_pay1 (F := Ideal)),
                        k0_pay5 (F := Ideal) (xb V c ⟨0, hn⟩) (wb V c ⟨0, hn⟩) (k0_pay2 (F := Ideal))) :=
  (outsAt0_A V c ⟨0, hn⟩ rfl).trans (congrArg₂ Prod.mk (out_A_2 ..) (out_A_3 ..))

/-- Every later point adds its block to what the point before left. -/
theorem outs_succ (c : Dev nD) (n : ℕ) (hn : n + 1 < cfg0.N) :
    outsAt0 V c (n + 1) hn
      = (k0_pay4 (F := Ideal) (xb V c ⟨n + 1, hn⟩) (wb V c ⟨n + 1, hn⟩) (outsAt0 V c n (Nat.lt_of_succ_lt hn)).1,
         k0_pay5 (F := Ideal) (xb V c ⟨n + 1, hn⟩) (wb V c ⟨n + 1, hn⟩) (outsAt0 V c n (Nat.lt_of_succ_lt hn)).2) := by
  have hB : ¬(⟨n + 1, hn⟩ : Fin cfg0.N).val % 60 = 0 := by
    have := lt_of_lt_of_eq hn hN60; dsimp only; omega
  exact (outsAt0_B V c ⟨n + 1, hn⟩ hB).trans (congrArg₂ Prod.mk (out_B_2 ..) (out_B_3 ..))

/-- After point n the two rows hold, at channel d, Σ y and Σ y² over the points of blocks 0 … n: the first point
    starts from zero, each later one adds its block's share to what the point before left. -/
theorem rows_after (c : Dev nD) (d : Fin 128) : ∀ (n : ℕ) (hn : n < cfg0.N),
    (outsAt0 V c n hn).1 (ix2 (0 : Fin 1) d) = accum (g1 (V c main_v6) (V c main_arg2) d) n
    ∧ (outsAt0 V c n hn).2 (ix2 (0 : Fin 1) d) = accum (g2 (V c main_v6) (V c main_arg2) d) n
  | 0, hn => by
    rw [outs_zero V c hn]
    dsimp only
    rw [accum_zero, accum_zero]
    constructor
    · refine (pay4_apply (xb V c ⟨0, hn⟩) (wb V c ⟨0, hn⟩) (k0_pay1 (F := Ideal)) d).trans ?_
      rw [block1 V c ⟨0, hn⟩ d]
      show Ideal.ofBits .f32 0x00000000#32 + _ = _
      rw [Ideal.ofBits_zero_f32, zero_add]
    · refine (pay5_apply (xb V c ⟨0, hn⟩) (wb V c ⟨0, hn⟩) (k0_pay2 (F := Ideal)) d).trans ?_
      rw [block2 V c ⟨0, hn⟩ d]
      show Ideal.ofBits .f32 0x00000000#32 + _ = _
      rw [Ideal.ofBits_zero_f32, zero_add]
  | n + 1, hn => by
    obtain ⟨ih1, ih2⟩ := rows_after c d n (Nat.lt_of_succ_lt hn)
    rw [outs_succ V c n hn]
    dsimp only
    rw [accum_succ, accum_succ]
    constructor
    · refine (pay4_apply (xb V c ⟨n + 1, hn⟩) (wb V c ⟨n + 1, hn⟩) (outsAt0 V c n (Nat.lt_of_succ_lt hn)).1 d).trans ?_
      rw [ih1, block1 V c ⟨n + 1, hn⟩ d]
    · refine (pay5_apply (xb V c ⟨n + 1, hn⟩) (wb V c ⟨n + 1, hn⟩) (outsAt0 V c n (Nat.lt_of_succ_lt hn)).2 d).trans ?_
      rw [ih2, block2 V c ⟨n + 1, hn⟩ d]

end Invariant

/-! ## The result arrays after the run -/

section Final

theorem h59 : 59 < cfg0.N := by rw [hN60]; decide

/-- The last point, the one whose blocks are written back. -/
abbrev t59 : Fin cfg0.N := ⟨59, h59⟩

/-- A row's block sits at offset zero on both axes and is as large as its array, so the part of a buffer X that a
    write-back moves is X read back through the block. -/
theorem cut_read2 (X : Vec Ideal S1x128 .f32) (t : Fin cfg0.N) :
    (cfg0.win 2).cut (grid0.coords t) X = ((cfg0.win 2).blk t).view.read (Elt Ideal) X := by
  have hz' : (fun a => win0_2.index t a * main_v7_0.ty.shape.size a) = fun _ => 0 := funext fun a => by
    obtain ⟨i0, i1⟩ := idx_2 t
    match a with
    | ⟨0, _⟩ => show win0_2.index t 0 * 1 = 0; rw [i0]
    | ⟨1, _⟩ => show win0_2.index t 1 * 128 = 0; rw [i1]
  exact (Memref.read_access_unit_zero (Elt Ideal) main_v7_0 hz' (fun a => by rw [congrFun hz' a]; simp) X).symm

theorem cut_read3 (X : Vec Ideal S1x128 .f32) (t : Fin cfg0.N) :
    (cfg0.win 3).cut (grid0.coords t) X = ((cfg0.win 3).blk t).view.read (Elt Ideal) X := by
  have hz' : (fun a => win0_3.index t a * main_v7_1.ty.shape.size a) = fun _ => 0 := funext fun a => by
    obtain ⟨i0, i1⟩ := idx_3 t
    match a with
    | ⟨0, _⟩ => show win0_3.index t 0 * 1 = 0; rw [i0]
    | ⟨1, _⟩ => show win0_3.index t 1 * 128 = 0; rw [i1]
  exact (Memref.read_access_unit_zero (Elt Ideal) main_v7_1 hz' (fun a => by rw [congrFun hz' a]; simp) X).symm

/-- What the last point leaves in the two rows, as contents of the two result arrays. -/
abbrev res2 (c : Dev nD) : Buf (Elt Ideal) ((c : Thread nD τ).loc main_v7_0) := (outsAt0 V c 59 h59).1
abbrev res3 (c : Dev nD) : Buf (Elt Ideal) ((c : Thread nD τ).loc main_v7_1) := (outsAt0 V c 59 h59).2

theorem outs_congr (c : Dev nD) (n m : ℕ) (hn : n < cfg0.N) (hm : m < cfg0.N) (e : n = m) :
    outsAt0 V c n hn = outsAt0 V c m hm := by subst e; rfl

/-- The one write-back of the first row happens at the last point and writes what that point left. -/
theorem flushed2 (c : Dev nD) (t : Fin cfg0.N) (hf : (cfg0.win 2).flush t = true) :
    (dat0 V c).flushed 2 t = ((cfg0.win 2).blk t).view.read (Elt Ideal) (res2 V c) := by
  have h : t.val = 59 := by have := (flush0_2 t).mp hf; have := lt_of_lt_of_eq t.isLt hN60; omega
  have e : (dat0 V c).after 2 t = (outsAt0 V c 59 h59).1 := by
    rw [after0_2, outs_congr V c t.val 59 t.isLt h59 h]
  show (cfg0.win 2).cut (grid0.coords t) ((dat0 V c).after 2 t) = _
  rw [e]
  exact cut_read2 (outsAt0 V c 59 h59).1 t

/-- Likewise the second row's. -/
theorem flushed3 (c : Dev nD) (t : Fin cfg0.N) (hf : (cfg0.win 3).flush t = true) :
    (dat0 V c).flushed 3 t = ((cfg0.win 3).blk t).view.read (Elt Ideal) (res3 V c) := by
  have h : t.val = 59 := by have := (flush0_3 t).mp hf; have := lt_of_lt_of_eq t.isLt hN60; omega
  have e : (dat0 V c).after 3 t = (outsAt0 V c 59 h59).2 := by
    rw [after0_3, outs_congr V c t.val 59 t.isLt h59 h]
  show (cfg0.win 3).cut (grid0.coords t) ((dat0 V c).after 3 t) = _
  rw [e]
  exact cut_read3 (outsAt0 V c 59 h59).2 t

/-- The last point's block covers the whole first result array, so the array ends holding what that point left. -/
theorem final2 (c : Dev nD) : (dat0 V c).arrAt 2 cfg0.N = res2 V c :=
  (dat0 V c).arrAt_eq_of_cover 2 (res2 V c) (flushed2 V c) fun i =>
    ⟨t59, (flush0_2 t59).mpr rfl, by
      show i ∈ ((View.whole main_v7_0).slice (win0_2.rect t59)).set
      rw [View.set_slice_whole, Rect.mem_set_unit]
      intro a
      obtain ⟨i0, i1⟩ := idx_2 t59
      have h0 : (i 0 : Nat) < 1 := (i 0).isLt
      have h1 : (i 1 : Nat) < 128 := (i 1).isLt
      match a with
      | ⟨0, _⟩ =>
        show win0_2.index t59 0 * win0_2.size 0 ≤ (i 0 : Nat) ∧ (i 0 : Nat) < win0_2.index t59 0 * win0_2.size 0 + win0_2.xsize (grid0.coords t59) 0
        rw [i0, show win0_2.xsize (grid0.coords t59) 0 = 1 from by decide +kernel]; omega
      | ⟨1, _⟩ =>
        show win0_2.index t59 1 * win0_2.size 1 ≤ (i 1 : Nat) ∧ (i 1 : Nat) < win0_2.index t59 1 * win0_2.size 1 + win0_2.xsize (grid0.coords t59) 1
        rw [i1, show win0_2.xsize (grid0.coords t59) 1 = 128 from by decide +kernel]; omega⟩

/-- Likewise the second result array. -/
theorem final3 (c : Dev nD) : (dat0 V c).arrAt 3 cfg0.N = res3 V c :=
  (dat0 V c).arrAt_eq_of_cover 3 (res3 V c) (flushed3 V c) fun i =>
    ⟨t59, (flush0_3 t59).mpr rfl, by
      show i ∈ ((View.whole main_v7_1).slice (win0_3.rect t59)).set
      rw [View.set_slice_whole, Rect.mem_set_unit]
      intro a
      obtain ⟨i0, i1⟩ := idx_3 t59
      have h0 : (i 0 : Nat) < 1 := (i 0).isLt
      have h1 : (i 1 : Nat) < 128 := (i 1).isLt
      match a with
      | ⟨0, _⟩ =>
        show win0_3.index t59 0 * win0_3.size 0 ≤ (i 0 : Nat) ∧ (i 0 : Nat) < win0_3.index t59 0 * win0_3.size 0 + win0_3.xsize (grid0.coords t59) 0
        rw [i0, show win0_3.xsize (grid0.coords t59) 0 = 1 from by decide +kernel]; omega
      | ⟨1, _⟩ =>
        show win0_3.index t59 1 * win0_3.size 1 ≤ (i 1 : Nat) ∧ (i 1 : Nat) < win0_3.index t59 1 * win0_3.size 1 + win0_3.xsize (grid0.coords t59) 1
        rw [i1, show win0_3.xsize (grid0.coords t59) 1 = 128 from by decide +kernel]; omega⟩

/-- The first result array ends holding Σ y over every neighbour of every point: what the last point left is the sum
    over blocks 0 … 59, which are all the points. -/
theorem sum_arr (c : Dev nD) (d : Fin 128) :
    (dat0 (F := Ideal) V c).arrAt 2 cfg0.N (ix2 (0 : Fin 1) d) = Cert.TD.S1 (V c main_v6) (V c main_arg2) d := by
  rw [final2 V c]
  exact ((rows_after V c d 59 h59).1).trans (accum_last _)

/-- The second result array ends holding Σ y² over every neighbour of every point. -/
theorem sumsq_arr (c : Dev nD) (d : Fin 128) :
    (dat0 (F := Ideal) V c).arrAt 3 cfg0.N (ix2 (0 : Fin 1) d) = Cert.TD.S2 (V c main_v6) (V c main_arg2) d := by
  rw [final3 V c]
  exact ((rows_after V c d 59 h59).2).trans (accum_last _)

end Final

end Cert.KernelIdeal.R0

end
-- ==== Proof.Region1.lean ====
/-
  What the normalise-and-pool pass leaves in the output: per point and channel, the maximum over the 16 neighbours of
  the clipped y · scale + shift.
-/
import proofs.«137218_j74440373174612_1_alg».proof.Proof.Gen.KernelIdeal.Frame
import proofs.«137218_j74440373174612_1_alg».proof.Proof.Spec
import Idealize.ShloMosaic.Lib.Pipeline.Value
import Idealize.ShloMosaic.PureOps.Ideal.Laws

noncomputable section

namespace Cert.KernelIdeal.R1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The dense layer's product, read at an index -/

/-- The product's left operand is read at the output's row … -/
theorem lhs_dense_0 (i : S16000x128.Idx) (q : dot_S16000x67_S67x128_S16000x128_1_0_0_1_n_n.contr.Idx) :
    (dot_S16000x67_S67x128_S16000x128_1_0_0_1_n_n.lhsIdx i q 0).val = (i 0).val := by
  unfold DotDims.lhsIdx
  rw [dif_neg (show ¬(0 : Fin S16000x67.rank) ∈ dot_S16000x67_S67x128_S16000x128_1_0_0_1_n_n.lhsBatch by decide),
    dif_pos (show (0 : Fin S16000x67.rank) ∈ dot_S16000x67_S67x128_S16000x128_1_0_0_1_n_n.lhsNonContracting by decide)]
  rfl
/-- … and at the summed position on its second axis; -/
theorem lhs_dense_1 (i : S16000x128.Idx) (q : dot_S16000x67_S67x128_S16000x128_1_0_0_1_n_n.contr.Idx) :
    (dot_S16000x67_S67x128_S16000x128_1_0_0_1_n_n.lhsIdx i q 1).val = (q ⟨0, by decide⟩).val :=
  dot_S16000x67_S67x128_S16000x128_1_0_0_1_n_n.lhsIdx_val_of_single rfl i q
/-- the right operand at the summed position on its first axis … -/
theorem rhs_dense_0 (i : S16000x128.Idx) (q : dot_S16000x67_S67x128_S16000x128_1_0_0_1_n_n.contr.Idx) :
    (dot_S16000x67_S67x128_S16000x128_1_0_0_1_n_n.rhsIdx i q 0).val = (q ⟨0, by decide⟩).val :=
  dot_S16000x67_S67x128_S16000x128_1_0_0_1_n_n.rhsIdx_val_of_single rfl i q
/-- … and at the output's column. -/
theorem rhs_dense_1 (i : S16000x128.Idx) (q : dot_S16000x67_S67x128_S16000x128_1_0_0_1_n_n.contr.Idx) :
    (dot_S16000x67_S67x128_S16000x128_1_0_0_1_n_n.rhsIdx i q 1).val = (i 1).val := by
  unfold DotDims.rhsIdx
  rw [dif_neg (show ¬(1 : Fin S67x128.rank) ∈ dot_S16000x67_S67x128_S16000x128_1_0_0_1_n_n.rhsBatch by decide),
    dif_pos (show (1 : Fin S67x128.rank) ∈ dot_S16000x67_S67x128_S16000x128_1_0_0_1_n_n.rhsNonContracting by decide)]
  rfl

/-- The product into the zero accumulator at row j, column d: the sum over the 67 numbers of row j of the
    left operand times column d of the right. -/
theorem dense_flat (a : FVec Ideal S16000x67 .bf16) (b : FVec Ideal S67x128 .bf16) (j : Fin 16000) (d : Fin 128) :
    matmul dot_S16000x67_S67x128_S16000x128_1_0_0_1_n_n none a b (constant S16000x128 .f32 0x00000000#32) (ix2 j d)
      = ∑ c : Fin 67, a (ix2 j c) * b (ix2 c d) := by
  simp only [matmul]
  rw [Ideal.matmul_constant_zero_apply,
    ← Equiv.sum_comp (contrEquiv1 dot_S16000x67_S67x128_S16000x128_1_0_0_1_n_n 67 rfl rfl).symm]
  refine Finset.sum_congr rfl fun c _ => ?_
  have hc := contrEquiv1_symm_val dot_S16000x67_S67x128_S16000x128_1_0_0_1_n_n 67 rfl rfl c
  have el : dot_S16000x67_S67x128_S16000x128_1_0_0_1_n_n.lhsIdx (ix2 j d)
      ((contrEquiv1 dot_S16000x67_S67x128_S16000x128_1_0_0_1_n_n 67 rfl rfl).symm c) = ix2 j c :=
    funext fun ax => Fin.ext (by
      match ax with
      | ⟨0, _⟩ => exact lhs_dense_0 _ _
      | ⟨1, _⟩ => exact (lhs_dense_1 _ _).trans hc)
  have er : dot_S16000x67_S67x128_S16000x128_1_0_0_1_n_n.rhsIdx (ix2 j d)
      ((contrEquiv1 dot_S16000x67_S67x128_S16000x128_1_0_0_1_n_n 67 rfl rfl).symm c) = ix2 c d :=
    funext fun ax => Fin.ext (by
      match ax with
      | ⟨0, _⟩ => exact (rhs_dense_0 _ _).trans hc
      | ⟨1, _⟩ => exact rhs_dense_1 _ _)
  rw [el, er]

/-! ## The layout steps, read at an index -/

/-- Row 16·r + k of the flattened block is neighbour k of point r; and back. -/
theorem dense_apply (x0 : FVec Ideal S1000x16x67 .f32) (x1 : FVec Ideal S67x128 .f32)
    (h0 : S1000x16x67.ShapeCasts S1000x16x67) (h1 : S1000x16x67.ShapeCasts S16000x67)
    (hb : FTy.bits .bf16 < FTy.bits .f32) (h2 : S16000x128.ShapeCasts S1000x16x128)
    (r : Fin 1000) (k : Fin 16) (d : Fin 128) :
    shapeCast S1000x16x128
        (matmul dot_S16000x67_S67x128_S16000x128_1_0_0_1_n_n none
          (truncf .bf16 (shapeCast S16000x67 (shapeCast S1000x16x67 x0 h0) h1) hb) (truncf .bf16 x1 hb)
          (constant S16000x128 .f32 0x00000000#32)) h2 (ix3 r k d)
      = ∑ c : Fin 67, x0 (ix3 r k c) * x1 (ix2 c d) := by
  have hj : r.val * 16 + k.val < 16000 := by have := r.isLt; have := k.isLt; omega
  refine (shapeCast_apply _ h2 (ix3 r k d) (ix2 (⟨r.val * 16 + k.val, hj⟩ : Fin 16000) d) (by
    rw [Shape.rowMajor_val_three, Shape.rowMajor_val_two]; rfl)).trans ?_
  refine (dense_flat _ _ _ d).trans ?_
  refine Finset.sum_congr rfl fun c _ => ?_
  show shapeCast S16000x67 (shapeCast S1000x16x67 x0 h0) h1 (ix2 (⟨r.val * 16 + k.val, hj⟩ : Fin 16000) c) * x1 (ix2 c d) = _
  rw [shapeCast_self]
  refine congrArg (· * x1 (ix2 c d)) ?_
  exact shapeCast_apply x0 h1 _ (ix3 r k c) (by
    rw [Shape.rowMajor_val_three, Shape.rowMajor_val_two]; rfl)

/-- A per-channel row spread over every neighbour of every point reads the row at the channel. -/
theorem row_apply (v : FVec Ideal S1x128 .f32) (h0 : S1x128.ShapeCasts S1x128) (h1 : S1x128.ShapeCasts S1x1x128)
    (h2 : S1x1x128.Broadcasts S1000x16x128) (r : Fin 1000) (k : Fin 16) (d : Fin 128) :
    broadcastTo S1000x16x128 (shapeCast S1x1x128 (shapeCast S1x128 v h0) h1) h2 (ix3 r k d) = v (ix2 (0 : Fin 1) d) := by
  refine (broadcastTo_apply _ h2 (ix3 r k d) (ix3 (0 : Fin 1) (0 : Fin 1) d) fun ax => ?_).trans ?_
  · match ax with
    | ⟨0, _⟩ => rfl
    | ⟨1, _⟩ => rfl
    | ⟨2, _⟩ => rfl
  · rw [shapeCast_self]
    exact shapeCast_apply v h1 _ (ix2 (0 : Fin 1) d) (by
      rw [Shape.rowMajor_val_three, Shape.rowMajor_val_two]; rfl)

/-! ## The body's arithmetic at an index -/

/-- What the pass stores for point r of its block, channel d: the maximum, from −∞, over the 16 neighbours of the
    clipped dense value times the scale row plus the shift row. -/
theorem pay_apply (x0 : Vec Ideal S1000x16x67 .f32) (x1 : Vec Ideal S67x128 .f32) (x2 x3 : Vec Ideal S1x128 .f32)
    (r : Fin 1000) (d : Fin 128) :
    k1_pay1 x0 x1 x2 x3 (ix2 r d)
      = (Finset.univ : Finset (Fin 16)).fold max Cert.TD.negInfE
          (fun k => Cert.TD.cellK (∑ c : Fin 67, x0 (ix3 r k c) * x1 (ix2 c d)) (x2 (ix2 (0 : Fin 1) d)) (x3 (ix2 (0 : Fin 1) d))) := by
  unfold k1_pay1
  refine (Ideal.multiReduction_maximumf_single _ _ Facts₀.reduces_S1000x16x128_S1000x128 (.inl rfl) rfl (ix2 r d)).trans ?_
  show (Finset.univ : Finset (Fin 16)).fold max Cert.TD.negInfE _ = _
  refine Finset.fold_congr fun k _ => ?_
  have hl : Facts₀.reduces_S1000x16x128_S1000x128.lift (ix2 r d) k = ix3 r k d :=
    funext fun ax => Fin.ext (by
      match ax with
      | ⟨0, _⟩ => rfl
      | ⟨1, _⟩ => rfl
      | ⟨2, _⟩ => rfl)
  show max (_ * _ + _) _ = _
  rw [hl, dense_apply, row_apply, row_apply]
  rfl

/-! ## From the blocks to the array -/

/-- The pooled array: at point m and channel d, the maximum, from −∞, over the 16 neighbours of the clipped
    dense value times the channel's scale plus its shift. -/
def pooled (x : Cert.TD.SX.Idx → EReal) (W : Cert.TD.SW.Idx → EReal) (sc sh : Cert.TD.SR.Idx → EReal) :
    Cert.TD.SO.Idx → EReal := fun i =>
  (Finset.univ : Finset (Fin 16)).fold max Cert.TD.negInfE
    (fun k => Cert.TD.cellK (Cert.TD.Y x W (i 0) k (i 1)) (sc (ix2 (0 : Fin 1) (i 1))) (sh (ix2 (0 : Fin 1) (i 1))))

/-- The zero offsets of a rank-2 block, as a constant function. -/
theorem zero2 : (![0, 0] : Fin 2 → Nat) = fun _ => 0 := funext fun a => by fin_cases a <;> rfl
/-- The zero offsets of a rank-3 block, as a constant function. -/
theorem zero3 : (![0, 0, 0] : Fin 3 → Nat) = fun _ => 0 := funext fun a => by fin_cases a <;> rfl

/-- Where each window's block sits at grid point t: the points' and the output's blocks at block row t, the
    weights and the two rows whole. -/
theorem block_at : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point r of block t, neighbour k, number e, is point 1000·t + r of the grouped input. -/
theorem points_block (c : Dev nD) (t : Fin cfg1.N) (r : Fin 1000) (k : Fin 16) (e : Fin 67) (m : Fin 60000)
    (hm : m.val = t.val * 1000 + r.val) :
    (iblk1 V c 0 t : Vec Ideal S1000x16x67 .f32) (ix3 r k e) = (V c main_v6 : S60000x16x67.Idx → EReal) (ix3 m k e) := by
  obtain ⟨e0, e1, e2, -⟩ := block_at t
  unfold iblk1
  rw [View.read_apply]
  show V c main_v6 _ = V c main_v6 _
  congr 1
  funext a
  apply Fin.ext
  match a with
  | ⟨0, _⟩ => show win1_0.index t (0 : Fin 3) * 1000 + 1 * r.val = m.val; omega
  | ⟨1, _⟩ => show win1_0.index t (1 : Fin 3) * 16 + 1 * k.val = k.val; omega
  | ⟨2, _⟩ => show win1_0.index t (2 : Fin 3) * 67 + 1 * e.val = e.val; omega

/-- The weights' block is the whole array. -/
theorem weights_block (c : Dev nD) (t : Fin cfg1.N) (e : Fin 67) (d : Fin 128) :
    (iblk1 V c 1 t : Vec Ideal S67x128 .f32) (ix2 e d) = (V c main_arg2 : S67x128.Idx → EReal) (ix2 e d) := by
  obtain ⟨-, -, -, e0, e1, -⟩ := block_at t
  unfold iblk1
  rw [View.read_apply]
  show V c main_arg2 _ = V c main_arg2 _
  congr 1
  funext a
  apply Fin.ext
  match a with
  | ⟨0, _⟩ => show win1_1.index t (0 : Fin 2) * 67 + 1 * e.val = e.val; omega
  | ⟨1, _⟩ => show win1_1.index t (1 : Fin 2) * 128 + 1 * d.val = d.val; omega

/-- The scale row's block is the whole row. -/
theorem scale_block (c : Dev nD) (t : Fin cfg1.N) (d : Fin 128) :
    (iblk1 V c 2 t : Vec Ideal S1x128 .f32) (ix2 (0 : Fin 1) d) = (V c main_v22 : S1x128.Idx → EReal) (ix2 (0 : Fin 1) d) := by
  obtain ⟨-, -, -, -, -, e0, e1, -⟩ := block_at t
  unfold iblk1
  rw [View.read_apply]
  show V c main_v22 _ = V c main_v22 _
  congr 1
  funext a
  apply Fin.ext
  match a with
  | ⟨0, _⟩ => show win1_2.index t (0 : Fin 2) * 1 + 1 * 0 = 0; omega
  | ⟨1, _⟩ => show win1_2.index t (1 : Fin 2) * 128 + 1 * d.val = d.val; omega

/-- The shift row's block is the whole row. -/
theorem shift_block (c : Dev nD) (t : Fin cfg1.N) (d : Fin 128) :
    (iblk1 V c 3 t : Vec Ideal S1x128 .f32) (ix2 (0 : Fin 1) d) = (V c main_v26 : S1x128.Idx → EReal) (ix2 (0 : Fin 1) d) := by
  obtain ⟨-, -, -, -, -, -, -, e0, e1, -⟩ := block_at t
  unfold iblk1
  rw [View.read_apply]
  show V c main_v26 _ = V c main_v26 _
  congr 1
  funext a
  apply Fin.ext
  match a with
  | ⟨0, _⟩ => show win1_3.index t (0 : Fin 2) * 1 + 1 * 0 = 0; omega
  | ⟨1, _⟩ => show win1_3.index t (1 : Fin 2) * 128 + 1 * d.val = d.val; omega

/-- The body's value at point r of a block, channel d, when the block's rows are rows of the arrays: the pooled
    array there. -/
theorem block_value (x0 : Vec Ideal S1000x16x67 .f32) (x1 : Vec Ideal S67x128 .f32) (x2 x3 : Vec Ideal S1x128 .f32)
    (X : Cert.TD.SX.Idx → EReal) (W : Cert.TD.SW.Idx → EReal) (sc sh : Cert.TD.SR.Idx → EReal)
    (r : Fin 1000) (d : Fin 128) (m : Fin 60000)
    (hx : ∀ (k : Fin 16) (e : Fin 67), x0 (ix3 r k e) = X (ix3 m k e)) (hw : ∀ e : Fin 67, x1 (ix2 e d) = W (ix2 e d))
    (hs : x2 (ix2 (0 : Fin 1) d) = sc (ix2 (0 : Fin 1) d)) (hh : x3 (ix2 (0 : Fin 1) d) = sh (ix2 (0 : Fin 1) d)) :
    k1_pay1 x0 x1 x2 x3 (ix2 r d) = pooled X W sc sh (ix2 m d) := by
  refine (pay_apply x0 x1 x2 x3 r d).trans ?_
  refine Finset.fold_congr fun k _ => ?_
  show Cert.TD.cellK _ _ _ = Cert.TD.cellK (∑ e : Fin 67, X (ix3 m k e) * W (ix2 e d)) (sc (ix2 (0 : Fin 1) d)) (sh (ix2 (0 : Fin 1) d))
  rw [hs, hh]
  refine congrArg (fun y => Cert.TD.cellK y _ _) (Finset.sum_congr rfl fun e _ => ?_)
  rw [hx k e, hw e]

/-- What grid point t writes back is block t of the pooled array of the arrays the pass finds. -/
theorem written_back (c : Dev nD) (t : Fin cfg1.N) :
    (dat1 (F := Ideal) V c).flushed 4 t
      = ((cfg1.win 4).blk t).view.read (Elt Ideal) (pooled (V c main_v6) (V c main_arg2) (V c main_v22) (V c main_v26)) := by
  show (cfg1.win 4).cut (grid1.coords t) ((dat1 (F := Ideal) V c).after 4 t) = _
  rw [after1_4]
  unfold out1_4
  rw [View.canon_unit_zero zero2]
  simp only [View.ld_unit_zero (S := S1000x16x67) zero3, View.ld_unit_zero (S := S67x128) zero2,
    View.ld_unit_zero (S := S1x128) zero2]
  obtain ⟨-, -, -, -, -, -, -, -, -, e0, e1⟩ := block_at t
  have hN : cfg1.N = 60 := N_1
  funext j
  obtain ⟨r, d, rfl⟩ : ∃ (r : Fin 1000) (d : Fin 128), j = ix2 r d := ⟨j 0, j 1, eq_ix2 j⟩
  have hm : t.val * 1000 + r.val < 60000 := by have := t.isLt; have := r.isLt; omega
  have he : ((cfg1.win 4).blk t).view.emb (ix2 r d) = (ix2 (⟨t.val * 1000 + r.val, hm⟩ : Fin 60000) d : S60000x128.Idx) :=
    funext fun a => Fin.ext (by
      match a with
      | ⟨0, _⟩ => show win1_4.index t (0 : Fin 2) * 1000 + 1 * r.val = t.val * 1000 + r.val; omega
      | ⟨1, _⟩ => show win1_4.index t (1 : Fin 2) * 128 + 1 * d.val = d.val; omega)
  show k1_pay1 (iblk1 V c 0 t) (iblk1 V c 1 t) (iblk1 V c 2 t) (iblk1 V c 3 t) (ix2 r d)
    = pooled (V c main_v6) (V c main_arg2) (V c main_v22) (V c main_v26) (((cfg1.win 4).blk t).view.emb (ix2 r d))
  rw [he]
  exact block_value (iblk1 V c 0 t) (iblk1 V c 1 t) (iblk1 V c 2 t) (iblk1 V c 3 t)
    (V c main_v6) (V c main_arg2) (V c main_v22) (V c main_v26) r d ⟨t.val * 1000 + r.val, hm⟩
    (fun k e => points_block V c t r k e ⟨t.val * 1000 + r.val, hm⟩ rfl) (fun e => weights_block V c t e d)
    (scale_block V c t d) (shift_block V c t d)

/-- An index of the output is in grid point t's block iff each coordinate is in the block's range on its axis. -/
theorem in_block (t : Fin cfg1.N) (i : S60000x128.Idx) :
    i ∈ ((cfg1.win 4).blk t).view.set
      ↔ ∀ a : Fin 2, win1_4.index t a * S1000x128.size a ≤ (i a).val ∧ (i a).val < win1_4.index t a * S1000x128.size a + S1000x128.size a := by
  show i ∈ ((View.whole main_v27).slice (win1_4.rect t)).set ↔ _
  rw [View.set_slice_whole, Rect.mem_set_unit]
  exact Iff.rfl

/-- Every point's row is in one written block: row m in the block of grid point m / 1000. -/
theorem covered (i : S60000x128.Idx) :
    ∃ t : Fin cfg1.N, (cfg1.win 4).flush t = true ∧ i ∈ ((cfg1.win 4).blk t).view.set := by
  have hi0 : (i 0).val < 60000 := (i 0).isLt
  have hi1 : (i 1).val < 128 := (i 1).isLt
  have hN : cfg1.N = 60 := N_1
  have hq : (i 0).val / 1000 < cfg1.N := by rw [hN]; omega
  obtain ⟨-, -, -, -, -, -, -, -, -, e0, e1⟩ := block_at ⟨(i 0).val / 1000, hq⟩
  refine ⟨⟨(i 0).val / 1000, hq⟩, flush1_4 _, ?_⟩
  rw [in_block]
  intro a
  match a with
  | ⟨0, _⟩ =>
    show win1_4.index ⟨(i 0).val / 1000, hq⟩ (0 : Fin 2) * 1000 ≤ (i 0).val
      ∧ (i 0).val < win1_4.index ⟨(i 0).val / 1000, hq⟩ (0 : Fin 2) * 1000 + 1000
    rw [e0]
    show (i 0).val / 1000 * 1000 ≤ (i 0).val ∧ (i 0).val < (i 0).val / 1000 * 1000 + 1000
    omega
  | ⟨1, _⟩ =>
    show win1_4.index ⟨(i 0).val / 1000, hq⟩ (1 : Fin 2) * 128 ≤ (i 1).val
      ∧ (i 1).val < win1_4.index ⟨(i 0).val / 1000, hq⟩ (1 : Fin 2) * 128 + 128
    rw [e1]
    omega

/-- So the output array ends holding the pooled array. -/
theorem out_pooled (c : Dev nD) :
    (dat1 (F := Ideal) V c).arrAt 4 cfg1.N = pooled (V c main_v6) (V c main_arg2) (V c main_v22) (V c main_v26) :=
  (dat1 (F := Ideal) V c).arrAt_eq_of_cover 4 (pooled (V c main_v6) (V c main_arg2) (V c main_v22) (V c main_v26))
    (fun t _ => written_back V c t) covered

/-- At point m and channel d the output holds the maximum, from −∞, over the 16 neighbours of the clipped dense
    value times the channel's scale plus its shift. -/
theorem out_arr (c : Dev nD) (m : Fin 60000) (d : Fin 128) :
    (dat1 (F := Ideal) V c).arrAt 4 cfg1.N (ix2 m d)
      = (Finset.univ : Finset (Fin 16)).fold max Cert.TD.negInfE
          (fun k => Cert.TD.cellK (Cert.TD.Y (V c main_v6) (V c main_arg2) m k d)
            (V c main_v22 (ix2 (0 : Fin 1) d)) (V c main_v26 (ix2 (0 : Fin 1) d))) :=
  congrFun (out_pooled V c) (ix2 m d)

end Cert.KernelIdeal.R1

end
-- ==== Proof.KernelValue.lean ====
/-
  The kernel program's two results as functions of the launch memory.

  The sampled points are the shared lookup of the point table. The pooled output at point p and channel d is the
  accumulate-then-fold arrangement of the specification over the shared grouped input: the first pass leaves Σ y and Σ y²,
  the stretch between the passes turns them into a scale and a shift, the second pass takes the maximum over the 16
  neighbours of the clipped y · scale + shift.
-/
import proofs.«137218_j74440373174612_1_alg».proof.Proof.KernelHost
import proofs.«137218_j74440373174612_1_alg».proof.Proof.Region0
import proofs.«137218_j74440373174612_1_alg».proof.Proof.Region1

set_option maxRecDepth 16384

noncomputable section

namespace Cert.KernelIdeal.Value

open Idealize.ShloMosaic Idealize.ShloMosaic.TcCoe Idealize.SL.Sem Idealize.ShloMosaic.StableHlo
open Idealize.ShloMosaic.ValueIdx
open Cert.KernelIdeal Cert.KernelIdeal.Gen Cert.KernelIdeal.Host

variable (m : (ℓ : Loc nD τ sig) → Buf (Elt Ideal) ℓ) (ρ : Dev nD → PrngReg)

/-- The grouped input of the launch memory. -/
abbrev xOf (c : Dev nD) : FVec Ideal S60000x16x67 .f32 :=
  Cert.ReferenceIdeal.TD.grouped (F := Ideal) (m ((c : Thread nD τ).loc main_arg0)) (m ((c : Thread nD τ).loc main_arg1))
    (m ((c : Thread nD τ).loc main_arg5)) (m ((c : Thread nD τ).loc main_arg6))

/-- The sampled points of the launch memory. -/
abbrev npOf (c : Dev nD) : FVec Ideal S60000x3 .f32 :=
  Cert.ReferenceIdeal.TD.newPoint (F := Ideal) (m ((c : Thread nD τ).loc main_arg0)) (m ((c : Thread nD τ).loc main_arg5))

/-! ## Before the first pass -/

theorem W1_np (c : Dev nD) : W1 m ρ c (Proc.devRef .tc main_v0) = npOf m c := s0_np (W0 m ρ c)
theorem W2_np (c : Dev nD) : W2 m ρ c (Proc.devRef .tc main_v0) = npOf m c := (s1_np (W1 m ρ c)).trans (W1_np m ρ c)
theorem W5_np (c : Dev nD) : W5 m ρ c (Proc.devRef .tc main_v0) = npOf m c :=
  (s4_np (W4 m ρ c)).trans ((s3_np (W3 m ρ c)).trans ((s2_np (W2 m ρ c)).trans (W2_np m ρ c)))

theorem W5_w (c : Dev nD) : W5 m ρ c (Proc.devRef .tc main_arg2) = m ((c : Thread nD τ).loc main_arg2) :=
  (s4_a2 (W4 m ρ c)).trans ((s3_a2 (W3 m ρ c)).trans ((s2_a2 (W2 m ρ c)).trans ((s1_a2 (W1 m ρ c)).trans (s0_a2 (W0 m ρ c)))))
theorem W5_g (c : Dev nD) : W5 m ρ c (Proc.devRef .tc main_arg3) = m ((c : Thread nD τ).loc main_arg3) :=
  (s4_a3 (W4 m ρ c)).trans ((s3_a3 (W3 m ρ c)).trans ((s2_a3 (W2 m ρ c)).trans ((s1_a3 (W1 m ρ c)).trans (s0_a3 (W0 m ρ c)))))
theorem W5_b (c : Dev nD) : W5 m ρ c (Proc.devRef .tc main_arg4) = m ((c : Thread nD τ).loc main_arg4) :=
  (s4_a4 (W4 m ρ c)).trans ((s3_a4 (W3 m ρ c)).trans ((s2_a4 (W2 m ρ c)).trans ((s1_a4 (W1 m ρ c)).trans (s0_a4 (W0 m ρ c)))))

theorem W2_xyz (c : Dev nD) :
    (W2 m ρ c (Proc.devRef .tc main_v1) : FVec Ideal S60000x16x3 .f32)
      = Cert.ReferenceIdeal.TD.takeXyz (F := Ideal) (m ((c : Thread nD τ).loc main_arg0)) (m ((c : Thread nD τ).loc main_arg6)) := by
  have e0 : W1 m ρ c (Proc.devRef .tc main_arg0) = m ((c : Thread nD τ).loc main_arg0) := s0_a0 (W0 m ρ c)
  have e6 : W1 m ρ c (Proc.devRef .tc main_arg6) = m ((c : Thread nD τ).loc main_arg6) := s0_a6 (W0 m ρ c)
  have h := s1_xyz (W1 m ρ c)
  rw [e0, e6] at h
  exact h

theorem W4_rel (c : Dev nD) :
    (W4 m ρ c (Proc.devRef .tc main_v4) : FVec Ideal S60000x16x3 .f32)
      = subf (Cert.ReferenceIdeal.TD.takeXyz (F := Ideal) (m ((c : Thread nD τ).loc main_arg0)) (m ((c : Thread nD τ).loc main_arg6)))
          (broadcastInDim S60000x16x3 ![0, 1, 2] bcast_S60000x1x3_S60000x16x3_0_1_2
            (broadcastInDim S60000x1x3 ![0, 2] bcast_S60000x3_S60000x1x3_0_2 (npOf m c))) := by
  have h := (s3_rel (W3 m ρ c)).trans (s2_rel (W2 m ρ c))
  rw [W2_xyz m ρ c, W2_np m ρ c] at h
  exact h

theorem W4_feat (c : Dev nD) :
    (W4 m ρ c (Proc.devRef .tc main_v5) : FVec Ideal S60000x16x64 .f32)
      = Cert.ReferenceIdeal.TD.takeFeat (F := Ideal) (m ((c : Thread nD τ).loc main_arg1)) (m ((c : Thread nD τ).loc main_arg6)) := by
  have e1 : W3 m ρ c (Proc.devRef .tc main_arg1) = m ((c : Thread nD τ).loc main_arg1) :=
    (s2_a1 (W2 m ρ c)).trans ((s1_a1 (W1 m ρ c)).trans (s0_a1 (W0 m ρ c)))
  have e6 : W3 m ρ c (Proc.devRef .tc main_arg6) = m ((c : Thread nD τ).loc main_arg6) :=
    (s2_a6 (W2 m ρ c)).trans ((s1_a6 (W1 m ρ c)).trans (s0_a6 (W0 m ρ c)))
  have h := s3_feat (W3 m ρ c)
  rw [e1, e6] at h
  exact h

/-- The first pass finds the grouped input of the launch memory. -/
theorem W5_x (c : Dev nD) : (W5 m ρ c (Proc.devRef .tc main_v6) : FVec Ideal S60000x16x67 .f32) = xOf m c := by
  have h := s4_x (W4 m ρ c)
  rw [W4_rel m ρ c, W4_feat m ρ c] at h
  exact h

/-! ## The first pass's two rows -/

theorem V5_x (c : Dev nD) : (V5 m ρ c main_v6 : FVec Ideal S60000x16x67 .f32) = xOf m c := W5_x m ρ c
theorem V5_w (c : Dev nD) : V5 m ρ c main_arg2 = m ((c : Thread nD τ).loc main_arg2) := W5_w m ρ c

theorem sum_at (c : Dev nD) (d : Fin 128) :
    (W6 m ρ c (Proc.devRef .tc main_v7_0) : FVec Ideal S1x128 .f32) (ix2 (0 : Fin 1) d)
      = Cert.TD.S1 (xOf m c) (m ((c : Thread nD τ).loc main_arg2)) d := by
  have h := Cert.KernelIdeal.R0.sum_arr (V5 m ρ) c d
  rw [V5_x m ρ c, V5_w m ρ c] at h
  exact (congrFun (W6_arr m ρ c 2) (ix2 (0 : Fin 1) d)).trans h

theorem sumsq_at (c : Dev nD) (d : Fin 128) :
    (W6 m ρ c (Proc.devRef .tc main_v7_1) : FVec Ideal S1x128 .f32) (ix2 (0 : Fin 1) d)
      = Cert.TD.S2 (xOf m c) (m ((c : Thread nD τ).loc main_arg2)) d := by
  have h := Cert.KernelIdeal.R0.sumsq_arr (V5 m ρ) c d
  rw [V5_x m ρ c, V5_w m ρ c] at h
  exact (congrFun (W6_arr m ρ c 3) (ix2 (0 : Fin 1) d)).trans h

theorem W6_x (c : Dev nD) : (W6 m ρ c (Proc.devRef .tc main_v6) : FVec Ideal S60000x16x67 .f32) = xOf m c :=
  ((W6_arr m ρ c 0).trans (((dat0 (V5 m ρ) c).arrAt_in 0 rfl _).trans (A_eq0 (V5 m ρ) c 0))).trans (W5_x m ρ c)
theorem W6_w (c : Dev nD) : W6 m ρ c (Proc.devRef .tc main_arg2) = m ((c : Thread nD τ).loc main_arg2) :=
  ((W6_arr m ρ c 1).trans (((dat0 (V5 m ρ) c).arrAt_in 1 rfl _).trans (A_eq0 (V5 m ρ) c 1))).trans (W5_w m ρ c)
theorem W6_g (c : Dev nD) : W6 m ρ c (Proc.devRef .tc main_arg3) = m ((c : Thread nD τ).loc main_arg3) :=
  (W6_of_ne m ρ c main_arg3 (by decide)).trans (W5_g m ρ c)
theorem W6_b (c : Dev nD) : W6 m ρ c (Proc.devRef .tc main_arg4) = m ((c : Thread nD τ).loc main_arg4) :=
  (W6_of_ne m ρ c main_arg4 (by decide)).trans (W5_b m ρ c)
theorem W6_np (c : Dev nD) : W6 m ρ c (Proc.devRef .tc main_v0) = npOf m c :=
  (W6_of_ne m ρ c main_v0 (by decide)).trans (W5_np m ρ c)

/-! ## What the second pass finds -/

theorem V7_x (c : Dev nD) : (V7 m ρ c main_v6 : FVec Ideal S60000x16x67 .f32) = xOf m c :=
  (x_of_after1 (W6 m ρ c)).trans (W6_x m ρ c)
theorem V7_w (c : Dev nD) : V7 m ρ c main_arg2 = m ((c : Thread nD τ).loc main_arg2) :=
  (w_of_after1 (W6 m ρ c)).trans (W6_w m ρ c)

theorem V7_scale (c : Dev nD) (d : Fin 128) :
    (V7 m ρ c main_v22 : FVec Ideal S1x128 .f32) (ix2 (0 : Fin 1) d)
      = Cert.TD.scaleK (xOf m c) (m ((c : Thread nD τ).loc main_arg2)) (m ((c : Thread nD τ).loc main_arg3)) d := by
  have h := congrFun (scale_of_after (W6 m ρ c)) (ix2 (0 : Fin 1) d)
  rw [W6_g m ρ c] at h
  exact h.trans (scaleT_eq _ _ _ _ _ d (sum_at m ρ c d) (sumsq_at m ρ c d))

theorem V7_shift (c : Dev nD) (d : Fin 128) :
    (V7 m ρ c main_v26 : FVec Ideal S1x128 .f32) (ix2 (0 : Fin 1) d)
      = Cert.TD.shiftK (xOf m c) (m ((c : Thread nD τ).loc main_arg2)) (m ((c : Thread nD τ).loc main_arg3))
          (m ((c : Thread nD τ).loc main_arg4)) d := by
  have h := congrFun (shift_of_after (W6 m ρ c)) (ix2 (0 : Fin 1) d)
  rw [W6_g m ρ c, W6_b m ρ c] at h
  exact h.trans (shiftT_eq _ _ _ _ _ _ d (sum_at m ρ c d) (sumsq_at m ρ c d))

/-! ## The two results -/

/-- The pooled output after the run. -/
theorem out_at (c : Dev nD) (p : Fin 60000) (d : Fin 128) :
    (W8 m ρ c (Proc.devRef .tc main_v27) : FVec Ideal S60000x128 .f32) (ix2 p d)
      = Cert.TD.outK (xOf m c) (m ((c : Thread nD τ).loc main_arg2)) (m ((c : Thread nD τ).loc main_arg3))
          (m ((c : Thread nD τ).loc main_arg4)) p d := by
  have h := Cert.KernelIdeal.R1.out_arr (V7 m ρ) c p d
  rw [V7_x m ρ c, V7_w m ρ c, V7_scale m ρ c d, V7_shift m ρ c d] at h
  exact (congrFun (W8_arr m ρ c 4) (ix2 p d)).trans h

/-- The sampled points after the run. -/
theorem np_final (c : Dev nD) : W8 m ρ c (Proc.devRef .tc main_v0) = npOf m c :=
  (W8_of_ne m ρ c main_v0 (by decide)).trans ((np_of_after1 (W6 m ρ c)).trans (W6_np m ρ c))

end Cert.KernelIdeal.Value

end
-- ==== Proof.RefTail.lean ====
/-
  What the reference computes from the grouped input x, the weights and the two per-channel vectors, as one term:
  the dense layer, the mean and the variance over every neighbour of every point, the normalisation
  ((y − mean) · rsqrt(var + ε)) · γ + β, the clip at 0 and the maximum over a point's neighbours.
-/
import proofs.«137218_j74440373174612_1_alg».proof.ReferenceIdeal

noncomputable section

namespace Cert.ReferenceIdeal.TD

open Idealize.ShloMosaic Cert.ReferenceIdeal

variable {F : FTy → Type} [FloatOps F] [Facts]
open Facts₀ Facts

/-- The variance over every neighbour of every point, per channel: the mean of the squared deviations from the
    mean, the divisor being the count less the (zero) degrees-of-freedom correction; the fill value if that divisor
    were not positive. -/
def variance (y : FVec F S60000x16x128 .f32) (ddof : IVec S_ 32) : FVec F S128 .f32 :=
  let v0 : FVec F S128 .f32 := Host.reduceAdd y (constant S_ .f32 0x00000000#32) reducesTo_S60000x16x128_S128_d0_1 h_S_
  let v3 : FVec F S1x1x128 .f32 := Host.divf (broadcastInDim S1x1x128 ![2] bcast_S128_S1x1x128_2 v0)
    (broadcastInDim S1x1x128 ![] bcast_S_S1x1x128 (constant S_ .f32 0x496A6000#32))
  let v5 : FVec F S60000x16x128 .f32 := subf y (broadcastInDim S60000x16x128 ![0, 1, 2] bcast_S1x1x128_S60000x16x128_0_1_2 v3)
  let v6 : FVec F S60000x16x128 .f32 := mulf v5 v5
  let v8 : FVec F S_ .f32 := subf (constant S_ .f32 0x496A6000#32) (sitofp .f32 ddof)
  let v9 : FVec F S128 .f32 := Host.reduceAdd v6 (constant S_ .f32 0x00000000#32) reducesTo_S60000x16x128_S128_d0_1 h_S_
  let v11 : FVec F S128 .f32 := Host.divf v9 (broadcastInDim S128 ![] bcast_S_S128 v8)
  let v12 : IVec S_ 1 := cmpf .ogt v8 (constant S_ .f32 0x00000000#32)
  select (broadcastInDim S128 ![] bcast_S_S128 v12) v11
    (broadcastInDim S128 ![] bcast_S_S128 (id (constant S_ .f32 0x7FC00000#32)))

/-- The reference after the grouped input. -/
def refTail (x : FVec F S60000x16x67 .f32) (W : FVec F S67x128 .f32) (γ β : FVec F S128 .f32) : FVec F S60000x128 .f32 :=
  let v7 : FVec F S60000x16x128 .f32 := Host.dotGeneral dot_S60000x16x67_S67x128_S60000x16x128_2_0_01_1_n_n none x W
  let v8 : FVec F S128 .f32 := Host.reduceAdd v7 (constant S_ .f32 0x00000000#32) reducesTo_S60000x16x128_S128_d0_1 h_S_
  let v10 : FVec F S128 .f32 := Host.divf v8 (broadcastInDim S128 ![] bcast_S_S128 (constant S_ .f32 0x496A6000#32))
  let v11 : FVec F S128 .f32 := variance v7 (constantI S_ 32 0#32)
  let v14 : FVec F S60000x16x128 .f32 := subf v7 (broadcastInDim S60000x16x128 ![0, 1, 2] bcast_S1x1x128_S60000x16x128_0_1_2
    (broadcastInDim S1x1x128 ![2] bcast_S128_S1x1x128_2 v10))
  let v17 : FVec F S128 .f32 := Host.rsqrt (addf v11 (broadcastInDim S128 ![] bcast_S_S128 (constant S_ .f32 0x3727C5AC#32)))
  let v20 : FVec F S60000x16x128 .f32 := mulf v14 (broadcastInDim S60000x16x128 ![0, 1, 2] bcast_S1x1x128_S60000x16x128_0_1_2
    (broadcastInDim S1x1x128 ![2] bcast_S128_S1x1x128_2 v17))
  let v23 : FVec F S60000x16x128 .f32 := mulf v20 (broadcastInDim S60000x16x128 ![0, 1, 2] bcast_S1x1x128_S60000x16x128_0_1_2
    (broadcastInDim S1x1x128 ![2] bcast_S128_S1x1x128_2 γ))
  let v26 : FVec F S60000x16x128 .f32 := addf v23 (broadcastInDim S60000x16x128 ![0, 1, 2] bcast_S1x1x128_S60000x16x128_0_1_2
    (broadcastInDim S1x1x128 ![2] bcast_S128_S1x1x128_2 β))
  let v27 : FVec F S60000x16x128 .f32 := maximumf v26 (broadcastInDim S60000x16x128 ![] bcast_S_S60000x16x128 (constant S_ .f32 0x00000000#32))
  Host.reduce FloatOps.maximumf v27 (constant S_ .f32 0xFF800000#32) reducesTo_S60000x16x128_S60000x128_d1 h_S_

end Cert.ReferenceIdeal.TD

end
-- ==== Proof.RefRun.lean ====
/-
  The reference's run: every weakly fair execution terminates with the two results at the operations' composed terms
  of the arguments, and the arguments unchanged.

  The reference is a straight line of host operations once each call is replaced by its callee's body on the call's
  own buffers: three row lookups (each wrapping negative row numbers through a select of its own), the difference
  with the sampled points, the concatenation, the dense layer, the mean, the variance (whose last select is a
  function of its own), the normalisation, the clip and the maximum over the neighbours. So the run is the fold of
  that list over the launch contents, and what a buffer holds at the end is read off the fold.
-/
import proofs.«137218_j74440373174612_1_alg».proof.Proof.PreambleDefs
import proofs.«137218_j74440373174612_1_alg».proof.Proof.RefTail
import proofs.«137218_j74440373174612_1_alg».proof.Proof.Gen.ReferenceIdeal
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal

variable {F : FTy → Type} [FloatOps F] [Facts]
open Facts₀ Facts

/-- @main's operations before the concatenation, each call replaced by its callee's operations on the call's own
    buffers: the three row lookups, twenty-three operations each (the wrap of negative row numbers with its select,
    the range test, the gather, the fill), and the difference with the sampled points. -/
abbrev opsA : List (HloOp τ sig (Elt F)) :=
  [
    -- the sampled points' lookup: point[sample_idx]
    TRef.nullary main_call0.c (constantI S_ 32 0#32),
    TRef.unary main_call0.c main_call0.v0 (broadcastInDim S60000 ![] bcast_S_S60000),
    TRef.binary (.of main_arg5 : TRef sig ⟨S60000, .i32⟩) main_call0.v0 main_call0.v1 (cmpi .slt),
    TRef.nullary main_call0.c_0 (constantI S_ 32 240000#32),
    TRef.unary main_call0.c_0 main_call0.v2 (broadcastInDim S60000 ![] bcast_S_S60000),
    TRef.binary (.of main_arg5 : TRef sig ⟨S60000, .i32⟩) main_call0.v2 main_call0.v3 addi,
    TRef.ternary main_call0.v1 main_call0.v3 (.of main_arg5 : TRef sig ⟨S60000, .i32⟩) main_call0.call0.v0 select,
    TRef.unary main_call0.call0.v0 main_call0.v5 (broadcastInDim S60000x1 ![0] bcast_S60000_S60000x1_0),
    TRef.nullary main_call0.c_1 (constantI S1 32 239999#32),
    TRef.nullary main_call0.c_2 (constantI S_ 32 0#32),
    TRef.unary main_call0.c_2 main_call0.v6 (broadcastInDim S60000x1 ![] bcast_S_S60000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S60000x1 ![0, 1] bcast_S1x1_S60000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S60000x1_S60000_d1 h_S_),
    TRef.binary (.of main_arg0 : TRef sig ⟨S240000x3, .f32⟩) main_call0.v5 main_call0.v13 (fun x i => Host.gather gather_S240000x3_S60000x1_S60000x3_1_0_n_n_0_1_13 x i),
    TRef.unary main_call0.v12 main_call0.v14 (broadcastInDim S60000x3 ![0] bcast_S60000_S60000x3_0),
    TRef.nullary main_call0.cst (constant S_ .f32 0x7FC00000#32),
    TRef.unary main_call0.cst main_call0.v15 (broadcastInDim S60000x3 ![] bcast_S_S60000x3),
    TRef.ternary main_call0.v14 main_call0.v13 main_call0.v15 main_call0.v16 select,
    -- the neighbours' coordinates: point[knn_idx]
    TRef.nullary main_call1.c (constantI S_ 32 0#32),
    TRef.unary main_call1.c main_call1.v0 (broadcastInDim S60000x16 ![] bcast_S_S60000x16),
    TRef.binary (.of main_arg6 : TRef sig ⟨S60000x16, .i32⟩) main_call1.v0 main_call1.v1 (cmpi .slt),
    TRef.nullary main_call1.c_0 (constantI S_ 32 240000#32),
    TRef.unary main_call1.c_0 main_call1.v2 (broadcastInDim S60000x16 ![] bcast_S_S60000x16),
    TRef.binary (.of main_arg6 : TRef sig ⟨S60000x16, .i32⟩) main_call1.v2 main_call1.v3 addi,
    TRef.ternary main_call1.v1 main_call1.v3 (.of main_arg6 : TRef sig ⟨S60000x16, .i32⟩) main_call1.call0.v0 select,
    TRef.unary main_call1.call0.v0 main_call1.v5 (broadcastInDim S60000x16x1 ![0, 1] bcast_S60000x16_S60000x16x1_0_1),
    TRef.nullary main_call1.c_1 (constantI S1 32 239999#32),
    TRef.nullary main_call1.c_2 (constantI S_ 32 0#32),
    TRef.unary main_call1.c_2 main_call1.v6 (broadcastInDim S60000x16x1 ![] bcast_S_S60000x16x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S60000x16x1 ![0, 1, 2] bcast_S1x1x1_S60000x16x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S60000x16x1_S60000x16_d2 h_S_),
    TRef.binary (.of main_arg0 : TRef sig ⟨S240000x3, .f32⟩) main_call1.v5 main_call1.v13 (fun x i => Host.gather gather_S240000x3_S60000x16x1_S60000x16x3_2_0_n_n_0_2_13 x i),
    TRef.unary main_call1.v12 main_call1.v14 (broadcastInDim S60000x16x3 ![0, 1] bcast_S60000x16_S60000x16x3_0_1),
    TRef.nullary main_call1.cst (constant S_ .f32 0x7FC00000#32),
    TRef.unary main_call1.cst main_call1.v15 (broadcastInDim S60000x16x3 ![] bcast_S_S60000x16x3),
    TRef.ternary main_call1.v14 main_call1.v13 main_call1.v15 main_call1.v16 select,
    -- relative to the sampled points
    unary main_v0 main_v2 (broadcastInDim S60000x1x3 ![0, 2] bcast_S60000x3_S60000x1x3_0_2 : (⟨S60000x3, .f32⟩ : BufTy).Contents (Elt F) → (⟨S60000x1x3, .f32⟩ : BufTy).Contents (Elt F)),
    unary main_v2 main_v3 (broadcastInDim S60000x16x3 ![0, 1, 2] bcast_S60000x1x3_S60000x16x3_0_1_2 : (⟨S60000x1x3, .f32⟩ : BufTy).Contents (Elt F) → (⟨S60000x16x3, .f32⟩ : BufTy).Contents (Elt F)),
    binary main_v1 main_v3 main_v4 (subf : (⟨S60000x16x3, .f32⟩ : BufTy).Contents (Elt F) → (⟨S60000x16x3, .f32⟩ : BufTy).Contents (Elt F) → (⟨S60000x16x3, .f32⟩ : BufTy).Contents (Elt F)),
    -- the neighbours' features: feat[knn_idx]
    TRef.nullary main_call2.c (constantI S_ 32 0#32),
    TRef.unary main_call2.c main_call2.v0 (broadcastInDim S60000x16 ![] bcast_S_S60000x16),
    TRef.binary (.of main_arg6 : TRef sig ⟨S60000x16, .i32⟩) main_call2.v0 main_call2.v1 (cmpi .slt),
    TRef.nullary main_call2.c_0 (constantI S_ 32 240000#32),
    TRef.unary main_call2.c_0 main_call2.v2 (broadcastInDim S60000x16 ![] bcast_S_S60000x16),
    TRef.binary (.of main_arg6 : TRef sig ⟨S60000x16, .i32⟩) main_call2.v2 main_call2.v3 addi,
    TRef.ternary main_call2.v1 main_call2.v3 (.of main_arg6 : TRef sig ⟨S60000x16, .i32⟩) main_call2.call0.v0 select,
    TRef.unary main_call2.call0.v0 main_call2.v5 (broadcastInDim S60000x16x1 ![0, 1] bcast_S60000x16_S60000x16x1_0_1),
    TRef.nullary main_call2.c_1 (constantI S1 32 239999#32),
    TRef.nullary main_call2.c_2 (constantI S_ 32 0#32),
    TRef.unary main_call2.c_2 main_call2.v6 (broadcastInDim S60000x16x1 ![] bcast_S_S60000x16x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S60000x16x1 ![0, 1, 2] bcast_S1x1x1_S60000x16x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S60000x16x1_S60000x16_d2 h_S_),
    TRef.binary (.of main_arg1 : TRef sig ⟨S240000x64, .f32⟩) main_call2.v5 main_call2.v13 (fun x i => Host.gather gather_S240000x64_S60000x16x1_S60000x16x64_2_0_n_n_0_2_164 x i),
    TRef.unary main_call2.v12 main_call2.v14 (broadcastInDim S60000x16x64 ![0, 1] bcast_S60000x16_S60000x16x64_0_1),
    TRef.nullary main_call2.cst (constant S_ .f32 0x7FC00000#32),
    TRef.unary main_call2.cst main_call2.v15 (broadcastInDim S60000x16x64 ![] bcast_S_S60000x16x64),
    TRef.ternary main_call2.v14 main_call2.v13 main_call2.v15 main_call2.v16 select ]

/-- @main's operations from the concatenation on: the grouped input, the dense layer and its mean, the variance
    (twenty-two operations, its closing select three of them), the normalisation, the clip (three) and the maximum
    over a point's neighbours. -/
abbrev opsB : List (HloOp τ sig (Elt F)) :=
  [
    -- the grouped input, the dense layer, its mean
    binary main_v4 main_v5 main_v6 ((fun a b => concatenate S60000x16x67 2 [⟨S60000x16x3, a⟩, ⟨S60000x16x64, b⟩] concatenates_S60000x16x3_S60000x16x64_S60000x16x67_d2) : (⟨S60000x16x3, .f32⟩ : BufTy).Contents (Elt F) → (⟨S60000x16x64, .f32⟩ : BufTy).Contents (Elt F) → (⟨S60000x16x67, .f32⟩ : BufTy).Contents (Elt F)),
    binary main_v6 main_arg2 main_v7 ((fun l r => Host.dotGeneral dot_S60000x16x67_S67x128_S60000x16x128_2_0_01_1_n_n none l r) : (⟨S60000x16x67, .f32⟩ : BufTy).Contents (Elt F) → (⟨S67x128, .f32⟩ : BufTy).Contents (Elt F) → (⟨S60000x16x128, .f32⟩ : BufTy).Contents (Elt F)),
    nullary main_cst (constant S_ .f32 0x00000000#32),
    binary main_v7 main_cst main_v8 ((fun x v => Host.reduceAdd x v reducesTo_S60000x16x128_S128_d0_1 h_S_) : (⟨S60000x16x128, .f32⟩ : BufTy).Contents (Elt F) → (⟨S_, .f32⟩ : BufTy).Contents (Elt F) → (⟨S128, .f32⟩ : BufTy).Contents (Elt F)),
    nullary main_cst_0 (constant S_ .f32 0x496A6000#32),
    unary main_cst_0 main_v9 (broadcastInDim S128 ![] bcast_S_S128 : (⟨S_, .f32⟩ : BufTy).Contents (Elt F) → (⟨S128, .f32⟩ : BufTy).Contents (Elt F)),
    binary main_v8 main_v9 main_v10 (Host.divf : (⟨S128, .f32⟩ : BufTy).Contents (Elt F) → (⟨S128, .f32⟩ : BufTy).Contents (Elt F) → (⟨S128, .f32⟩ : BufTy).Contents (Elt F)),
    nullary main_c (constantI S_ 32 0#32),
    -- the variance of the dense layer's output, its last select a function of its own
    TRef.nullary main_call3.cst (constant S_ .f32 0x00000000#32),
    TRef.binary (.of main_v7 : TRef sig ⟨S60000x16x128, .f32⟩) main_call3.cst main_call3.v0 (fun x v => Host.reduceAdd x v reducesTo_S60000x16x128_S128_d0_1 h_S_),
    TRef.unary main_call3.v0 main_call3.v1 (broadcastInDim S1x1x128 ![2] bcast_S128_S1x1x128_2),
    TRef.nullary main_call3.cst_0 (constant S_ .f32 0x496A6000#32),
    TRef.unary main_call3.cst_0 main_call3.v2 (broadcastInDim S1x1x128 ![] bcast_S_S1x1x128),
    TRef.binary main_call3.v1 main_call3.v2 main_call3.v3 Host.divf,
    TRef.unary main_call3.v3 main_call3.v4 (broadcastInDim S60000x16x128 ![0, 1, 2] bcast_S1x1x128_S60000x16x128_0_1_2),
    TRef.binary (.of main_v7 : TRef sig ⟨S60000x16x128, .f32⟩) main_call3.v4 main_call3.v5 subf,
    TRef.binary main_call3.v5 main_call3.v5 main_call3.v6 mulf,
    TRef.unary (.of main_c : TRef sig ⟨S_, .i32⟩) main_call3.v7 (sitofp .f32),
    TRef.nullary main_call3.cst_1 (constant S_ .f32 0x496A6000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S60000x16x128_S128_d0_1 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    -- the normalisation
    unary main_v10 main_v12 (broadcastInDim S1x1x128 ![2] bcast_S128_S1x1x128_2 : (⟨S128, .f32⟩ : BufTy).Contents (Elt F) → (⟨S1x1x128, .f32⟩ : BufTy).Contents (Elt F)),
    unary main_v12 main_v13 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v7 main_v13 main_v14 (subf : (⟨S60000x16x128, .f32⟩ : BufTy).Contents (Elt F) → (⟨S60000x16x128, .f32⟩ : BufTy).Contents (Elt F) → (⟨S60000x16x128, .f32⟩ : BufTy).Contents (Elt F)),
    nullary main_cst_1 (constant S_ .f32 0x3727C5AC#32),
    unary main_cst_1 main_v15 (broadcastInDim S128 ![] bcast_S_S128 : (⟨S_, .f32⟩ : BufTy).Contents (Elt F) → (⟨S128, .f32⟩ : BufTy).Contents (Elt F)),
    binary main_v11 main_v15 main_v16 (addf : (⟨S128, .f32⟩ : BufTy).Contents (Elt F) → (⟨S128, .f32⟩ : BufTy).Contents (Elt F) → (⟨S128, .f32⟩ : BufTy).Contents (Elt F)),
    unary main_v16 main_v17 (Host.rsqrt : (⟨S128, .f32⟩ : BufTy).Contents (Elt F) → (⟨S128, .f32⟩ : BufTy).Contents (Elt F)),
    unary main_v17 main_v18 (broadcastInDim S1x1x128 ![2] bcast_S128_S1x1x128_2 : (⟨S128, .f32⟩ : BufTy).Contents (Elt F) → (⟨S1x1x128, .f32⟩ : BufTy).Contents (Elt F)),
    unary main_v18 main_v19 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v14 main_v19 main_v20 (mulf : (⟨S60000x16x128, .f32⟩ : BufTy).Contents (Elt F) → (⟨S60000x16x128, .f32⟩ : BufTy).Contents (Elt F) → (⟨S60000x16x128, .f32⟩ : BufTy).Contents (Elt F)),
    unary main_arg3 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v20 main_v22 main_v23 (mulf : (⟨S60000x16x128, .f32⟩ : BufTy).Contents (Elt F) → (⟨S60000x16x128, .f32⟩ : BufTy).Contents (Elt F) → (⟨S60000x16x128, .f32⟩ : BufTy).Contents (Elt F)),
    unary main_arg4 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v23 main_v25 main_v26 (addf : (⟨S60000x16x128, .f32⟩ : BufTy).Contents (Elt F) → (⟨S60000x16x128, .f32⟩ : BufTy).Contents (Elt F) → (⟨S60000x16x128, .f32⟩ : BufTy).Contents (Elt F)),
    -- the clip at zero
    TRef.nullary main_call4.cst (constant S_ .f32 0x00000000#32),
    TRef.unary main_call4.cst main_call4.v0 (broadcastInDim S60000x16x128 ![] bcast_S_S60000x16x128),
    TRef.binary (.of main_v26 : TRef sig ⟨S60000x16x128, .f32⟩) main_call4.v0 main_call4.v1 maximumf,
    -- the maximum over a point's neighbours
    nullary main_cst_2 (constant S_ .f32 0xFF800000#32),
    binary main_v27 main_cst_2 main_v28 ((fun x v => Host.reduce FloatOps.maximumf x v reducesTo_S60000x16x128_S60000x128_d1 h_S_) : (⟨S60000x16x128, .f32⟩ : BufTy).Contents (Elt F) → (⟨S_, .f32⟩ : BufTy).Contents (Elt F) → (⟨S60000x128, .f32⟩ : BufTy).Contents (Elt F)) ]

/-- @main's operations, in order. -/
abbrev ops : List (HloOp τ sig (Elt F)) := opsA ++ opsB

-- a hundred and twenty-three sequencing steps to re-associate, one level of recursion each
set_option maxRecDepth 4096 in
/-- @main is that straight line: with the callees' bodies put in at their calls, both sides are one chain of
    operations once sequencing is re-associated. -/
theorem main_eq (c : Dev nD) : main (F := F) c = seq ops := by
  show main (F := F) c = seq (opsA ++ opsB)
  rw [seq_append]
  simp only [main, fn_take.body, fn_take_0.body, fn_take_2.body, fn_where.body, fn_where_1.body, fn_where_3.body,
    fn_var.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

theorem opsB_sub : (opsB : List (HloOp τ sig (Elt F))).Forall fun op => op.bufs ⊆ tcRefs τ sig :=
  ⟨binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., binary_bufs_sub ..⟩

theorem ops_sub : (ops : List (HloOp τ sig (Elt F))).Forall fun op => op.bufs ⊆ tcRefs τ sig :=
  List.forall_append.mpr ⟨opsA_sub, opsB_sub⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The contents after two lines run one after the other: the second line's fold over the first's. -/
theorem after_concat (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a buffer's own type and back are the contents. -/
theorem ofBuf_toBuf {T : BufTy} (x : StableHlo.TRef sig T) (v : T.Contents (Elt F)) : x.ofBuf (x.toBuf v) = v := by
  obtain ⟨r, h, h1, h2⟩ := x
  subst h
  rfl

/-! ## What the first line leaves

Read off the fold: each operation's result at its own buffer is its function of its operands' contents, and at any
other buffer what was there. The reductions and gathers stay folded: the equations never look inside them. -/

section First
attribute [local irreducible] Host.reduce Host.gather broadcastInDim

set_option maxRecDepth 8192 in
theorem A_v0 (W : Valuation τ sig (Elt F)) :
    after opsA W (main_v0 : DevRef τ sig) = TD.newPoint (W (main_arg0 : DevRef τ sig)) (W (main_arg5 : DevRef τ sig)) := by
  after_results_simp
  simp only [ofBuf_toBuf]
  rfl

set_option maxRecDepth 8192 in
theorem A_v4 (W : Valuation τ sig (Elt F)) :
    after opsA W (main_v4 : DevRef τ sig)
      = subf (TD.takeXyz (W (main_arg0 : DevRef τ sig)) (W (main_arg6 : DevRef τ sig)))
          (broadcastInDim S60000x16x3 ![0, 1, 2] bcast_S60000x1x3_S60000x16x3_0_1_2
            (broadcastInDim S60000x1x3 ![0, 2] bcast_S60000x3_S60000x1x3_0_2
              (TD.newPoint (W (main_arg0 : DevRef τ sig)) (W (main_arg5 : DevRef τ sig))))) := by
  after_results_simp
  simp only [ofBuf_toBuf]
  rfl

set_option maxRecDepth 8192 in
theorem A_v5 (W : Valuation τ sig (Elt F)) :
    after opsA W (main_v5 : DevRef τ sig) = TD.takeFeat (W (main_arg1 : DevRef τ sig)) (W (main_arg6 : DevRef τ sig)) := by
  after_results_simp
  simp only [ofBuf_toBuf]
  rfl

end First

set_option maxRecDepth 8192 in
theorem A_arg0 (W : Valuation τ sig (Elt F)) : after opsA W (main_arg0 : DevRef τ sig) = W (main_arg0 : DevRef τ sig) := by
  after_results_simp
set_option maxRecDepth 8192 in
theorem A_arg1 (W : Valuation τ sig (Elt F)) : after opsA W (main_arg1 : DevRef τ sig) = W (main_arg1 : DevRef τ sig) := by
  after_results_simp
set_option maxRecDepth 8192 in
theorem A_arg2 (W : Valuation τ sig (Elt F)) : after opsA W (main_arg2 : DevRef τ sig) = W (main_arg2 : DevRef τ sig) := by
  after_results_simp
set_option maxRecDepth 8192 in
theorem A_arg3 (W : Valuation τ sig (Elt F)) : after opsA W (main_arg3 : DevRef τ sig) = W (main_arg3 : DevRef τ sig) := by
  after_results_simp
set_option maxRecDepth 8192 in
theorem A_arg4 (W : Valuation τ sig (Elt F)) : after opsA W (main_arg4 : DevRef τ sig) = W (main_arg4 : DevRef τ sig) := by
  after_results_simp
set_option maxRecDepth 8192 in
theorem A_arg5 (W : Valuation τ sig (Elt F)) : after opsA W (main_arg5 : DevRef τ sig) = W (main_arg5 : DevRef τ sig) := by
  after_results_simp
set_option maxRecDepth 8192 in
theorem A_arg6 (W : Valuation τ sig (Elt F)) : after opsA W (main_arg6 : DevRef τ sig) = W (main_arg6 : DevRef τ sig) := by
  after_results_simp

/-! ## What the second line leaves -/

section Second
attribute [local irreducible] Host.reduce Host.reduceAdd concatenate broadcastInDim

set_option maxRecDepth 8192 in
set_option maxHeartbeats 400000 in
theorem B_v28 (W : Valuation τ sig (Elt F)) :
    after opsB W (main_v28 : DevRef τ sig)
      = TD.refTail
          (concatenate S60000x16x67 2
            [⟨S60000x16x3, W (main_v4 : DevRef τ sig)⟩, ⟨S60000x16x64, W (main_v5 : DevRef τ sig)⟩]
            concatenates_S60000x16x3_S60000x16x64_S60000x16x67_d2)
          (W (main_arg2 : DevRef τ sig)) (W (main_arg3 : DevRef τ sig)) (W (main_arg4 : DevRef τ sig)) := by
  after_results_simp
  simp only [ofBuf_toBuf]
  rfl

end Second

set_option maxRecDepth 8192 in
theorem B_v0 (W : Valuation τ sig (Elt F)) : after opsB W (main_v0 : DevRef τ sig) = W (main_v0 : DevRef τ sig) := by
  after_results_simp
set_option maxRecDepth 8192 in
theorem B_arg0 (W : Valuation τ sig (Elt F)) : after opsB W (main_arg0 : DevRef τ sig) = W (main_arg0 : DevRef τ sig) := by
  after_results_simp
set_option maxRecDepth 8192 in
theorem B_arg1 (W : Valuation τ sig (Elt F)) : after opsB W (main_arg1 : DevRef τ sig) = W (main_arg1 : DevRef τ sig) := by
  after_results_simp
set_option maxRecDepth 8192 in
theorem B_arg2 (W : Valuation τ sig (Elt F)) : after opsB W (main_arg2 : DevRef τ sig) = W (main_arg2 : DevRef τ sig) := by
  after_results_simp
set_option maxRecDepth 8192 in
theorem B_arg3 (W : Valuation τ sig (Elt F)) : after opsB W (main_arg3 : DevRef τ sig) = W (main_arg3 : DevRef τ sig) := by
  after_results_simp
set_option maxRecDepth 8192 in
theorem B_arg4 (W : Valuation τ sig (Elt F)) : after opsB W (main_arg4 : DevRef τ sig) = W (main_arg4 : DevRef τ sig) := by
  after_results_simp
set_option maxRecDepth 8192 in
theorem B_arg5 (W : Valuation τ sig (Elt F)) : after opsB W (main_arg5 : DevRef τ sig) = W (main_arg5 : DevRef τ sig) := by
  after_results_simp
set_option maxRecDepth 8192 in
theorem B_arg6 (W : Valuation τ sig (Elt F)) : after opsB W (main_arg6 : DevRef τ sig) = W (main_arg6 : DevRef τ sig) := by
  after_results_simp

/-! ## The whole line -/

theorem res0_eq (V : Valuation τ sig (Elt F)) :
    after ops V (main_v0 : DevRef τ sig) = TD.newPoint (V (main_arg0 : DevRef τ sig)) (V (main_arg5 : DevRef τ sig)) := by
  rw [after_concat, B_v0, A_v0]

/-- The second result: the second line's term of the first line's two outputs, which are the two halves of the
    grouped input. -/
theorem res28_eq (V : Valuation τ sig (Elt F)) :
    after ops V (main_v28 : DevRef τ sig)
      = TD.refTail (TD.grouped (V (main_arg0 : DevRef τ sig)) (V (main_arg1 : DevRef τ sig)) (V (main_arg5 : DevRef τ sig))
            (V (main_arg6 : DevRef τ sig)))
          (V (main_arg2 : DevRef τ sig)) (V (main_arg3 : DevRef τ sig)) (V (main_arg4 : DevRef τ sig)) := by
  rw [after_concat, B_v28, A_v4, A_v5, A_arg2, A_arg3, A_arg4]
  rfl

theorem arg0_eq (V : Valuation τ sig (Elt F)) : after ops V (main_arg0 : DevRef τ sig) = V (main_arg0 : DevRef τ sig) := by
  rw [after_concat, B_arg0, A_arg0]
theorem arg1_eq (V : Valuation τ sig (Elt F)) : after ops V (main_arg1 : DevRef τ sig) = V (main_arg1 : DevRef τ sig) := by
  rw [after_concat, B_arg1, A_arg1]
theorem arg2_eq (V : Valuation τ sig (Elt F)) : after ops V (main_arg2 : DevRef τ sig) = V (main_arg2 : DevRef τ sig) := by
  rw [after_concat, B_arg2, A_arg2]
theorem arg3_eq (V : Valuation τ sig (Elt F)) : after ops V (main_arg3 : DevRef τ sig) = V (main_arg3 : DevRef τ sig) := by
  rw [after_concat, B_arg3, A_arg3]
theorem arg4_eq (V : Valuation τ sig (Elt F)) : after ops V (main_arg4 : DevRef τ sig) = V (main_arg4 : DevRef τ sig) := by
  rw [after_concat, B_arg4, A_arg4]
theorem arg5_eq (V : Valuation τ sig (Elt F)) : after ops V (main_arg5 : DevRef τ sig) = V (main_arg5 : DevRef τ sig) := by
  rw [after_concat, B_arg5, A_arg5]
theorem arg6_eq (V : Valuation τ sig (Elt F)) : after ops V (main_arg6 : DevRef τ sig) = V (main_arg6 : DevRef τ sig) := by
  rw [after_concat, B_arg6, A_arg6]

/-- For any float values, from any memory with zero counters: every weakly fair execution of @main terminates with
    the sampled points and the layer's output at their terms of the argument arrays, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v0)
        = TD.newPoint (m ((c.tc : Thread nD τ).loc main_arg0)) (m ((c.tc : Thread nD τ).loc main_arg5))
      ∧ r.2.mem ((c.tc : Thread nD τ).loc main_v28)
        = TD.refTail (TD.grouped (m ((c.tc : Thread nD τ).loc main_arg0)) (m ((c.tc : Thread nD τ).loc main_arg1))
              (m ((c.tc : Thread nD τ).loc main_arg5)) (m ((c.tc : Thread nD τ).loc main_arg6)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v0).trans (res0_eq _), (h c main_v28).trans (res28_eq _),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _)⟩)
    (run_main m ρ)

end Cert.ReferenceIdeal.Run

end
-- ==== Proof.Algebra.lean ====
/-
  The two arrangements of batch normalisation agree on real data.

  Fix a channel. Every dense value y(m,k) is a real number, so the two sums Σ y and Σ y² are (coercions of) real
  sums, the mean μ = Σ y / n is real, and both variances are real. Over the reals
  Σ (y − μ)² = Σ y² − 2 μ Σ y + n μ², and with Σ y = n μ this is Σ y² − n μ²; dividing by n > 0 shows that the
  centred variance equals E[y²] − μ² and, being a sum of squares over a positive count, is nonnegative, so the
  clip at 0 does nothing. With one common variance v ≥ 0 and a guard ε > 0 the reciprocal square root is the real
  s = 1/√(v + ε), and y·(γ s) + (β − (μ γ) s) = ((y − μ) s) γ + β is an identity of the commutative ring ℝ.
-/
import proofs.«137218_j74440373174612_1_alg».proof.Proof.Spec

noncomputable section

namespace Cert.TD

open Idealize.ShloMosaic Idealize.ShloMosaic.ValueIdx

/-! ## The four constants -/

/-- The pattern 0x496A6000 has sign 0, exponent field 146 and fraction field 0x6A6000 = 6971392, so it denotes
    (2²³ + 6971392) · 2^(146 − 127 − 23) = 15360000 / 16 = 960000. -/
theorem nE_eq : nE = ((960000 : ℝ) : EReal) := by
  unfold nE Ideal.ofBits Ideal.ieee
  simp [-EReal.coe_mul]
  norm_num

namespace Alg

/-- The pattern 0x3727C5AC has sign 0, exponent field 110 and fraction field 0x27C5AC = 2606508, so it denotes
    the dyadic (2²³ + 2606508) · 2^(110 − 127 − 23) = 10995116 / 2⁴⁰, a little over 10⁻⁵. -/
theorem epsE_eq : epsE = ((10995116 / 2 ^ 40 : ℝ) : EReal) := by
  unfold epsE Ideal.ofBits Ideal.ieee
  simp [-EReal.coe_mul]
  norm_num

end Alg

theorem epsE_pos : ∃ e : ℝ, 0 < e ∧ epsE = (e : EReal) :=
  ⟨10995116 / 2 ^ 40, by positivity, Alg.epsE_eq⟩

/-- The all-zero pattern is a subnormal with fraction 0, the number 0. -/
theorem zeroE_eq : zeroE = 0 := by
  unfold zeroE Ideal.ofBits Ideal.ieee
  simp

/-- The pattern 0xFF800000 has sign 1, an all-ones exponent field and fraction 0: minus infinity. -/
theorem negInfE_eq : negInfE = ⊥ := by
  unfold negInfE Ideal.ofBits Ideal.ieee
  simp

/-! ## Real sums inside the extended reals -/

namespace Alg

/-- The inclusion of ℝ in the extended reals is additive, hence carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a sum over two indices. -/
theorem coe_sum₂ {α β : Type*} [Fintype α] [Fintype β] (f : α → β → ℝ) :
    ((∑ a, ∑ b, f a b : ℝ) : EReal) = ∑ a, ∑ b, (f a b : EReal) := by
  rw [coe_sum]
  exact Finset.sum_congr rfl fun a _ => coe_sum _ _

/-- The inclusion of ℝ is monotone, so it commutes with the maximum of two numbers. -/
theorem coe_max (a b : ℝ) : ((max a b : ℝ) : EReal) = max (a : EReal) (b : EReal) :=
  EReal.coe_strictMono.monotone.map_max

end Alg

open Alg

/-- A dense value is a finite sum of products of real numbers, hence real. -/
theorem Y_real (x : SX.Idx → EReal) (W : SW.Idx → EReal) (hx : AllReal x) (hW : AllReal W)
    (m : Fin 60000) (k : Fin 16) (d : Fin 128) : ∃ r : ℝ, Y x W m k d = (r : EReal) := by
  choose fx hfx using hx
  choose fw hfw using hW
  refine ⟨∑ c : Fin 67, fx (ix3 m k c) * fw (ix2 c d), ?_⟩
  rw [Y, coe_sum]
  refine Finset.sum_congr rfl fun c _ => ?_
  rw [hfx, hfw, EReal.coe_mul]

/-! ## The variance identity over the reals -/

namespace Alg

/-- Σ (y − μ)² = Σ y² − 2 μ Σ y + (number of terms) · μ², for any real μ. -/
theorem sum_centred_sq {α β : Type*} [Fintype α] [Fintype β] (y : α → β → ℝ) (μ : ℝ) :
    ∑ a, ∑ b, (y a b - μ) * (y a b - μ)
      = (∑ a, ∑ b, y a b * y a b) - 2 * μ * (∑ a, ∑ b, y a b)
        + ((Fintype.card α : ℝ) * (Fintype.card β : ℝ)) * (μ * μ) := by
  have h : ∀ a b, (y a b - μ) * (y a b - μ) = y a b * y a b - 2 * μ * y a b + μ * μ := fun a b => by ring
  simp only [h, Finset.sum_add_distrib, Finset.sum_sub_distrib, ← Finset.mul_sum, Finset.sum_const,
    Finset.card_univ, nsmul_eq_mul]
  ring

/-- With μ the mean of n = 960000 values, the centred variance is E[y²] − μ². -/
theorem centred_var_eq (y : Fin 60000 → Fin 16 → ℝ) :
    (∑ m, ∑ k, (y m k - (∑ m, ∑ k, y m k) / 960000) * (y m k - (∑ m, ∑ k, y m k) / 960000)) / 960000
      = (∑ m, ∑ k, y m k * y m k) / 960000
        - ((∑ m, ∑ k, y m k) / 960000) * ((∑ m, ∑ k, y m k) / 960000) := by
  rw [sum_centred_sq, Fintype.card_fin, Fintype.card_fin]
  field_simp
  ring

/-- A centred variance is a sum of squares over a positive count, hence nonnegative. -/
theorem centred_var_nonneg (y : Fin 60000 → Fin 16 → ℝ) (μ : ℝ) :
    0 ≤ (∑ m, ∑ k, (y m k - μ) * (y m k - μ)) / 960000 :=
  div_nonneg (Finset.sum_nonneg fun m _ => Finset.sum_nonneg fun k _ => mul_self_nonneg _) (by norm_num)

/-! ## The reciprocal square root of a positive real -/

theorem rsqrt_pos_real {r : ℝ} (hr : 0 < r) : Ideal.rsqrt (r : EReal) = (((Real.sqrt r)⁻¹ : ℝ) : EReal) := by
  rw [Ideal.rsqrt_coe, if_neg (not_lt.2 hr.le), if_neg hr.ne']

/-! ## One neighbour's value -/

/-- y·(γ s) + (β − (μ γ) s) = ((y − μ) s) γ + β over the reals, hence the two clipped values agree. -/
theorem cellK_eq_cellR (y μ s g b : ℝ) :
    cellK (y : EReal) ((g : EReal) * (s : EReal)) ((b : EReal) - ((μ : EReal) * (g : EReal)) * (s : EReal))
      = cellR (y : EReal) (μ : EReal) (s : EReal) (g : EReal) (b : EReal) := by
  have h : y * (g * s) + (b - (μ * g) * s) = ((y - μ) * s) * g + b := by ring
  have h' := congrArg (fun t : ℝ => (t : EReal)) h
  simp only [EReal.coe_add, EReal.coe_mul, EReal.coe_sub] at h'
  rw [cellK, cellR, h']

end Alg

/-! ## The theorem -/

theorem outK_eq_outR (x : SX.Idx → EReal) (W : SW.Idx → EReal) (γ β : SV.Idx → EReal)
    (hx : AllReal x) (hW : AllReal W) (hγ : AllReal γ) (hβ : AllReal β) (m : Fin 60000) (d : Fin 128) :
    outK x W γ β m d = outR x W γ β m d := by
  obtain ⟨e, he0, he⟩ := epsE_pos
  obtain ⟨g, hg⟩ := hγ (ix1 d)
  obtain ⟨b, hb⟩ := hβ (ix1 d)
  choose y hy using fun m k => Y_real x W hx hW m k d
  have h960 : (960000 : ℝ) ≠ 0 := by norm_num
  -- the two accumulated sums
  have hS1 : S1 x W d = ((∑ m, ∑ k, y m k : ℝ) : EReal) := by
    rw [S1, coe_sum₂]; simp only [hy]
  have hS2 : S2 x W d = ((∑ m, ∑ k, y m k * y m k : ℝ) : EReal) := by
    rw [S2, coe_sum₂]; simp only [hy, EReal.coe_mul]
  -- the mean
  have hmean : mean x W d = (((∑ m, ∑ k, y m k) / 960000 : ℝ) : EReal) := by
    rw [mean, hS1, nE_eq, Ideal.div_coe h960, ← EReal.coe_mul, mul_one_div]
  -- the centred variance
  have hvarR : varR x W d
      = (((∑ m, ∑ k, (y m k - (∑ m, ∑ k, y m k) / 960000) * (y m k - (∑ m, ∑ k, y m k) / 960000)) / 960000 : ℝ)
          : EReal) := by
    rw [varR, hmean, nE_eq, Ideal.div_coe h960]
    simp only [hy, ← EReal.coe_sub, ← EReal.coe_mul]
    rw [← coe_sum₂, ← EReal.coe_mul, mul_one_div]
  -- the accumulated variance: the clip at 0 is idle
  have hvarK : varK x W d = varR x W d := by
    rw [hvarR, varK, hS2, hmean, nE_eq, zeroE_eq, Ideal.div_coe h960, ← EReal.coe_mul, ← EReal.coe_mul,
      ← EReal.coe_sub, ← EReal.coe_zero, ← coe_max, ← div_eq_mul_one_div, ← centred_var_eq,
      max_eq_left (centred_var_nonneg y _)]
  -- the common reciprocal square root
  have hs : Ideal.rsqrt (varR x W d + epsE)
      = (((Real.sqrt ((∑ m, ∑ k, (y m k - (∑ m, ∑ k, y m k) / 960000)
            * (y m k - (∑ m, ∑ k, y m k) / 960000)) / 960000 + e))⁻¹ : ℝ) : EReal) := by
    rw [hvarR, he, ← EReal.coe_add]
    exact rsqrt_pos_real (add_pos_of_nonneg_of_pos (centred_var_nonneg y _) he0)
  -- neighbour by neighbour the two clipped values agree, so the two maxima do
  have hcell : ∀ k : Fin 16, cellK (Y x W m k d) (scaleK x W γ d) (shiftK x W γ β d)
      = cellR (Y x W m k d) (mean x W d) (Ideal.rsqrt (varR x W d + epsE)) (γ (ix1 d)) (β (ix1 d)) := by
    intro k
    rw [scaleK, shiftK, hvarK, hs, hmean, hy, hg, hb, cellK_eq_cellR]
  unfold outK outR
  exact congrArg (fun f => (Finset.univ : Finset (Fin 16)).fold max negInfE f) (funext hcell)

end Cert.TD

end
-- ==== Proof.RefValue.lean ====
/-
  The reference's tail read at an index: the centre-then-scale arrangement of the specification.

  The tail is a chain of whole-array operations; each is read here at one index. The dense layer at
  (m, k, d) is the sum over the 67 input numbers of x(m, k, c) · W(c, d). A sum over every neighbour
  of every point keeps the channel, so at channel d it is the double sum over m and k of the entries
  (m, k, d). A per-channel vector spread over points and neighbours reads, at (m, k, d), its entry
  d. The variance's divisor is the count minus zero, which is the count, and the count is positive,
  so the guarded quotient is the quotient. The last maximum over a point's neighbours is the fold of
  max over the 16 entries (m, ·, d) from −∞.
-/
import proofs.«137218_j74440373174612_1_alg».proof.Proof.RefTail
import proofs.«137218_j74440373174612_1_alg».proof.Proof.Algebra
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Idealize.ShloMosaic Idealize.ShloMosaic.ValueIdx Cert.ReferenceIdeal

variable [Facts]
open Facts₀ Facts

/-! ## The dense layer at an index

The contraction runs over the last axis of x and the first axis of W. At the result index (m, k, d)
and contraction position q, the left operand is read at (m, k, q) and the right one at (q, d): one
fact per operand axis. -/

/-- The left operand's point coordinate is the result's. -/
theorem lhs_ax0 (m : Fin 60000) (k : Fin 16) (d : Fin 128)
    (q : dot_S60000x16x67_S67x128_S60000x16x128_2_0_01_1_n_n.contr.Idx) :
    (dot_S60000x16x67_S67x128_S60000x16x128_2_0_01_1_n_n.lhsIdx (ix3 m k d) q 0).val = m.val := rfl

/-- The left operand's neighbour coordinate is the result's. -/
theorem lhs_ax1 (m : Fin 60000) (k : Fin 16) (d : Fin 128)
    (q : dot_S60000x16x67_S67x128_S60000x16x128_2_0_01_1_n_n.contr.Idx) :
    (dot_S60000x16x67_S67x128_S60000x16x128_2_0_01_1_n_n.lhsIdx (ix3 m k d) q 1).val = k.val := rfl

/-- The left operand's last coordinate is the contraction position. -/
theorem lhs_ax2 (m : Fin 60000) (k : Fin 16) (d : Fin 128)
    (q : dot_S60000x16x67_S67x128_S60000x16x128_2_0_01_1_n_n.contr.Idx) :
    (dot_S60000x16x67_S67x128_S60000x16x128_2_0_01_1_n_n.lhsIdx (ix3 m k d) q 2).val = (q ⟨0, Nat.one_pos⟩).val :=
  DotDims.lhsIdx_val_of_single _ rfl _ _

/-- The right operand's first coordinate is the contraction position. -/
theorem rhs_ax0 (m : Fin 60000) (k : Fin 16) (d : Fin 128)
    (q : dot_S60000x16x67_S67x128_S60000x16x128_2_0_01_1_n_n.contr.Idx) :
    (dot_S60000x16x67_S67x128_S60000x16x128_2_0_01_1_n_n.rhsIdx (ix3 m k d) q 0).val = (q ⟨0, Nat.one_pos⟩).val :=
  DotDims.rhsIdx_val_of_single _ rfl _ _

/-- The right operand's channel coordinate is the result's. -/
theorem rhs_ax1 (m : Fin 60000) (k : Fin 16) (d : Fin 128)
    (q : dot_S60000x16x67_S67x128_S60000x16x128_2_0_01_1_n_n.contr.Idx) :
    (dot_S60000x16x67_S67x128_S60000x16x128_2_0_01_1_n_n.rhsIdx (ix3 m k d) q 1).val = d.val := rfl

/-- The dense layer at (m, k, d) is Σ_c x(m, k, c) · W(c, d): the contraction positions are the 67
    values of c, and the sum is re-indexed along that bijection. -/
theorem dense_apply (x : FVec Ideal S60000x16x67 .f32) (W : FVec Ideal S67x128 .f32)
    (m : Fin 60000) (k : Fin 16) (d : Fin 128) :
    Host.dotGeneral (F := Ideal) dot_S60000x16x67_S67x128_S60000x16x128_2_0_01_1_n_n none x W (ix3 m k d)
      = Cert.TD.Y x W m k d := by
  show FloatOps.dotGeneral dot_S60000x16x67_S67x128_S60000x16x128_2_0_01_1_n_n none _ x W (ix3 m k d) = _
  rw [Ideal.dotGeneral_apply]
  unfold Cert.TD.Y
  rw [← Equiv.sum_comp (contrEquiv1 dot_S60000x16x67_S67x128_S60000x16x128_2_0_01_1_n_n 67 rfl rfl).symm]
  refine Finset.sum_congr rfl fun c _ => ?_
  have hq := contrEquiv1_symm_val dot_S60000x16x67_S67x128_S60000x16x128_2_0_01_1_n_n 67 rfl rfl c
  congr 1
  · refine congrArg x (funext fun a => Fin.ext ?_)
    match a with
    | ⟨0, _⟩ => exact lhs_ax0 m k d _
    | ⟨1, _⟩ => exact lhs_ax1 m k d _
    | ⟨2, _⟩ => exact (lhs_ax2 m k d _).trans hq
  · refine congrArg W (funext fun a => Fin.ext ?_)
    match a with
    | ⟨0, _⟩ => exact (rhs_ax0 m k d _).trans hq
    | ⟨1, _⟩ => exact rhs_ax1 m k d _

/-! ## A sum over every neighbour of every point

Summing a [60000, 16, 128] array over its first two axes keeps the last: the entries that land on
channel d are exactly the entries (m, k, d), one for each pair (m, k). -/

/-- An index lands on channel d exactly when its last coordinate is d. -/
theorem drop01_iff (h : S60000x16x128.ReducesTo [0, 1] S128) (i : S60000x16x128.Idx) (d : Fin 128) :
    h.drop i = ix1 d ↔ i 2 = d := by
  have hv : (h.drop i 0 : Nat) = i 2 := Shape.ReducesTo.drop_apply_val_of_eq h i 0 2
  constructor
  · intro e
    apply Fin.ext
    rw [← hv, e]
  · intro e
    funext b
    match b with
    | ⟨0, _⟩ => exact Fin.ext (by rw [← e]; exact hv)

/-- The sum from zero at channel d is Σ_m Σ_k f(m, k, d): the indices with last coordinate d
    correspond one to one to the pairs (m, k). -/
theorem hostSum01_apply (h : S60000x16x128.ReducesTo [0, 1] S128) (f : S60000x16x128.Idx → EReal) (d : Fin 128) :
    Ideal.hostReduceAdd h f (Ideal.ofBits .f32 0x00000000#32) (ix1 d) = ∑ m : Fin 60000, ∑ k : Fin 16, f (ix3 m k d) := by
  unfold Ideal.hostReduceAdd
  rw [Ideal.ofBits_zero_f32, zero_add, ← Fintype.sum_prod_type']
  refine Finset.sum_nbij' (t := (Finset.univ : Finset (Fin 60000 × Fin 16)))
    (fun i => ((i 0 : Fin 60000), (i 1 : Fin 16))) (fun p : Fin 60000 × Fin 16 => ix3 p.1 p.2 d) ?_ ?_ ?_ ?_ ?_
  · intro i _; simp only [Finset.mem_univ]
  · intro p _; exact Finset.mem_filter.2 ⟨Finset.mem_univ _, (drop01_iff h _ d).2 rfl⟩
  · intro i hi
    have e := (drop01_iff h i d).1 (Finset.mem_filter.1 hi).2
    rw [← e]; exact (eq_ix3 i).symm
  · intro p _; rfl
  · intro i hi
    have e := (drop01_iff h i d).1 (Finset.mem_filter.1 hi).2
    rw [← e]; exact congrArg f (eq_ix3 i)

/-! ## A per-channel vector spread over points and neighbours -/

/-- A per-channel vector, made a [1, 1, 128] row and then repeated over every point and neighbour,
    reads at (m, k, d) its entry d. -/
theorem bcast3_apply {α : Type} (v : S128.Idx → α) (m : Fin 60000) (k : Fin 16) (d : Fin 128) :
    broadcastInDim S60000x16x128 ![0, 1, 2] bcast_S1x1x128_S60000x16x128_0_1_2
      (broadcastInDim S1x1x128 ![2] bcast_S128_S1x1x128_2 v) (ix3 m k d) = v (ix1 d) := by
  rw [broadcastInDim_apply _ _ _ (ix3 m k d) (ix3 (0 : Fin 1) (0 : Fin 1) d)
        (fun a => by match a with | ⟨0, _⟩ => rfl | ⟨1, _⟩ => rfl | ⟨2, _⟩ => rfl),
      broadcastInDim_apply _ _ _ (ix3 (0 : Fin 1) (0 : Fin 1) d) (ix1 d)
        (fun a => by match a with | ⟨0, _⟩ => rfl)]

/-- The first half alone: the [1, 1, 128] row at (0, 0, d) is the vector at d. -/
theorem bcast1x1_apply {α : Type} (v : S128.Idx → α) (d : Fin 128) :
    broadcastInDim S1x1x128 ![2] bcast_S128_S1x1x128_2 v (ix3 (0 : Fin 1) (0 : Fin 1) d) = v (ix1 d) :=
  broadcastInDim_apply _ _ _ (ix3 (0 : Fin 1) (0 : Fin 1) d) (ix1 d)
        (fun a => by match a with | ⟨0, _⟩ => rfl)

/-- The second half alone: a [1, 1, 128] row repeated over points and neighbours reads at (m, k, d)
    the row at (0, 0, d). -/
theorem bcastFull_apply {α : Type} (v : S1x1x128.Idx → α) (m : Fin 60000) (k : Fin 16) (d : Fin 128) :
    broadcastInDim S60000x16x128 ![0, 1, 2] bcast_S1x1x128_S60000x16x128_0_1_2 v (ix3 m k d)
      = v (ix3 (0 : Fin 1) (0 : Fin 1) d) :=
  broadcastInDim_apply _ _ _ (ix3 m k d) (ix3 (0 : Fin 1) (0 : Fin 1) d)
        (fun a => by match a with | ⟨0, _⟩ => rfl | ⟨1, _⟩ => rfl | ⟨2, _⟩ => rfl)

/-! ## The maximum over a point's neighbours -/

/-- The index over (m, d) with neighbour coordinate k inserted is (m, k, d). -/
theorem lift1_eq (h : S60000x16x128.Reduces [1] S60000x128) (m : Fin 60000) (k : Fin 16) (d : Fin 128) :
    h.lift (ix2 m d) k = ix3 m k d := by
  funext c
  apply Fin.ext
  match c with
  | ⟨0, _⟩ => rfl
  | ⟨1, _⟩ => rfl
  | ⟨2, _⟩ => rfl

/-- The maximum over the neighbour axis from −∞, at (m, d), is the fold of max over the 16 entries
    (m, k, d): max is commutative and associative, so the order of the fold does not matter. -/
theorem hostMax1_apply (v : FVec Ideal S60000x16x128 .f32) (m : Fin 60000) (d : Fin 128) :
    Host.reduce FloatOps.maximumf v (constant (F := Ideal) S_ .f32 0xFF800000#32) reducesTo_S60000x16x128_S60000x128_d1 h_S_ (ix2 m d)
      = (Finset.univ : Finset (Fin 16)).fold max Cert.TD.negInfE (fun k => v (ix3 m k d)) := by
  have h : S60000x16x128.Reduces [1] S60000x128 := by decide
  rw [Host.reduce_eq_fold_single FloatOps.maximumf v _ reducesTo_S60000x16x128_S60000x128_d1 h h_S_]
  have e : v ∘ h.lift (ix2 m d) = fun k => v (ix3 m k d) := funext fun k => congrArg v (lift1_eq h m k d)
  rw [e]
  rfl

/-! ## The variance -/

/-- The divisor: the count minus the integer zero read as a real, which is the count. -/
theorem divisor_eq :
    subf (constant (F := Ideal) S_ .f32 0x496A6000#32) (sitofp .f32 (constantI S_ 32 0#32)) ix0 = Cert.TD.nE := by
  show Cert.TD.nE - (((0#32 : BitVec 32).toInt : ℝ) : EReal) = Cert.TD.nE
  simp

/-- The guard: the count, 960000, is greater than zero. -/
theorem guard_eq : Ideal.cmp .ogt Cert.TD.nE (Ideal.ofBits .f32 0x00000000#32) = 1#1 := by
  rw [Ideal.ofBits_zero_f32, Cert.TD.nE_eq]
  have hpos : (0 : EReal) < ((960000 : ℝ) : EReal) := by exact_mod_cast (by norm_num : (0 : ℝ) < 960000)
  simp [Ideal.cmp, hpos]

/-- The variance of any array y at channel d: the guard holds, so it is the quotient by the count of
    Σ_m Σ_k (y(m, k, d) − μ)², where μ is the quotient by the count of Σ_m Σ_k y(m, k, d). -/
theorem variance_apply (y : FVec Ideal S60000x16x128 .f32) (d : Fin 128) :
    TD.variance (F := Ideal) y (constantI S_ 32 0#32) (ix1 d)
      = Ideal.div (∑ m : Fin 60000, ∑ k : Fin 16,
          (y (ix3 m k d) - Ideal.div (∑ m' : Fin 60000, ∑ k' : Fin 16, y (ix3 m' k' d)) Cert.TD.nE)
          * (y (ix3 m k d) - Ideal.div (∑ m' : Fin 60000, ∑ k' : Fin 16, y (ix3 m' k' d)) Cert.TD.nE)) Cert.TD.nE := by
  unfold TD.variance
  dsimp only
  rw [select_apply, broadcastInDim_scalar_apply, cmpf_apply, divisor_eq, constant_apply, Ideal.cmpf_def, guard_eq,
    select_one, hostDivf_apply, broadcastInDim_scalar_apply, divisor_eq, hostReduceAdd_apply, constant_apply,
    hostSum01_apply]
  refine congrArg (fun s => Ideal.div s Cert.TD.nE) ?_
  refine Finset.sum_congr rfl fun m _ => Finset.sum_congr rfl fun k _ => ?_
  rw [mulf_apply, subf_apply, bcastFull_apply, hostDivf_apply, bcast1x1_apply, broadcastInDim_scalar_apply,
    constant_apply, hostReduceAdd_apply, constant_apply, hostSum01_apply]
  rfl

/-! ## The per-channel statistics of the dense layer -/

/-- The reciprocal square root is taken entry by entry. -/
theorem hostRsqrt_apply (a : FVec Ideal S128 .f32) (i : S128.Idx) : Host.rsqrt a i = Ideal.rsqrt (a i) := rfl

/-- The mean of the dense layer at channel d is the specification's mean. -/
theorem mean_apply (x : FVec Ideal S60000x16x67 .f32) (W : FVec Ideal S67x128 .f32) (d : Fin 128) :
    Host.divf
        (Host.reduceAdd (Host.dotGeneral (F := Ideal) dot_S60000x16x67_S67x128_S60000x16x128_2_0_01_1_n_n none x W)
          (constant (F := Ideal) S_ .f32 0x00000000#32) reducesTo_S60000x16x128_S128_d0_1 h_S_)
        (broadcastInDim S128 ![] bcast_S_S128 (constant (F := Ideal) S_ .f32 0x496A6000#32)) (ix1 d)
      = Cert.TD.mean x W d := by
  rw [hostDivf_apply, broadcastInDim_scalar_apply, constant_apply, hostReduceAdd_apply, constant_apply, hostSum01_apply]
  simp only [dense_apply]
  rfl

/-- The variance of the dense layer at channel d is the specification's centred variance. -/
theorem var_apply (x : FVec Ideal S60000x16x67 .f32) (W : FVec Ideal S67x128 .f32) (d : Fin 128) :
    TD.variance (F := Ideal) (Host.dotGeneral (F := Ideal) dot_S60000x16x67_S67x128_S60000x16x128_2_0_01_1_n_n none x W)
        (constantI S_ 32 0#32) (ix1 d)
      = Cert.TD.varR x W d := by
  rw [variance_apply]
  simp only [dense_apply]
  rfl

/-! ## The tail at an index -/

/-- At (m, d) the tail is the maximum, over the 16 neighbours k and from −∞, of
    max(((y − μ) · (var + ε)^(−1/2)) · γ_d + β_d, 0) with y the dense layer at (m, k, d) and μ, var
    the mean and the centred variance of channel d. -/
theorem refTail_apply (x : FVec Ideal S60000x16x67 .f32) (W : FVec Ideal S67x128 .f32) (γ β : FVec Ideal S128 .f32)
    (m : Fin 60000) (d : Fin 128) :
    TD.refTail (F := Ideal) x W γ β (ix2 m d) = Cert.TD.outR x W γ β m d := by
  unfold TD.refTail
  dsimp only
  rw [hostMax1_apply]
  unfold Cert.TD.outR
  refine congrArg (fun f => Finset.fold max Cert.TD.negInfE f Finset.univ) (funext fun k => ?_)
  rw [maximumf_apply, broadcastInDim_scalar_apply, constant_apply, addf_apply, bcast3_apply, mulf_apply, bcast3_apply,
    mulf_apply, bcast3_apply, subf_apply, bcast3_apply, dense_apply, mean_apply, hostRsqrt_apply, addf_apply,
    var_apply, broadcastInDim_scalar_apply, constant_apply]
  rfl

end Cert.ReferenceIdeal.RefValue

end
-- ==== Proof.Preamble.lean ====
/-
  With every row number in range and the two tables real, every entry of the grouped input is a real number.

  A lookup wraps a negative row number once and then tests that the result lies in 0 … 239999. For a row number in
  −240000 … 239999 the wrapped number always lies there, so the test holds at every position and the lookup returns
  the entry it gathered, never the fill value. A gathered entry is some entry of the table, whichever one, so it is a
  real number. A difference of two reals is real, and each entry of a concatenation is an entry of one of its pieces.

  Three properties of an array are carried through the program: every entry is real, every entry is a row number in
  0 … 239999, every entry is the bit 1. Each of them is kept by any operation that only re-reads entries of its
  operand at other positions (a broadcast, a gather), which is why no position ever has to be computed.
-/
import proofs.«137218_j74440373174612_1_alg».proof.Proof.PreambleDefs
import proofs.«137218_j74440373174612_1_alg».proof.Proof.Spec
import Idealize.ShloMosaic.Lib.ValueIdx
import Idealize.ShloMosaic.Lib.Pipeline.Value
import Idealize.ShloMosaic.Lib.ReduceAll

noncomputable section

namespace Cert.ReferenceIdeal.Preamble

open Idealize.ShloMosaic Idealize.ShloMosaic.ValueIdx Cert.ReferenceIdeal Cert.TD

variable [Facts]
open Facts₀ Facts

/-! ## Words -/

/-- Every entry is a row number counted from the front: 0 … 239999. -/
def InRange {s : Shape} (v : IVec s 32) : Prop := ∀ i, 0 ≤ (v i).toInt ∧ (v i).toInt ≤ 239999

/-- A row number in −240000 … 239999, wrapped once when negative, lies in 0 … 239999: a negative one is at least
    −240000, so adding 240000 gives 0 … 239999 without leaving the 32-bit range. -/
theorem wrap_word (x : BitVec 32) (h : -240000 ≤ x.toInt ∧ x.toInt < 240000) :
    0 ≤ (Scalar.select (IntOp.cmpi .slt x 0#32) (IntOp.addi x 240000#32) x).toInt ∧
      (Scalar.select (IntOp.cmpi .slt x 0#32) (IntOp.addi x 240000#32) x).toInt ≤ 239999 := by
  have h0 : (0#32 : BitVec 32).toInt = 0 := by decide
  by_cases hx : x.toInt < 0
  · have hc : IntOp.cmpi .slt x 0#32 = 1#1 := IntOp.cmpi_slt.2 (by rw [h0]; exact hx)
    rw [hc, select_one]
    have hadd : (IntOp.addi x 240000#32).toInt = x.toInt + 240000 := by
      have h2 : (240000#32 : BitVec 32).toInt = 240000 := by decide
      show (x + 240000#32).toInt = _
      rw [BitVec.toInt_add, h2]
      exact Int.bmod_eq_of_le_mul_two (by omega) (by omega)
    rw [hadd]
    omega
  · have hc : IntOp.cmpi .slt x 0#32 = 0#1 :=
      eq_zero_of_ne_one (fun e => hx (by have := IntOp.cmpi_slt.1 e; rwa [h0] at this))
    rw [hc, select_zero]
    omega

/-- For a row number in 0 … 239999 both halves of the in-range test hold. -/
theorem mask_word (x : BitVec 32) (h : 0 ≤ x.toInt ∧ x.toInt ≤ 239999) :
    IntOp.andi (IntOp.cmpi .sge x 0#32) (IntOp.cmpi .sle x 239999#32) = 1#1 := by
  have h0 : (0#32 : BitVec 32).toInt = 0 := by decide
  have h1 : (239999#32 : BitVec 32).toInt = 239999 := by decide
  exact IntOp.andi_eq_one.2 ⟨IntOp.cmpi_sge.2 (by rw [h0]; exact h.1), IntOp.cmpi_sle.2 (by rw [h1]; exact h.2)⟩

/-! ## A conjunction of ones is one -/

/-- A left fold by "and" that starts at 1 and meets only 1s ends at 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1 : BitVec 1) (f a) = 1#1 := by rw [hf a]; decide
    rw [List.foldl_cons, e]
    exact foldl_andi_one f hf l

/-- An "and"-reduction, over any axes, of an array of ones from the start value 1 is 1 at every position. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_one x hx _

/-! ## Properties kept by re-reading -/

/-- A broadcast of row numbers in range is in range: each entry is an entry of the operand. -/
theorem inRange_bcast {s t : Shape} (dims : Fin s.rank → Fin t.rank) (h : s.BroadcastsInDim t dims) (v : IVec s 32)
    (hv : InRange v) : InRange (broadcastInDim t dims h v) := fun _ => hv _

/-- A broadcast of an array of ones is an array of ones. -/
theorem ones_bcast {s t : Shape} (dims : Fin s.rank → Fin t.rank) (h : s.BroadcastsInDim t dims) (c : IVec s 1)
    (hc : ∀ i, c i = 1#1) : ∀ j, broadcastInDim t dims h c j = 1#1 := fun _ => hc _

/-- A broadcast of a real array is real. -/
theorem allReal_bcast {s t : Shape} (dims : Fin s.rank → Fin t.rank) (h : s.BroadcastsInDim t dims) (x : s.Idx → EReal)
    (hx : AllReal x) : AllReal (broadcastInDim t dims h x) := fun _ => hx _

/-- A gather from a real table is real, whatever the start indices: each entry is an entry of the table. -/
theorem allReal_gather {s si t : Shape} {w : Nat} (d : GatherDims s si t) (x : s.Idx → EReal) (idx : IVec si w)
    (hx : AllReal x) : AllReal (Host.gather d x idx) := fun _ => hx _

/-- A select whose condition is 1 everywhere is its first operand. -/
theorem allReal_select {s : Shape} (c : IVec s 1) (a b : s.Idx → EReal) (hc : ∀ i, c i = 1#1) (ha : AllReal a) :
    AllReal (select c a b) := fun i => by
  rw [select_apply, hc i, select_one]
  exact ha i

/-- A difference of real arrays is real. -/
theorem allReal_subf {s : Shape} (a b : FVec Ideal s .f32) (ha : AllReal a) (hb : AllReal b) : AllReal (subf a b) :=
  fun i => by
    obtain ⟨r, hr⟩ := ha i
    obtain ⟨q, hq⟩ := hb i
    exact ⟨r - q, by rw [subf_apply, hr, hq, EReal.coe_sub]⟩

/-- Each entry of a concatenation is an entry of one of its pieces, so a concatenation of real arrays is real. -/
theorem allReal_concat {t : Shape} (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- The same for two pieces. -/
theorem allReal_concat_pair {t s₁ s₂ : Shape} (a : Fin t.rank) (x₁ : s₁.Idx → EReal) (x₂ : s₂.Idx → EReal)
    (h : Shape.Concatenates [s₁, s₂] t a) (h₁ : AllReal x₁) (h₂ : AllReal x₂) :
    AllReal (concatenate t a [⟨s₁, x₁⟩, ⟨s₂, x₂⟩] h) :=
  allReal_concat a [⟨s₁, x₁⟩, ⟨s₂, x₂⟩] h (by
    intro p hp
    rcases List.mem_cons.1 hp with rfl | hp
    · exact h₁
    · rcases List.mem_cons.1 hp with rfl | hp
      · exact h₂
      · exact absurd hp List.not_mem_nil)

/-! ## The in-range test -/

/-- The in-range test of row numbers that are in range, "and"-reduced over any axes from 1, is 1 everywhere. -/
theorem test_ones {s t u : Shape} {axes : List (Fin s.rank)} (v lo hi : IVec s 32) (init : IVec u 1)
    (h : s.ReducesTo axes t) (hu : 0 < u.numel) (hlo : ∀ i, lo i = 0#32) (hhi : ∀ i, hi i = 239999#32)
    (hinit : init (Shape.Idx.first hu) = 1#1) (hv : InRange v) (j : t.Idx) :
    Host.reduce IntOp.andi (andi (cmpi .sge v lo) (cmpi .sle v hi)) init h hu j = 1#1 :=
  reduce_andi_one _ init h hu (fun i => by
    show IntOp.andi (IntOp.cmpi .sge (v i) (lo i)) (IntOp.cmpi .sle (v i) (hi i)) = 1#1
    rw [hlo i, hhi i]
    exact mask_word _ (hv i)) hinit j

/-! ## The wrapped row numbers -/

/-- The sample row numbers, wrapped, are in range. -/
theorem wrap1_inRange (sidx : IVec S60000 32) (hs : IdxOk sidx) : InRange (TD.wrap1 sidx) := fun i =>
  wrap_word (sidx i) (hs i)

/-- The neighbour row numbers, wrapped, are in range. -/
theorem wrap2_inRange (kidx : IVec S60000x16 32) (hk : IdxOk kidx) : InRange (TD.wrap2 kidx) := fun i =>
  wrap_word (kidx i) (hk i)

/-- The neighbours' in-range test is 1 everywhere on row numbers in range. -/
theorem okMask_ones (v5 : IVec S60000x16x1 32) (hv : InRange v5) (j : S60000x16.Idx) : TD.okMask v5 j = 1#1 :=
  test_ones v5 _ _ _ _ _ (fun _ => rfl) (fun _ => rfl) rfl hv j

/-! ## The three lookups -/

/-- The sampled points are real. -/
theorem newPoint_real (point : FVec Ideal S240000x3 .f32) (sidx : IVec S60000 32) (hp : AllReal point)
    (hs : IdxOk sidx) : AllReal (TD.newPoint (F := Ideal) point sidx) := by
  have hv : InRange (broadcastInDim S60000x1 ![0] bcast_S60000_S60000x1_0 (TD.wrap1 sidx)) :=
    inRange_bcast _ _ _ (wrap1_inRange sidx hs)
  refine allReal_select _ _ _ (ones_bcast _ _ _ (fun j => ?_)) (allReal_gather _ _ _ hp)
  exact test_ones _ _ _ _ _ _ (fun _ => rfl) (fun _ => rfl) rfl hv j

/-- The neighbours' coordinates are real. -/
theorem takeXyz_real (point : FVec Ideal S240000x3 .f32) (kidx : IVec S60000x16 32) (hp : AllReal point)
    (hk : IdxOk kidx) : AllReal (TD.takeXyz (F := Ideal) point kidx) := by
  have hv : InRange (broadcastInDim S60000x16x1 ![0, 1] bcast_S60000x16_S60000x16x1_0_1 (TD.wrap2 kidx)) :=
    inRange_bcast _ _ _ (wrap2_inRange kidx hk)
  exact allReal_select _ _ _ (ones_bcast _ _ _ (okMask_ones _ hv)) (allReal_gather _ _ _ hp)

/-- The neighbours' features are real. -/
theorem takeFeat_real (feat : FVec Ideal S240000x64 .f32) (kidx : IVec S60000x16 32) (hf : AllReal feat)
    (hk : IdxOk kidx) : AllReal (TD.takeFeat (F := Ideal) feat kidx) := by
  have hv : InRange (broadcastInDim S60000x16x1 ![0, 1] bcast_S60000x16_S60000x16x1_0_1 (TD.wrap2 kidx)) :=
    inRange_bcast _ _ _ (wrap2_inRange kidx hk)
  exact allReal_select _ _ _ (ones_bcast _ _ _ (okMask_ones _ hv)) (allReal_gather _ _ _ hf)

/-! ## The grouped input -/

theorem grouped_real (point : FVec Ideal S240000x3 .f32) (feat : FVec Ideal S240000x64 .f32)
    (sidx : IVec S60000 32) (kidx : IVec S60000x16 32)
    (hp : AllReal point) (hf : AllReal feat) (hs : IdxOk sidx) (hk : IdxOk kidx) :
    AllReal (TD.grouped (F := Ideal) point feat sidx kidx) := by
  exact allReal_concat_pair _ _ _ _
    (allReal_subf _ _ (takeXyz_real point kidx hp hk)
      (allReal_bcast _ _ _ (allReal_bcast _ _ _ (newPoint_real point sidx hp hs))))
    (takeFeat_real feat kidx hf hk)

end Cert.ReferenceIdeal.Preamble

end
-- ==== Proof.PreDecode.lean ====
/-
  What the precondition says of the arguments: the five float arrays hold real numbers, the two index arrays hold row
  numbers of a 240000-row table (from the front or from the back).

  The precondition is one bit, the conjunction of seven "for all entries" statements. Each of these is itself a
  conjunction, folded over every entry of an array, of one bit per entry; so the bit being set means that every
  entry's bit is set. For a float entry x the bit says |x| < +∞ with |x| = max x (−x) on the extended reals, which
  leaves x neither +∞ nor −∞: x is a real. For an index entry the bit is the conjunction of two signed comparisons,
  −240000 ≤ x and x < 240000.
-/
import proofs.«137218_j74440373174612_1_alg».proof.Pre_finite_inputs
import proofs.«137218_j74440373174612_1_alg».proof.Proof.Spec
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.TD

/-- The rank-0 shape has exactly one index. -/
instance : Subsingleton S_.Idx := ⟨fun a b => funext fun d => d.elim0⟩

/-- The pattern the comparison is made against denotes +∞. -/
theorem inf_pattern : Ideal.ofBits .f32 0x7F800000#32 = (⊤ : EReal) := by
  simp [Ideal.ofBits, Ideal.ieee]

/-- An extended real whose absolute value max x (−x) is below +∞ is a real: +∞ fails through x itself, −∞ through −x. -/
theorem real_of_abs_lt_top (x : EReal) (h : max x (-x) < ⊤) : ∃ r : ℝ, x = (r : EReal) := by
  induction x using EReal.rec with
  | bot => simp at h
  | coe r => exact ⟨r, rfl⟩
  | top => simp at h

/-- One entry of a float array: the bit of |x| < +∞ being set makes the entry a real. -/
theorem real_of_bit {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  have h' : Ideal.cmp .olt (max (a i) (-(a i))) (Ideal.ofBits .f32 0x7F800000#32) = 1#1 := h
  rw [inf_pattern] at h'
  simp only [Ideal.cmp, StableHlo.Predicate.ofBool_eq_one_iff, decide_eq_true_eq] at h'
  exact real_of_abs_lt_top _ h'

/-- One entry of an index array: the two signed comparisons, read as integers. -/
theorem range_of_bit {s : Shape} (hb : S_.BroadcastsInDim s (![] : Fin 0 → Fin s.rank)) (a : IVec s 32) (i : s.Idx)
    (h : andi (cmpi .sge a (broadcastInDim s ![] hb (constantI S_ 32 4294727296#32)))
          (cmpi .slt a (broadcastInDim s ![] hb (constantI S_ 32 240000#32))) i = 1#1) :
    -240000 ≤ (a i).toInt ∧ (a i).toInt < 240000 := by
  have h' : IntOp.andi (IntOp.cmpi .sge (a i) 4294727296#32) (IntOp.cmpi .slt (a i) 240000#32) = 1#1 := h
  obtain ⟨h1, h2⟩ := IntOp.andi_eq_one.1 h'
  have e1 : (4294727296#32 : BitVec 32).toInt = -240000 := by decide
  have e2 : (240000#32 : BitVec 32).toInt = 240000 := by decide
  rw [IntOp.cmpi_sge, e1] at h1
  rw [IntOp.cmpi_slt, e2] at h2
  exact ⟨h1, h2⟩

variable [Facts]

open Facts in
theorem of_pre (a0 : FVec Ideal S240000x3 .f32) (a1 : FVec Ideal S240000x64 .f32) (a2 : FVec Ideal S67x128 .f32)
    (a3 a4 : FVec Ideal S128 .f32) (a5 : IVec S60000 32) (a6 : IVec S60000x16 32)
    (h : fn (F := Ideal) a0 a1 a2 a3 a4 a5 a6 = fun _ => 1#1) :
    AllReal a0 ∧ AllReal a1 ∧ AllReal a2 ∧ AllReal a3 ∧ AllReal a4 ∧ IdxOk a5 ∧ IdxOk a6 := by
  have h0 := congrFun h ValueIdx.ix0
  dsimp only [fn, fn_part1, fn_part2] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => ?_, fun i => ?_, fun i => ?_, fun i => ?_, fun i => ?_, fun i => ?_⟩
  · exact real_of_bit bcast_S_S240000x3 a0 i (Host.reduce_andi_all _ _ _ _ _ h0 i)
  · exact real_of_bit bcast_S_S240000x64 a1 i (Host.reduce_andi_all _ _ _ _ _ h1 i)
  · exact real_of_bit bcast_S_S67x128 a2 i (Host.reduce_andi_all _ _ _ _ _ h2 i)
  · exact real_of_bit bcast_S_S128 a3 i (Host.reduce_andi_all _ _ _ _ _ h3 i)
  · exact real_of_bit bcast_S_S128 a4 i (Host.reduce_andi_all _ _ _ _ _ h4 i)
  · exact range_of_bit bcast_S_S60000 a5 i (Host.reduce_andi_all _ _ _ _ _ h5 i)
  · exact range_of_bit bcast_S_S60000x16 a6 i (Host.reduce_andi_all _ _ _ _ _ h6 i)

end Cert.Pre_finite_inputs.Decode

end
-- ==== Proof.lean ====
/-
  A point cloud is thinned: each of 60000 sampled points gathers its 16 nearest neighbours out of 240000 points, each
  neighbour carrying its coordinates relative to the sampled point and 64 features; a dense layer (67 → 128 channels),
  batch normalisation over all 960000 neighbours, a clip at 0 and the maximum over the 16 neighbours follow.

  The kernel program and the reference build the grouped input by the same lookups. They differ in the normalisation:
  the kernel accumulates Σ y and Σ y² in a first pass over the neighbours, forms the variance as E[y²] − E[y]² clipped at 0,
  folds mean, variance, γ and β into one scale and one shift per channel, and applies y · scale + shift in a second pass;
  the reference centres first, with the variance Σ (y − μ)² / n. On real numbers the two agree: the variance identity
  Σ (y − μ)² = Σ y² − n μ² (n the number of neighbours, μ their mean) makes the clip idle, and
  y · (γ s) + (β − (μ γ) s) = ((y − μ) s) γ + β is an identity of the real field. Both laws fail at the infinities, so the
  proof uses the precondition twice: the five float arrays hold real numbers, and every row number indexes the
  240000-row tables (from the front or from the back), without which a lookup yields the fill value, which is not a
  real number, in both programs.

  The parts: the shared lookups as one term (PreambleDefs) and their entries' realness (Preamble); what the precondition
  says (PreDecode); the reference's run (RefRun) and its tail read at an index (RefTail, RefValue); the kernel program's
  run with its results named (KernelRun), its host stretches (KernelHost), its two passes (Region0, Region1) and its
  results as functions of the launch memory (KernelValue); the specification both sides are read against (Spec) and the
  algebra between its two arrangements (Algebra).
-/
import proofs.«137218_j74440373174612_1_alg».proof.Defs
import proofs.«137218_j74440373174612_1_alg».proof.Proof.Gen.Kernel
import proofs.«137218_j74440373174612_1_alg».proof.Proof.Gen.Kernel.Frame
import proofs.«137218_j74440373174612_1_alg».proof.Proof.Gen.KernelIdeal
import proofs.«137218_j74440373174612_1_alg».proof.Proof.Gen.KernelIdeal.Frame
import proofs.«137218_j74440373174612_1_alg».proof.Proof.Gen.ReferenceIdeal
import proofs.«137218_j74440373174612_1_alg».proof.Proof.Gen.Pre_finite_inputs
import proofs.«137218_j74440373174612_1_alg».proof.Proof.KernelRun
import proofs.«137218_j74440373174612_1_alg».proof.Proof.KernelValue
import proofs.«137218_j74440373174612_1_alg».proof.Proof.RefRun
import proofs.«137218_j74440373174612_1_alg».proof.Proof.RefValue
import proofs.«137218_j74440373174612_1_alg».proof.Proof.Algebra
import proofs.«137218_j74440373174612_1_alg».proof.Proof.Preamble
import proofs.«137218_j74440373174612_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The three frames and the idealization -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Run.run (F := Ideal) m ρ)

/-- The ideal pass rewrote nothing. -/
theorem preserves : Cert.preserves_Kernel_KernelIdeal := trivial

/-! ## The two programs' results agree -/

/-- Under the precondition the pooled outputs agree at every point and channel: the kernel's is the accumulate-then-fold
    arrangement, the reference's the centre-then-scale arrangement, of the same real data. -/
theorem out_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.TD.refTail (F := Ideal) (Cert.KernelIdeal.Value.xOf m c)
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.KernelIdeal.Gen.W8 m ρ c (Proc.devRef .tc Cert.KernelIdeal.main_v27) := by
  obtain ⟨h0, h1, h2, h3, h4, h5, h6⟩ := Cert.Pre_finite_inputs.Decode.of_pre _ _ _ _ _ _ _ (hpre c)
  have hx : Cert.TD.AllReal (Cert.KernelIdeal.Value.xOf m c) :=
    Cert.ReferenceIdeal.Preamble.grouped_real _ _ _ _ h0 h1 h5 h6
  funext i
  obtain ⟨p, d, rfl⟩ : ∃ (p : Fin 60000) (d : Fin 128), i = ix2 p d := ⟨i 0, i 1, eq_ix2 i⟩
  rw [Cert.ReferenceIdeal.RefValue.refTail_apply]
  exact ((Cert.KernelIdeal.Value.out_at m ρ c p d).trans (Cert.TD.outK_eq_outR _ _ _ _ hx h2 h3 h4 p d)).symm

theorem algebraic : Cert.algebraic_KernelIdeal_ReferenceIdeal := by
  intro m ρ m' ρ' hpre hagree
  refine ⟨fun c => Cert.KernelIdeal.Gen.W8 m ρ c (Proc.devRef .tc Cert.KernelIdeal.main_v0),
    fun c => Cert.KernelIdeal.Gen.W8 m ρ c (Proc.devRef .tc Cert.KernelIdeal.main_v27),
    Cert.KernelIdeal.Run.run (F := Ideal) m ρ, ?_⟩
  refine (θ_run Cert.ReferenceIdeal.defs _ _).mono (fun _ h c => ⟨?_, ?_, (h c).2.2⟩)
    (Cert.ReferenceIdeal.Run.run (F := Ideal) m' ρ')
  · rw [(h c).1, (hagree c).1, (hagree c).2.2.2.2.2.1]
    exact (Cert.KernelIdeal.Value.np_final m ρ c).symm
  · rw [(h c).2.1, (hagree c).1, (hagree c).2.1, (hagree c).2.2.1, (hagree c).2.2.2.1, (hagree c).2.2.2.2.1,
      (hagree c).2.2.2.2.2.1, (hagree c).2.2.2.2.2.2]
    exact out_agree m ρ hpre c

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
